-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x256x25 : Shape := ⟨4, ![64, 64, 256, 25]⟩
abbrev S64x64 : Shape := ⟨2, ![64, 64]⟩
abbrev S1x1x64 : Shape := ⟨3, ![1, 1, 64]⟩
abbrev S1x25x64 : Shape := ⟨3, ![1, 25, 64]⟩
abbrev S1600 : Shape := ⟨1, ![1600]⟩
abbrev S_ : Shape := ⟨0, ![]⟩

class Facts : Prop where
  bcast_S_S64x64x256x25 : S_.BroadcastsInDim S64x64x256x25 (![] : Fin 0 → Fin S64x64x256x25.rank)
  reducesTo_S64x64x256x25_S_d0_1_2_3 : S64x64x256x25.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S1x1x64 : S_.BroadcastsInDim S1x1x64 (![] : Fin 0 → Fin S1x1x64.rank)
  reducesTo_S1x1x64_S_d0_1_2 : S1x1x64.ReducesTo [0, 1, 2] S_
  bcast_S_S1x25x64 : S_.BroadcastsInDim S1x25x64 (![] : Fin 0 → Fin S1x25x64.rank)
  reducesTo_S1x25x64_S_d0_1_2 : S1x25x64.ReducesTo [0, 1, 2] S_
  bcast_S_S1600 : S_.BroadcastsInDim S1600 (![] : Fin 0 → Fin S1600.rank)
  reducesTo_S1600_S_d0 : S1600.ReducesTo [0] S_

variable [Facts]

def fn_part2 {F : FTy → Type} [FloatOps F] (main_arg6 : IVec S1600 32) (main_arg7 : IVec S1600 32) (main_v32 : IVec S_ 1) (main_c_12 : IVec S_ 32) : IVec S_ 1 :=
  let main_v33 : IVec S1600 32 := broadcastInDim S1600 ![] bcast_S_S1600 main_c_12
  let main_v34 : IVec S1600 1 := cmpi .slt main_arg6 main_v33
  let main_c_13 : IVec S_ 1 := constantI S_ 1 1#1
  let main_v35 : IVec S_ 1 := (fun x v => Host.reduce IntOp.andi x v reducesTo_S1600_S_d0 h_S_) main_v34 main_c_13
  let main_v36 : IVec S_ 1 := andi main_v32 main_v35
  let main_c_14 : IVec S_ 32 := constantI S_ 32 4294965696#32
  let main_v37 : IVec S1600 32 := broadcastInDim S1600 ![] bcast_S_S1600 main_c_14
  let main_v38 : IVec S1600 1 := cmpi .sge main_arg7 main_v37
  let main_c_15 : IVec S_ 1 := constantI S_ 1 1#1
  let main_v39 : IVec S_ 1 := (fun x v => Host.reduce IntOp.andi x v reducesTo_S1600_S_d0 h_S_) main_v38 main_c_15
  let main_v40 : IVec S_ 1 := andi main_v36 main_v39
  let main_c_16 : IVec S_ 32 := constantI S_ 32 1600#32
  let main_v41 : IVec S1600 32 := broadcastInDim S1600 ![] bcast_S_S1600 main_c_16
  let main_v42 : IVec S1600 1 := cmpi .slt main_arg7 main_v41
  let main_c_17 : IVec S_ 1 := constantI S_ 1 1#1
  let main_v43 : IVec S_ 1 := (fun x v => Host.reduce IntOp.andi x v reducesTo_S1600_S_d0 h_S_) main_v42 main_c_17
  let main_v44 : IVec S_ 1 := andi main_v40 main_v43
  main_v44

def fn_part1 {F : FTy → Type} [FloatOps F] (main_arg4 : FVec F S1600 .f32) (main_arg5 : FVec F S1600 .f32) (main_arg6 : IVec S1600 32) (main_arg7 : IVec S1600 32) (main_v13 : IVec S_ 1) (main_v16 : IVec S1x25x64 1) : IVec S_ 1 :=
  let main_c_5 : IVec S_ 1 := constantI S_ 1 1#1
  let main_v17 : IVec S_ 1 := (fun x v => Host.reduce IntOp.andi x v reducesTo_S1x25x64_S_d0_1_2 h_S_) main_v16 main_c_5
  let main_v18 : IVec S_ 1 := andi main_v13 main_v17
  let main_v19 : FVec F S1600 .f32 := Host.absf main_arg4
  let main_cst_6 : FVec F S_ .f32 := constant S_ .f32 0x7F800000#32
  let main_v20 : FVec F S1600 .f32 := broadcastInDim S1600 ![] bcast_S_S1600 main_cst_6
  let main_v21 : IVec S1600 1 := cmpf .olt main_v19 main_v20
  let main_c_7 : IVec S_ 1 := constantI S_ 1 1#1
  let main_v22 : IVec S_ 1 := (fun x v => Host.reduce IntOp.andi x v reducesTo_S1600_S_d0 h_S_) main_v21 main_c_7
  let main_v23 : IVec S_ 1 := andi main_v18 main_v22
  let main_v24 : FVec F S1600 .f32 := Host.absf main_arg5
  let main_cst_8 : FVec F S_ .f32 := constant S_ .f32 0x7F800000#32
  let main_v25 : FVec F S1600 .f32 := broadcastInDim S1600 ![] bcast_S_S1600 main_cst_8
  let main_v26 : IVec S1600 1 := cmpf .olt main_v24 main_v25
  let main_c_9 : IVec S_ 1 := constantI S_ 1 1#1
  let main_v27 : IVec S_ 1 := (fun x v => Host.reduce IntOp.andi x v reducesTo_S1600_S_d0 h_S_) main_v26 main_c_9
  let main_v28 : IVec S_ 1 := andi main_v23 main_v27
  let main_c_10 : IVec S_ 32 := constantI S_ 32 4294965696#32
  let main_v29 : IVec S1600 32 := broadcastInDim S1600 ![] bcast_S_S1600 main_c_10
  let main_v30 : IVec S1600 1 := cmpi .sge main_arg6 main_v29
  let main_c_11 : IVec S_ 1 := constantI S_ 1 1#1
  let main_v31 : IVec S_ 1 := (fun x v => Host.reduce IntOp.andi x v reducesTo_S1600_S_d0 h_S_) main_v30 main_c_11
  let main_v32 : IVec S_ 1 := andi main_v28 main_v31
  let main_c_12 : IVec S_ 32 := constantI S_ 32 1600#32
  fn_part2 (F := F) main_arg6 main_arg7 main_v32 main_c_12

def fn {F : FTy → Type} [FloatOps F] (main_arg0 : FVec F S64x64x256x25 .f32) (main_arg1 : FVec F S64x64 .f32) (main_arg2 : FVec F S1x1x64 .f32) (main_arg3 : FVec F S1x25x64 .f32) (main_arg4 : FVec F S1600 .f32) (main_arg5 : FVec F S1600 .f32) (main_arg6 : IVec S1600 32) (main_arg7 : IVec S1600 32) : IVec S_ 1 :=
  let main_v0 : FVec F S64x64x256x25 .f32 := Host.absf main_arg0
  let main_cst : FVec F S_ .f32 := constant S_ .f32 0x7F800000#32
  let main_v1 : FVec F S64x64x256x25 .f32 := broadcastInDim S64x64x256x25 ![] bcast_S_S64x64x256x25 main_cst
  let main_v2 : IVec S64x64x256x25 1 := cmpf .olt main_v0 main_v1
  let main_c : IVec S_ 1 := constantI S_ 1 1#1
  let main_v3 : IVec S_ 1 := (fun x v => Host.reduce IntOp.andi x v reducesTo_S64x64x256x25_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S1x1x64 .f32 := Host.absf main_arg2
  let main_cst_2 : FVec F S_ .f32 := constant S_ .f32 0x7F800000#32
  let main_v10 : FVec F S1x1x64 .f32 := broadcastInDim S1x1x64 ![] bcast_S_S1x1x64 main_cst_2
  let main_v11 : IVec S1x1x64 1 := cmpf .olt main_v9 main_v10
  let main_c_3 : IVec S_ 1 := constantI S_ 1 1#1
  let main_v12 : IVec S_ 1 := (fun x v => Host.reduce IntOp.andi x v reducesTo_S1x1x64_S_d0_1_2 h_S_) main_v11 main_c_3
  let main_v13 : IVec S_ 1 := andi main_v8 main_v12
  let main_v14 : FVec F S1x25x64 .f32 := Host.absf main_arg3
  let main_cst_4 : FVec F S_ .f32 := constant S_ .f32 0x7F800000#32
  let main_v15 : FVec F S1x25x64 .f32 := broadcastInDim S1x25x64 ![] bcast_S_S1x25x64 main_cst_4
  let main_v16 : IVec S1x25x64 1 := cmpf .olt main_v14 main_v15
  fn_part1 (F := F) main_arg4 main_arg5 main_arg6 main_arg7 main_v13 main_v16
-- ==== Kernel.lean ====
abbrev S64x64x256x25 : Shape := ⟨4, ![64, 64, 256, 25]⟩
abbrev S64x64 : Shape := ⟨2, ![64, 64]⟩
abbrev S1x1x64 : Shape := ⟨3, ![1, 1, 64]⟩
abbrev S1x25x64 : Shape := ⟨3, ![1, 25, 64]⟩
abbrev S1600 : Shape := ⟨1, ![1600]⟩
abbrev S64x256x25x64 : Shape := ⟨4, ![64, 256, 25, 64]⟩
abbrev S16384x1600 : Shape := ⟨2, ![16384, 1600]⟩
abbrev S_ : Shape := ⟨0, ![]⟩
abbrev S1600x1 : Shape := ⟨2, ![1600, 1]⟩
abbrev S1 : Shape := ⟨1, ![1]⟩
abbrev S1x1 : Shape := ⟨2, ![1, 1]⟩
abbrev S1x1600 : Shape := ⟨2, ![1, 1600]⟩
abbrev S1x64 : Shape := ⟨2, ![1, 64]⟩
abbrev S1x1x1x64 : Shape := ⟨4, ![1, 1, 1, 64]⟩
abbrev S1x1x25x64 : Shape := ⟨4, ![1, 1, 25, 64]⟩
abbrev S512x1600 : Shape := ⟨2, ![512, 1600]⟩
abbrev S512x64 : Shape := ⟨2, ![512, 64]⟩

abbrev nBuf : Space → Nat
  | .hbm => 131
  | .vmem => 19
  | .smem => 0
  | _ => 0

abbrev hbmTy0_0 (i : Nat) : BufTy := match i % 128 with
  | 0 => ⟨S64x64x256x25, .f32⟩
  | 1 => ⟨S64x64, .f32⟩
  | 2 => ⟨S1x1x64, .f32⟩
  | 3 => ⟨S1x25x64, .f32⟩
  | 4 => ⟨S1600, .f32⟩
  | 5 => ⟨S1600, .f32⟩
  | 6 => ⟨S1600, .i32⟩
  | 7 => ⟨S1600, .i32⟩
  | 8 => ⟨S64x256x25x64, .f32⟩
  | 9 => ⟨S16384x1600, .f32⟩
  | 10 => ⟨S_, .i32⟩
  | 11 => ⟨S1600, .i32⟩
  | 12 => ⟨S1600, .i1⟩
  | 13 => ⟨S_, .i32⟩
  | 14 => ⟨S1600, .i32⟩
  | 15 => ⟨S1600, .i32⟩
  | 16 => ⟨S1600, .i32⟩
  | 17 => ⟨S1600x1, .i32⟩
  | 18 => ⟨S1, .i32⟩
  | 19 => ⟨S_, .i32⟩
  | 20 => ⟨S1600x1, .i32⟩
  | 21 => ⟨S1600x1, .i1⟩
  | 22 => ⟨S1x1, .i32⟩
  | 23 => ⟨S1600x1, .i32⟩
  | 24 => ⟨S1600x1, .i1⟩
  | 25 => ⟨S1600x1, .i1⟩
  | 26 => ⟨S_, .i1⟩
  | 27 => ⟨S1600, .i1⟩
  | 28 => ⟨S16384x1600, .f32⟩
  | 29 => ⟨S16384x1600, .i1⟩
  | 30 => ⟨S_, .f32⟩
  | 31 => ⟨S16384x1600, .f32⟩
  | 32 => ⟨S16384x1600, .f32⟩
  | 33 => ⟨S1x25x64, .f32⟩
  | 34 => ⟨S_, .f32⟩
  | 35 => ⟨S1x25x64, .f32⟩
  | 36 => ⟨S1x25x64, .f32⟩
  | 37 => ⟨S1x1600, .f32⟩
  | 38 => ⟨S1x64, .f32⟩
  | 39 => ⟨S1x1x1x64, .f32⟩
  | 40 => ⟨S1x1x25x64, .f32⟩
  | 41 => ⟨S1x1600, .f32⟩
  | 42 => ⟨S16384x1600, .f32⟩
  | 43 => ⟨S1x1600, .f32⟩
  | 44 => ⟨S1x1600, .f32⟩
  | 45 => ⟨S_, .i32⟩
  | 46 => ⟨S1600, .i32⟩
  | 47 => ⟨S1600, .i1⟩
  | 48 => ⟨S_, .i32⟩
  | 49 => ⟨S1600, .i32⟩
  | 50 => ⟨S1600, .i32⟩
  | 51 => ⟨S1600, .i32⟩
  | 52 => ⟨S1600x1, .i32⟩
  | 53 => ⟨S1, .i32⟩
  | 54 => ⟨S_, .i32⟩
  | 55 => ⟨S1600x1, .i32⟩
  | 56 => ⟨S1600x1, .i1⟩
  | 57 => ⟨S1x1, .i32⟩
  | 58 => ⟨S1600x1, .i32⟩
  | 59 => ⟨S1600x1, .i1⟩
  | 60 => ⟨S1600x1, .i1⟩
  | 61 => ⟨S_, .i1⟩
  | 62 => ⟨S1600, .i1⟩
  | 63 => ⟨S16384x1600, .f32⟩
  | 64 => ⟨S16384x1600, .i1⟩
  | 65 => ⟨S_, .f32⟩
  | 66 => ⟨S16384x1600, .f32⟩
  | 67 => ⟨S16384x1600, .f32⟩
  | 68 => ⟨S_, .i32⟩
  | 69 => ⟨S1600, .i32⟩
  | 70 => ⟨S1600, .i1⟩
  | 71 => ⟨S_, .i32⟩
  | 72 => ⟨S1600, .i32⟩
  | 73 => ⟨S1600, .i32⟩
  | 74 => ⟨S1600, .i32⟩
  | 75 => ⟨S1600x1, .i32⟩
  | 76 => ⟨S1, .i32⟩
  | 77 => ⟨S_, .i32⟩
  | 78 => ⟨S1600x1, .i32⟩
  | 79 => ⟨S1600x1, .i1⟩
  | 80 => ⟨S1x1, .i32⟩
  | 81 => ⟨S1600x1, .i32⟩
  | 82 => ⟨S1600x1, .i1⟩
  | 83 => ⟨S1600x1, .i1⟩
  | 84 => ⟨S_, .i1⟩
  | 85 => ⟨S1600, .i1⟩
  | 86 => ⟨S1x1600, .f32⟩
  | 87 => ⟨S1x1600, .i1⟩
  | 88 => ⟨S_, .f32⟩
  | 89 => ⟨S1x1600, .f32⟩
  | 90 => ⟨S1x1600, .f32⟩
  | 91 => ⟨S_, .i32⟩
  | 92 => ⟨S1600, .i32⟩
  | 93 => ⟨S1600, .i1⟩
  | 94 => ⟨S_, .i32⟩
  | 95 => ⟨S1600, .i32⟩
  | 96 => ⟨S1600, .i32⟩
  | 97 => ⟨S1600, .i32⟩
  | 98 => ⟨S1600x1, .i32⟩
  | 99 => ⟨S1, .i32⟩
  | 100 => ⟨S_, .i32⟩
  | 101 => ⟨S1600x1, .i32⟩
  | 102 => ⟨S1600x1, .i1⟩
  | 103 => ⟨S1x1, .i32⟩
  | 104 => ⟨S1600x1, .i32⟩
  | 105 => ⟨S1600x1, .i1⟩
  | 106 => ⟨S1600x1, .i1⟩
  | 107 => ⟨S_, .i1⟩
  | 108 => ⟨S1600, .i1⟩
  | 109 => ⟨S1x1600, .f32⟩
  | 110 => ⟨S1x1600, .i1⟩
  | 111 => ⟨S_, .f32⟩
  | 112 => ⟨S1x1600, .f32⟩
  | 113 => ⟨S1x1600, .f32⟩
  | 114 => ⟨S_, .f32⟩
  | 115 => ⟨S1x1600, .f32⟩
  | 116 => ⟨S1x1600, .f32⟩
  | 117 => ⟨S_, .f32⟩
  | 118 => ⟨S1x1600, .f32⟩
  | 119 => ⟨S1x1600, .f32⟩
  | 120 => ⟨S1x1600, .f32⟩
  | 121 => ⟨S1x1600, .f32⟩
  | 122 => ⟨S_, .f32⟩
  | 123 => ⟨S1x1600, .f32⟩
  | 124 => ⟨S1x1600, .f32⟩
  | 125 => ⟨S1x1600, .f32⟩
  | 126 => ⟨S1x1600, .f32⟩
  | 127 => ⟨S1x1600, .f32⟩
  | _ => ⟨S64x64x256x25, .f32⟩

abbrev hbmTy0_1 (i : Nat) : BufTy := match i % 128 with
  | 0 => ⟨S16384x1600, .f32⟩
  | 1 => ⟨S64x256x25x64, .f32⟩
  | 2 => ⟨S64x64x256x25, .f32⟩
  | _ => ⟨S64x64x256x25, .f32⟩

abbrev hbmTy (i : Nat) : BufTy := match i / 128 with
  | 0 => hbmTy0_0 i
  | 1 => hbmTy0_1 i
  | _ => ⟨S64x64x256x25, .f32⟩

abbrev bufTy : (tb : Table) → Fin (tcTables nBuf tb) → BufTy
  | .hbm, ⟨i, _⟩ => hbmTy i
  | .local _ .vmem, ⟨0, _⟩ => ⟨S512x1600, .f32⟩
  | .local _ .vmem, ⟨1, _⟩ => ⟨S512x1600, .f32⟩
  | .local _ .vmem, ⟨2, _⟩ => ⟨S1x1600, .f32⟩
  | .local _ .vmem, ⟨3, _⟩ => ⟨S64x64, .f32⟩
  | .local _ .vmem, ⟨4, _⟩ => ⟨S1x1600, .f32⟩
  | .local _ .vmem, ⟨5, _⟩ => ⟨S512x1600, .f32⟩
  | .local _ .vmem, ⟨6, _⟩ => ⟨S512x1600, .f32⟩
  | .local _ .vmem, ⟨7, _⟩ => ⟨S1x1600, .f32⟩
  | .local _ .vmem, ⟨8, _⟩ => ⟨S1x1600, .f32⟩
  | .local _ .vmem, ⟨9, _⟩ => ⟨S512x1600, .f32⟩
  | .local _ .vmem, ⟨10, _⟩ => ⟨S512x1600, .f32⟩
  | .local _ .vmem, ⟨11, _⟩ => ⟨S512x1600, .f32⟩
  | .local _ .vmem, ⟨12, _⟩ => ⟨S512x1600, .f32⟩
  | .local _ .vmem, ⟨13, _⟩ => ⟨S1x1600, .f32⟩
  | .local _ .vmem, ⟨14, _⟩ => ⟨S1x1600, .f32⟩
  | .local _ .vmem, ⟨15, _⟩ => ⟨S1x1600, .f32⟩
  | .local _ .vmem, ⟨16, _⟩ => ⟨S1x1600, .f32⟩
  | .local _ .vmem, ⟨17, _⟩ => ⟨S512x1600, .f32⟩
  | .local _ .vmem, ⟨18, _⟩ => ⟨S512x1600, .f32⟩
  | _, _ => ⟨S64x64x256x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11_0 : Ref sig .tc := ⟨.hbm, 42, rfl⟩
abbrev main_v11_1 : Ref sig .tc := ⟨.hbm, 43, rfl⟩
abbrev main_v11_2 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v12 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v13 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v14 : Ref sig .tc := ⟨.hbm, 113, rfl⟩
abbrev main_cst_0 : Ref sig .tc := ⟨.hbm, 114, rfl⟩
abbrev main_v15 : Ref sig .tc := ⟨.hbm, 115, rfl⟩
abbrev main_v16 : Ref sig .tc := ⟨.hbm, 116, rfl⟩
abbrev main_cst_1 : Ref sig .tc := ⟨.hbm, 117, rfl⟩
abbrev main_v17 : Ref sig .tc := ⟨.hbm, 118, rfl⟩
abbrev main_v18 : Ref sig .tc := ⟨.hbm, 119, rfl⟩
abbrev main_v19 : Ref sig .tc := ⟨.hbm, 120, rfl⟩
abbrev main_v20 : Ref sig .tc := ⟨.hbm, 121, rfl⟩
abbrev main_cst_2 : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev main_v24 : Ref sig .tc := ⟨.hbm, 126, rfl⟩
abbrev main_v25 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1600 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1600 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1600 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1600 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1600 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1600 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1600 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1600 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S64x64x256x25_S64x256x25x64_0_2_3_1 : S64x64x256x25.Transposes [0, 2, 3, 1] S64x256x25x64
  shapeCasts_S64x256x25x64_S16384x1600 : S64x256x25x64.ShapeCasts S16384x1600
  bcast_S_S1600 : S_.BroadcastsInDim S1600 (![] : Fin 0 → Fin S1600.rank)
  bcast_S1600_S1600x1_0 : S1600.BroadcastsInDim S1600x1 (![0] : Fin 1 → Fin S1600x1.rank)
  bcast_S_S1600x1 : S_.BroadcastsInDim S1600x1 (![] : Fin 0 → Fin S1600x1.rank)
  bcast_S1_S1x1_1 : S1.BroadcastsInDim S1x1 (![1] : Fin 1 → Fin S1x1.rank)
  bcast_S1x1_S1600x1_0_1 : S1x1.BroadcastsInDim S1600x1 (![0, 1] : Fin 2 → Fin S1600x1.rank)
  reducesTo_S1600x1_S1600_d1 : S1600x1.ReducesTo [1] S1600
  h_S_ : 0 < S_.numel
  bcast_S1600_S16384x1600_1 : S1600.BroadcastsInDim S16384x1600 (![1] : Fin 1 → Fin S16384x1600.rank)
  bcast_S_S16384x1600 : S_.BroadcastsInDim S16384x1600 (![] : Fin 0 → Fin S16384x1600.rank)
  bcast_S_S1x25x64 : S_.BroadcastsInDim S1x25x64 (![] : Fin 0 → Fin S1x25x64.rank)
  shapeCasts_S1x25x64_S1x1600 : S1x25x64.ShapeCasts S1x1600
  shapeCasts_S1x1x64_S1x64 : S1x1x64.ShapeCasts S1x64
  shapeCasts_S1x64_S1x1x1x64 : S1x64.ShapeCasts S1x1x1x64
  bcast_S1x1x1x64_S1x1x25x64_0_1_2_3 : S1x1x1x64.BroadcastsInDim S1x1x25x64 (![0, 1, 2, 3] : Fin 4 → Fin S1x1x25x64.rank)
  shapeCasts_S1x1x25x64_S1x1600 : S1x1x25x64.ShapeCasts S1x1600
  inb_S1x1600_S1x1600_0_0 : ∀ a, (![0, 0] : Fin 2 → Nat) a + S1x1600.size a ≤ S1x1600.size a
  h_S1x1600 : 0 < S1x1600.numel
  inb_S512x1600_S512x1600_0_0 : ∀ a, (![0, 0] : Fin 2 → Nat) a + S512x1600.size a ≤ S512x1600.size a
  h_S512x1600 : 0 < S512x1600.numel
  shapeCasts_S512x1600_S512x1600 : S512x1600.ShapeCasts S512x1600
  shapeCasts_S1x1600_S1x1600 : S1x1600.ShapeCasts S1x1600
  broadcasts_S1x1600_S512x1600 : S1x1600.Broadcasts S512x1600
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  slices_S512x1600_o0_0_S512x64 : S512x1600.Slices ![0, 0] S512x64
  slices_S512x1600_o0_64_S512x64 : S512x1600.Slices ![0, 64] S512x64
  slices_S512x1600_o0_128_S512x64 : S512x1600.Slices ![0, 128] S512x64
  slices_S512x1600_o0_192_S512x64 : S512x1600.Slices ![0, 192] S512x64
  slices_S512x1600_o0_256_S512x64 : S512x1600.Slices ![0, 256] S512x64
  slices_S512x1600_o0_320_S512x64 : S512x1600.Slices ![0, 320] S512x64
  slices_S512x1600_o0_384_S512x64 : S512x1600.Slices ![0, 384] S512x64
  slices_S512x1600_o0_448_S512x64 : S512x1600.Slices ![0, 448] S512x64
  slices_S512x1600_o0_512_S512x64 : S512x1600.Slices ![0, 512] S512x64
  slices_S512x1600_o0_576_S512x64 : S512x1600.Slices ![0, 576] S512x64
  slices_S512x1600_o0_640_S512x64 : S512x1600.Slices ![0, 640] S512x64
  slices_S512x1600_o0_704_S512x64 : S512x1600.Slices ![0, 704] S512x64
  slices_S512x1600_o0_768_S512x64 : S512x1600.Slices ![0, 768] S512x64
  slices_S512x1600_o0_832_S512x64 : S512x1600.Slices ![0, 832] S512x64
  slices_S512x1600_o0_896_S512x64 : S512x1600.Slices ![0, 896] S512x64
  slices_S512x1600_o0_960_S512x64 : S512x1600.Slices ![0, 960] S512x64
  slices_S512x1600_o0_1024_S512x64 : S512x1600.Slices ![0, 1024] S512x64
  slices_S512x1600_o0_1088_S512x64 : S512x1600.Slices ![0, 1088] S512x64
  slices_S512x1600_o0_1152_S512x64 : S512x1600.Slices ![0, 1152] S512x64
  slices_S512x1600_o0_1216_S512x64 : S512x1600.Slices ![0, 1216] S512x64
  slices_S512x1600_o0_1280_S512x64 : S512x1600.Slices ![0, 1280] S512x64
  slices_S512x1600_o0_1344_S512x64 : S512x1600.Slices ![0, 1344] S512x64
  slices_S512x1600_o0_1408_S512x64 : S512x1600.Slices ![0, 1408] S512x64
  slices_S512x1600_o0_1472_S512x64 : S512x1600.Slices ![0, 1472] S512x64
  slices_S512x1600_o0_1536_S512x64 : S512x1600.Slices ![0, 1536] S512x64
  concatenates_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x1600_d1 : Shape.Concatenates [S512x64, S512x64, S512x64, S512x64, S512x64, S512x64, S512x64, S512x64, S512x64, S512x64, S512x64, S512x64, S512x64, S512x64, S512x64, S512x64, S512x64, S512x64, S512x64, S512x64, S512x64, S512x64, S512x64, S512x64, S512x64] S512x1600 1
  reduces_S512x1600_S1600 : S512x1600.Reduces [0] S1600
  shapeCasts_S1600_S1x1600 : S1600.ShapeCasts S1x1600
  bcast_S1600_S1x1600_1 : S1600.BroadcastsInDim S1x1600 (![1] : Fin 1 → Fin S1x1600.rank)
  bcast_S_S1x1600 : S_.BroadcastsInDim S1x1600 (![] : Fin 0 → Fin S1x1600.rank)
  shapeCasts_S16384x1600_S64x256x25x64 : S16384x1600.ShapeCasts S64x256x25x64
  transposes_S64x256x25x64_S64x64x256x25_0_3_1_2 : S64x256x25x64.Transposes [0, 3, 1, 2] S64x64x256x25
  gather_S16384x1600_S1600x1_S16384x1600_0_1_n_n_1_1_163841_wf : GatherDims.WF S16384x1600 S1600x1 S16384x1600 [0] [1] [] [1] [] 1 ![16384, 1]
  dot_S512x64_S64x64_S512x64_1_0_0_1_n_n_wf : DotDims.WF S512x64 S64x64 S512x64 [1] [0] [0] [1] [] []
  gather_S1x1600_S1600x1_S1x1600_0_1_n_n_1_1_11_wf : GatherDims.WF S1x1600 S1600x1 S1x1600 [0] [1] [] [1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1600.size a ≤ S16384x1600.size a
  hwx0_0 : ∀ i : grid0.Coords, EltTy.bits .f32 = 32 ∨ (Rect.block (s := S16384x1600) S512x1600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1600.size a ≤ S1x1600.size a
  hwx0_1 : ∀ i : grid0.Coords, EltTy.bits .f32 = 32 ∨ (Rect.block (s := S1x1600) S1x1600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1600.size a ≤ S1x1600.size a
  hwx0_3 : ∀ i : grid0.Coords, EltTy.bits .f32 = 32 ∨ (Rect.block (s := S1x1600) S1x1600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1600.size a ≤ S16384x1600.size a
  hwx0_4 : ∀ i : grid0.Coords, EltTy.bits .f32 = 32 ∨ (Rect.block (s := S16384x1600) S512x1600.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1600.size a ≤ S1x1600.size a
  hwx0_5 : ∀ i : grid0.Coords, EltTy.bits .f32 = 32 ∨ (Rect.block (s := S1x1600) S1x1600.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1600.size a ≤ S1x1600.size a
  hwx0_6 : ∀ i : grid0.Coords, EltTy.bits .f32 = 32 ∨ (Rect.block (s := S1x1600) S1x1600.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1600.size a ≤ S16384x1600.size a
  hwx1_0 : ∀ i : grid1.Coords, EltTy.bits .f32 = 32 ∨ (Rect.block (s := S16384x1600) S512x1600.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1600.size a ≤ S16384x1600.size a
  hwx1_1 : ∀ i : grid1.Coords, EltTy.bits .f32 = 32 ∨ (Rect.block (s := S16384x1600) S512x1600.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1600.size a ≤ S1x1600.size a
  hwx1_2 : ∀ i : grid1.Coords, EltTy.bits .f32 = 32 ∨ (Rect.block (s := S1x1600) S1x1600.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1600.size a ≤ S1x1600.size a
  hwx1_3 : ∀ i : grid1.Coords, EltTy.bits .f32 = 32 ∨ (Rect.block (s := S1x1600) S1x1600.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1600.size a ≤ S1x1600.size a
  hwx1_4 : ∀ i : grid1.Coords, EltTy.bits .f32 = 32 ∨ (Rect.block (s := S1x1600) S1x1600.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1600.size a ≤ S1x1600.size a
  hwx1_5 : ∀ i : grid1.Coords, EltTy.bits .f32 = 32 ∨ (Rect.block (s := S1x1600) S1x1600.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1600.size a ≤ S16384x1600.size a
  hwx1_6 : ∀ i : grid1.Coords, EltTy.bits .f32 = 32 ∨ (Rect.block (s := S16384x1600) S512x1600.size (cc1_transform_6 i) (hinb1_6 i)).WholeWords (EltTy.packing .f32)

variable [Facts₀]

def gather_S16384x1600_S1600x1_S16384x1600_0_1_n_n_1_1_163841 : GatherDims S16384x1600 S1600x1 S16384x1600 where
  offsetDims := [0]
  collapsedSliceDims := [1]
  operandBatchingDims := []
  startIndicesBatchingDims := []
  startIndexMap := [1]
  indexVectorDim := 1
  sliceSizes := ![16384, 1]
  wf := gather_S16384x1600_S1600x1_S16384x1600_0_1_n_n_1_1_163841_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def gather_S1x1600_S1600x1_S1x1600_0_1_n_n_1_1_11 : GatherDims S1x1600 S1600x1 S1x1600 where
  offsetDims := [0]
  collapsedSliceDims := [1]
  operandBatchingDims := []
  startIndicesBatchingDims := []
  startIndexMap := [1]
  indexVectorDim := 1
  sliceSizes := ![1, 1]
  wf := gather_S1x1600_S1600x1_S1x1600_0_1_n_n_1_1_11_wf

abbrev win0_0 : Pipeline.Window sig grid0 :=
  Pipeline.Window.ofSpec (Memref.whole main_v2) S512x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S512x1600.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S1x1600.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S1x1600.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v12) S512x1600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1600.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1600.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x1600.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x1600.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x1600.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S512x1600.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S64x64x256x25 : Shape := ⟨4, ![64, 64, 256, 25]⟩
abbrev S64x64 : Shape := ⟨2, ![64, 64]⟩
abbrev S1x1x64 : Shape := ⟨3, ![1, 1, 64]⟩
abbrev S1x25x64 : Shape := ⟨3, ![1, 25, 64]⟩
abbrev S1600 : Shape := ⟨1, ![1600]⟩
abbrev S64x256x25x64 : Shape := ⟨4, ![64, 256, 25, 64]⟩
abbrev S16384x1600 : Shape := ⟨2, ![16384, 1600]⟩
abbrev S_ : Shape := ⟨0, ![]⟩
abbrev S1600x1 : Shape := ⟨2, ![1600, 1]⟩
abbrev S16384x25x64 : Shape := ⟨3, ![16384, 25, 64]⟩
abbrev S1x1600 : Shape := ⟨2, ![1, 1600]⟩

abbrev nBuf : Space → Nat
  | .hbm => 89
  | .vmem => 0
  | .smem => 0
  | _ => 0

abbrev bufTy : (tb : Table) → Fin (tcTables nBuf tb) → BufTy
  | .hbm, ⟨0, _⟩ => ⟨S64x64x256x25, .f32⟩
  | .hbm, ⟨1, _⟩ => ⟨S64x64, .f32⟩
  | .hbm, ⟨2, _⟩ => ⟨S1x1x64, .f32⟩
  | .hbm, ⟨3, _⟩ => ⟨S1x25x64, .f32⟩
  | .hbm, ⟨4, _⟩ => ⟨S1600, .f32⟩
  | .hbm, ⟨5, _⟩ => ⟨S1600, .f32⟩
  | .hbm, ⟨6, _⟩ => ⟨S1600, .i32⟩
  | .hbm, ⟨7, _⟩ => ⟨S1600, .i32⟩
  | .hbm, ⟨8, _⟩ => ⟨S64x256x25x64, .f32⟩
  | .hbm, ⟨9, _⟩ => ⟨S16384x1600, .f32⟩
  | .hbm, ⟨10, _⟩ => ⟨S_, .i32⟩
  | .hbm, ⟨11, _⟩ => ⟨S1600, .i32⟩
  | .hbm, ⟨12, _⟩ => ⟨S1600, .i1⟩
  | .hbm, ⟨13, _⟩ => ⟨S_, .i32⟩
  | .hbm, ⟨14, _⟩ => ⟨S1600, .i32⟩
  | .hbm, ⟨15, _⟩ => ⟨S1600, .i32⟩
  | .hbm, ⟨16, _⟩ => ⟨S1600, .i32⟩
  | .hbm, ⟨17, _⟩ => ⟨S1600x1, .i32⟩
  | .hbm, ⟨18, _⟩ => ⟨S16384x1600, .f32⟩
  | .hbm, ⟨19, _⟩ => ⟨S16384x25x64, .f32⟩
  | .hbm, ⟨20, _⟩ => ⟨S1x25x64, .f32⟩
  | .hbm, ⟨21, _⟩ => ⟨S_, .f32⟩
  | .hbm, ⟨22, _⟩ => ⟨S1x25x64, .f32⟩
  | .hbm, ⟨23, _⟩ => ⟨S1x25x64, .f32⟩
  | .hbm, ⟨24, _⟩ => ⟨S16384x25x64, .f32⟩
  | .hbm, ⟨25, _⟩ => ⟨S16384x25x64, .f32⟩
  | .hbm, ⟨26, _⟩ => ⟨S16384x25x64, .f32⟩
  | .hbm, ⟨27, _⟩ => ⟨S16384x25x64, .f32⟩
  | .hbm, ⟨28, _⟩ => ⟨S16384x25x64, .f32⟩
  | .hbm, ⟨29, _⟩ => ⟨S16384x1600, .f32⟩
  | .hbm, ⟨30, _⟩ => ⟨S_, .i32⟩
  | .hbm, ⟨31, _⟩ => ⟨S1600, .i32⟩
  | .hbm, ⟨32, _⟩ => ⟨S1600, .i1⟩
  | .hbm, ⟨33, _⟩ => ⟨S_, .i32⟩
  | .hbm, ⟨34, _⟩ => ⟨S1600, .i32⟩
  | .hbm, ⟨35, _⟩ => ⟨S1600, .i32⟩
  | .hbm, ⟨36, _⟩ => ⟨S1600, .i32⟩
  | .hbm, ⟨37, _⟩ => ⟨S1600x1, .i32⟩
  | .hbm, ⟨38, _⟩ => ⟨S16384x1600, .f32⟩
  | .hbm, ⟨39, _⟩ => ⟨S_, .f32⟩
  | .hbm, ⟨40, _⟩ => ⟨S1600, .f32⟩
  | .hbm, ⟨41, _⟩ => ⟨S_, .f32⟩
  | .hbm, ⟨42, _⟩ => ⟨S1600, .f32⟩
  | .hbm, ⟨43, _⟩ => ⟨S1600, .f32⟩
  | .hbm, ⟨44, _⟩ => ⟨S_, .i32⟩
  | .hbm, ⟨45, _⟩ => ⟨S_, .f32⟩
  | .hbm, ⟨46, _⟩ => ⟨S1600, .f32⟩
  | .hbm, ⟨47, _⟩ => ⟨S1x1600, .f32⟩
  | .hbm, ⟨48, _⟩ => ⟨S_, .f32⟩
  | .hbm, ⟨49, _⟩ => ⟨S1x1600, .f32⟩
  | .hbm, ⟨50, _⟩ => ⟨S1x1600, .f32⟩
  | .hbm, ⟨51, _⟩ => ⟨S16384x1600, .f32⟩
  | .hbm, ⟨52, _⟩ => ⟨S16384x1600, .f32⟩
  | .hbm, ⟨53, _⟩ => ⟨S16384x1600, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1600, .f32⟩
  | .hbm, ⟨59, _⟩ => ⟨S1600, .f32⟩
  | .hbm, ⟨60, _⟩ => ⟨S1600, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S1600, .f32⟩
  | .hbm, ⟨66, _⟩ => ⟨S1600, .f32⟩
  | .hbm, ⟨67, _⟩ => ⟨S1x1600, .f32⟩
  | .hbm, ⟨68, _⟩ => ⟨S16384x1600, .f32⟩
  | .hbm, ⟨69, _⟩ => ⟨S16384x1600, .f32⟩
  | .hbm, ⟨70, _⟩ => ⟨S_, .f32⟩
  | .hbm, ⟨71, _⟩ => ⟨S1600, .f32⟩
  | .hbm, ⟨72, _⟩ => ⟨S1600, .f32⟩
  | .hbm, ⟨73, _⟩ => ⟨S1600, .f32⟩
  | .hbm, ⟨74, _⟩ => ⟨S1x1600, .f32⟩
  | .hbm, ⟨75, _⟩ => ⟨S16384x1600, .f32⟩
  | .hbm, ⟨76, _⟩ => ⟨S16384x1600, .f32⟩
  | .hbm, ⟨77, _⟩ => ⟨S1x1600, .f32⟩
  | .hbm, ⟨78, _⟩ => ⟨S16384x1600, .f32⟩
  | .hbm, ⟨79, _⟩ => ⟨S16384x1600, .f32⟩
  | .hbm, ⟨80, _⟩ => ⟨S1x1600, .f32⟩
  | .hbm, ⟨81, _⟩ => ⟨S16384x1600, .f32⟩
  | .hbm, ⟨82, _⟩ => ⟨S16384x1600, .f32⟩
  | .hbm, ⟨83, _⟩ => ⟨S64x256x25x64, .f32⟩
  | .hbm, ⟨84, _⟩ => ⟨S64x64x256x25, .f32⟩
  | .hbm, ⟨85, _⟩ => ⟨S64x64x256x25, .f32⟩
  | .hbm, ⟨86, _⟩ => ⟨S_, .f32⟩
  | .hbm, ⟨87, _⟩ => ⟨S64x64x256x25, .f32⟩
  | .hbm, ⟨88, _⟩ => ⟨S64x64x256x25, .f32⟩
  | _, _ => ⟨S64x64x256x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_6 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_call1_cst : Ref sig .tc := ⟨.hbm, 86, rfl⟩
abbrev main_call1_v0 : Ref sig .tc := ⟨.hbm, 87, rfl⟩
abbrev main_v48 : Ref sig .tc := ⟨.hbm, 88, rfl⟩

abbrev nD : Nat := 1
abbrev τ : Topo := Topo.v7x

variable {F : FTy → Type} [FloatOps F]

class Facts₀ : Prop where
  transposes_S64x64x256x25_S64x256x25x64_0_2_3_1 : S64x64x256x25.Transposes [0, 2, 3, 1] S64x256x25x64
  shapeCasts_S64x256x25x64_S16384x1600 : S64x256x25x64.ShapeCasts S16384x1600
  bcast_S_S1600 : S_.BroadcastsInDim S1600 (![] : Fin 0 → Fin S1600.rank)
  bcast_S1600_S1600x1_0 : S1600.BroadcastsInDim S1600x1 (![0] : Fin 1 → Fin S1600x1.rank)
  shapeCasts_S16384x1600_S16384x25x64 : S16384x1600.ShapeCasts S16384x25x64
  bcast_S_S1x25x64 : S_.BroadcastsInDim S1x25x64 (![] : Fin 0 → Fin S1x25x64.rank)
  bcast_S1x25x64_S16384x25x64_0_1_2 : S1x25x64.BroadcastsInDim S16384x25x64 (![0, 1, 2] : Fin 3 → Fin S16384x25x64.rank)
  bcast_S1x1x64_S16384x25x64_0_1_2 : S1x1x64.BroadcastsInDim S16384x25x64 (![0, 1, 2] : Fin 3 → Fin S16384x25x64.rank)
  shapeCasts_S16384x25x64_S16384x1600 : S16384x25x64.ShapeCasts S16384x1600
  reducesTo_S16384x1600_S1600_d0 : S16384x1600.ReducesTo [0] S1600
  h_S_ : 0 < S_.numel
  bcast_S1600_S1x1600_1 : S1600.BroadcastsInDim S1x1600 (![1] : Fin 1 → Fin S1x1600.rank)
  bcast_S_S1x1600 : S_.BroadcastsInDim S1x1600 (![] : Fin 0 → Fin S1x1600.rank)
  bcast_S1x1600_S16384x1600_0_1 : S1x1600.BroadcastsInDim S16384x1600 (![0, 1] : Fin 2 → Fin S16384x1600.rank)
  shapeCasts_S16384x1600_S64x256x25x64 : S16384x1600.ShapeCasts S64x256x25x64
  transposes_S64x256x25x64_S64x64x256x25_0_3_1_2 : S64x256x25x64.Transposes [0, 3, 1, 2] S64x64x256x25
  bcast_S_S64x64x256x25 : S_.BroadcastsInDim S64x64x256x25 (![] : Fin 0 → Fin S64x64x256x25.rank)
  gather_S16384x1600_S1600x1_S16384x1600_0_1_n_n_1_1_163841_wf : GatherDims.WF S16384x1600 S1600x1 S16384x1600 [0] [1] [] [1] [] 1 ![16384, 1]
  dot_S16384x25x64_S64x64_S16384x25x64_2_0_01_1_n_n_wf : DotDims.WF S16384x25x64 S64x64 S16384x25x64 [2] [0] [0, 1] [1] [] []

variable [Facts₀]

def gather_S16384x1600_S1600x1_S16384x1600_0_1_n_n_1_1_163841 : GatherDims S16384x1600 S1600x1 S16384x1600 where
  offsetDims := [0]
  collapsedSliceDims := [1]
  operandBatchingDims := []
  startIndicesBatchingDims := []
  startIndexMap := [1]
  indexVectorDim := 1
  sliceSizes := ![16384, 1]
  wf := gather_S16384x1600_S1600x1_S16384x1600_0_1_n_n_1_1_163841_wf
def dot_S16384x25x64_S64x64_S16384x25x64_2_0_01_1_n_n : DotDims S16384x25x64 S64x64 S16384x25x64 where
  lhsContracting := [2]
  rhsContracting := [0]
  lhsNonContracting := [0, 1]
  rhsNonContracting := [1]
  lhsBatch := []
  rhsBatch := []
  wf := dot_S16384x25x64_S64x64_S16384x25x64_2_0_01_1_n_n_wf

class Facts : Prop extends Facts₀ where

variable [Facts]
-- ==== Proof.Spec.lean ====
/-
  The mathematics of the claim, stated once over literal shapes and extended reals, with no program in sight.

  The input `x0 : [64, 64, 256, 25]` (sample n, channel c, frame t, joint v) is flattened to rows `m = n·256 + t` and
  features `f = v·64 + c`. A first index vector permutes the feature axis; each joint's 64 features are scaled by
  `tanh(mask) + 1` and sent through the 64×64 matrix `W`, plus the bias; a second index vector permutes the features
  again; every feature is then normalised by its mean and variance over the 16384 rows, scaled by `gamma`, shifted by
  `beta`, the input is added back and the negative part dropped. The two programs differ in how the variance is
  computed: mean of squares minus squared mean on one side, mean of squared deviations on the other.
-/
import Idealize.ShloMosaic.Lib.ValueIdx
import Idealize.ShloMosaic.PureOps.Ideal

noncomputable section

open scoped BigOperators

namespace Cert.Spec

open Idealize.ShloMosaic Idealize.ShloMosaic.ValueIdx

/-! ## Shapes -/

abbrev SX : Shape := ⟨4, ![64, 64, 256, 25]⟩
abbrev SW : Shape := ⟨2, ![64, 64]⟩
abbrev SB : Shape := ⟨3, ![1, 1, 64]⟩
abbrev SK : Shape := ⟨3, ![1, 25, 64]⟩
abbrev SF : Shape := ⟨1, ![1600]⟩
abbrev SMF : Shape := ⟨2, ![16384, 1600]⟩
abbrev S1F : Shape := ⟨2, ![1, 1600]⟩
abbrev SI : Shape := ⟨2, ![1600, 1]⟩
abbrev S0 : Shape := ⟨0, ![]⟩

/-! ## The three float words both programs carry, kept as words -/

/-- The word of `1.0`. -/
abbrev one : EReal := Ideal.ofBits .f32 0x3F800000#32
/-- The word of `16384.0`, the number of rows. -/
abbrev cN : EReal := Ideal.ofBits .f32 0x46800000#32
/-- The word of the variance's offset. -/
abbrev eps : EReal := Ideal.ofBits .f32 0x3727C5AC#32

/-! ## Coordinates -/

/-- The sample of a row. -/
def rowN (m : Fin 16384) : Fin 64 := ⟨m.val / 256, by omega⟩
/-- The frame of a row. -/
def rowT (m : Fin 16384) : Fin 256 := ⟨m.val % 256, by omega⟩
/-- The joint of a feature. -/
def colV (f : Fin 1600) : Fin 25 := ⟨f.val / 64, by omega⟩
/-- The channel of a feature. -/
def colC (f : Fin 1600) : Fin 64 := ⟨f.val % 64, by omega⟩
/-- The feature of a joint and a channel. -/
def col (v : Fin 25) (c : Fin 64) : Fin 1600 := ⟨v.val * 64 + c.val, by omega⟩
/-- The row of a sample and a frame. -/
def row (n : Fin 64) (t : Fin 256) : Fin 16384 := ⟨n.val * 256 + t.val, by omega⟩

@[simp] theorem rowN_val (m : Fin 16384) : (rowN m).val = m.val / 256 := rfl
@[simp] theorem rowT_val (m : Fin 16384) : (rowT m).val = m.val % 256 := rfl
@[simp] theorem colV_val (f : Fin 1600) : (colV f).val = f.val / 64 := rfl
@[simp] theorem colC_val (f : Fin 1600) : (colC f).val = f.val % 64 := rfl
@[simp] theorem col_val (v : Fin 25) (c : Fin 64) : (col v c).val = v.val * 64 + c.val := rfl
@[simp] theorem row_val (n : Fin 64) (t : Fin 256) : (row n t).val = n.val * 256 + t.val := rfl

/-! ## The index vectors -/

/-- What both programs make of an index vector before gathering with it: a negative entry is shifted up by 1600,
    and the vector is laid out as a `[1600, 1]` array of start indices. -/
def nidx (idx : IVec SF 32) : IVec SI 32 :=
  broadcastInDim SI ![0] (by decide)
    (select (cmpi .slt idx (broadcastInDim SF ![] (by decide) (constantI S0 32 0#32)))
      (addi idx (broadcastInDim SF ![] (by decide) (constantI S0 32 1600#32))) idx)

/-- Every start index, read as a signed integer, names a column of a 1600-column array. -/
def InRange (ni : IVec SI 32) : Prop :=
  ∀ f : Fin 1600, 0 ≤ (ni (ix2 f ⟨0, Nat.one_pos⟩)).toInt ∧ (ni (ix2 f ⟨0, Nat.one_pos⟩)).toInt ≤ 1599

/-- The vector of bits "start index f lies in `[0, 1599]`", as one program computes it before it keeps or drops a
    gathered column: both comparisons against constants laid out as `[1600, 1]`, their conjunction, and the
    conjunction along the unit axis. -/
def inb (ni : IVec SI 32) : IVec SF 1 :=
  Host.reduce IntOp.andi
    (andi (cmpi .sge ni (broadcastInDim SI ![] (by decide) (constantI S0 32 0#32)))
      (cmpi .sle ni (broadcastInDim SI ![0, 1] (by decide)
        (broadcastInDim (⟨2, ![1, 1]⟩ : Shape) ![1] (by decide) (constantI (⟨1, ![1]⟩ : Shape) 32 1599#32)))))
    (constantI S0 1 1#1) (by decide : SI.ReducesTo [1] SF) (by decide : 0 < S0.numel)

/-- The column a start index selects: the entry read signed and clamped into `[0, 1599]`. -/
def kap (ni : IVec SI 32) (f : Fin 1600) : Fin 1600 :=
  ⟨min (ni (ix2 f ⟨0, Nat.one_pos⟩)).toInt.toNat (1600 - 1), by omega⟩

/-! ## The stages, index by index -/

section Stages

variable (x0 : SX.Idx → EReal) (Wt : SW.Idx → EReal) (bb : SB.Idx → EReal) (mk : SK.Idx → EReal)
  (gam bet : SF.Idx → EReal) (ki ko : Fin 1600 → Fin 1600)

/-- The input flattened: row `m`, feature `f`. -/
def xflat (m : Fin 16384) (f : Fin 1600) : EReal := x0 (ix4 (rowN m) (colC f) (rowT m) (colV f))

/-- The feature scale `tanh(mask) + 1`. -/
def mk1 (f : Fin 1600) : EReal := Ideal.tanh (mk (ix3 0 (colV f) (colC f))) + one

/-- The bias of a feature: it depends on the channel only. -/
def bfl (g : Fin 1600) : EReal := bb (ix3 0 0 (colC g))

/-- The linear layer over four arrays given as they are stored: rows `A0 : [16384, 1600]`, a feature scale
    `A1 : [1, 1600]`, the matrix `A2 : [64, 64]`, a feature bias `A3 : [1, 1600]`. Output feature `g` of joint `v`,
    channel `d` sums over the joint's 64 input channels. -/
def lin (A0 : SMF.Idx → EReal) (A1 : S1F.Idx → EReal) (A2 : SW.Idx → EReal) (A3 : S1F.Idx → EReal)
    (m : Fin 16384) (g : Fin 1600) : EReal :=
  (∑ c : Fin 64, (A0 (ix2 m (col (colV g) c)) * A1 (ix2 0 (col (colV g) c))) * A2 (ix2 c (colC g))) + A3 (ix2 0 g)

/-- The linear layer of the arguments, the first permutation `ki` applied to the input's features. -/
def ylin (m : Fin 16384) (g : Fin 1600) : EReal :=
  (∑ c : Fin 64, (xflat x0 m (ki (col (colV g) c)) * mk1 mk (col (colV g) c)) * Wt (ix2 c (colC g))) + bfl bb g

/-- The linear layer's output with the second permutation `ko` applied to its features. -/
def y2 (m : Fin 16384) (f : Fin 1600) : EReal := ylin x0 Wt bb mk ki m (ko f)

/-- A feature's sum over the rows. -/
def s1 (f : Fin 1600) : EReal := ∑ m : Fin 16384, y2 x0 Wt bb mk ki ko m f
/-- A feature's sum of squares over the rows. -/
def s2 (f : Fin 1600) : EReal := ∑ m : Fin 16384, y2 x0 Wt bb mk ki ko m f * y2 x0 Wt bb mk ki ko m f
/-- A feature's mean. -/
def mean (f : Fin 1600) : EReal := Ideal.div (s1 x0 Wt bb mk ki ko f) cN
/-- The variance as mean of squares minus squared mean. -/
def varK (f : Fin 1600) : EReal :=
  Ideal.div (s2 x0 Wt bb mk ki ko f) cN - mean x0 Wt bb mk ki ko f * mean x0 Wt bb mk ki ko f
/-- The variance as mean of squared deviations. -/
def varR (f : Fin 1600) : EReal :=
  Ideal.div (∑ m : Fin 16384, (y2 x0 Wt bb mk ki ko m f - mean x0 Wt bb mk ki ko f)
    * (y2 x0 Wt bb mk ki ko m f - mean x0 Wt bb mk ki ko f)) cN

/-- The normalisation, affine map, residual and rectifier over six arrays given as they are stored: rows `B0`, the
    residual rows `B1`, and per feature the mean `B2`, the reciprocal deviation `B3`, the scale `B4`, the shift `B5`. -/
def norm (B0 B1 : SMF.Idx → EReal) (B2 B3 B4 B5 : S1F.Idx → EReal) (m : Fin 16384) (f : Fin 1600) : EReal :=
  max ((((B0 (ix2 m f) - B2 (ix2 0 f)) * B3 (ix2 0 f)) * B4 (ix2 0 f) + B5 (ix2 0 f)) + B1 (ix2 m f)) 0

/-- The result at sample `n`, channel `d`, frame `t`, joint `v`, for a given variance. -/
def outv (var : Fin 1600 → EReal) (n : Fin 64) (d : Fin 64) (t : Fin 256) (v : Fin 25) : EReal :=
  max ((((y2 x0 Wt bb mk ki ko (row n t) (col v d) - mean x0 Wt bb mk ki ko (col v d))
      * Ideal.rsqrt (var (col v d) + eps)) * gam (ix1 (col v d)) + bet (ix1 (col v d))) + x0 (ix4 n d t v)) 0

end Stages

end Cert.Spec

end
-- ==== Proof.Algebra.lean ====
/-
  Pure mathematics on extended reals: the two ways of computing a feature's variance over the 16384 rows agree as
  soon as every entry of the four arrays is a real number. With real entries every row value is a real number, so
  are the sums, and division by the row count is multiplication by its reciprocal; over the reals, with N the number
  of rows and mu = (sum y) / N, the mean of the squared deviations (sum (y - mu)^2) / N equals (sum y^2) / N - mu^2.
-/
import proofs.«422135_j2637109920123_1_alg».proof.Proof.Spec
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Data.Fintype.Card
import Mathlib.Tactic.Ring
import Mathlib.Tactic.NormNum

noncomputable section

open scoped BigOperators

namespace Cert.Algebra

open Idealize.ShloMosaic Idealize.ShloMosaic.ValueIdx

/-! ## The words -/

/-- The word of the row count denotes the real number 16384 = 2^14. -/
theorem cN_eq : Cert.Spec.cN = ((16384 : ℝ) : EReal) := by
  simp [Ideal.ofBits, Ideal.ieee, -EReal.coe_mul]; norm_num

/-- The word of one denotes the real number 1. -/
theorem one_eq : Cert.Spec.one = ((1 : ℝ) : EReal) := by
  simp [Ideal.ofBits, Ideal.ieee, -EReal.coe_mul]; norm_num

/-! ## Extended reals that are real numbers -/

/-- An extended real that is a real number. -/
def IsR (x : EReal) : Prop := ∃ r : ℝ, x = (r : EReal)

theorem IsR.coe (r : ℝ) : IsR (r : EReal) := ⟨r, rfl⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

/-- The coercion commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsR.sum {ι : Type} (s : Finset ι) (g : ι → EReal) (h : ∀ i, IsR (g i)) : IsR (∑ i ∈ s, g i) := by
  choose r hr using h
  exact ⟨∑ i ∈ s, r i, by rw [coe_sum]; exact Finset.sum_congr rfl (fun i _ => hr i)⟩

/-! ## The identity over the reals -/

/-- Mean of squared deviations equals mean of squares minus squared mean, over 16384 real numbers, with the divisions
    written as products with the reciprocal of the count. -/
theorem real_var (y : Fin 16384 → ℝ) :
    (∑ m : Fin 16384, (y m - (∑ k : Fin 16384, y k) * (1 / 16384)) * (y m - (∑ k : Fin 16384, y k) * (1 / 16384)))
        * (1 / 16384)
      = (∑ m : Fin 16384, y m * y m) * (1 / 16384)
        - ((∑ k : Fin 16384, y k) * (1 / 16384)) * ((∑ k : Fin 16384, y k) * (1 / 16384)) := by
  generalize hS : (∑ k : Fin 16384, y k) = S
  have h : ∀ m : Fin 16384, (y m - S * (1 / 16384)) * (y m - S * (1 / 16384))
      = y m * y m - (2 * (S * (1 / 16384))) * y m + (S * (1 / 16384)) * (S * (1 / 16384)) := fun m => by ring
  rw [Finset.sum_congr rfl (fun m _ => h m), Finset.sum_add_distrib, Finset.sum_sub_distrib, ← Finset.mul_sum,
    Finset.sum_const, Finset.card_univ, Fintype.card_fin, hS, nsmul_eq_mul]
  push_cast
  ring

/-! ## The rows are real -/

section Rows

variable (x0 : Cert.Spec.SX.Idx → EReal) (Wt : Cert.Spec.SW.Idx → EReal) (bb : Cert.Spec.SB.Idx → EReal)
  (mk : Cert.Spec.SK.Idx → EReal) (ki ko : Fin 1600 → Fin 1600)

/-- With real entries every value of the permuted linear layer is a real number. -/
theorem y2_real (hx : ∀ i, ∃ r : ℝ, x0 i = (r : EReal)) (hW : ∀ i, ∃ r : ℝ, Wt i = (r : EReal))
    (hb : ∀ i, ∃ r : ℝ, bb i = (r : EReal)) (hm : ∀ i, ∃ r : ℝ, mk i = (r : EReal))
    (m : Fin 16384) (f : Fin 1600) : IsR (Cert.Spec.y2 x0 Wt bb mk ki ko m f) := by
  unfold Cert.Spec.y2 Cert.Spec.ylin
  refine IsR.add (IsR.sum _ _ (fun c => IsR.mul (IsR.mul ?_ ?_) (hW _))) (hb _)
  · exact hx _
  · unfold Cert.Spec.mk1
    obtain ⟨r, hr⟩ := hm (ix3 0 (Cert.Spec.colV (Cert.Spec.col (Cert.Spec.colV (ko f)) c))
      (Cert.Spec.colC (Cert.Spec.col (Cert.Spec.colV (ko f)) c)))
    rw [hr, Ideal.tanh_coe, one_eq]
    exact IsR.add (IsR.coe _) (IsR.coe _)

/-- The two variance formulas agree on real entries. -/
theorem varK_eq_varR (hx : ∀ i, ∃ r : ℝ, x0 i = (r : EReal)) (hW : ∀ i, ∃ r : ℝ, Wt i = (r : EReal))
    (hb : ∀ i, ∃ r : ℝ, bb i = (r : EReal)) (hm : ∀ i, ∃ r : ℝ, mk i = (r : EReal)) (f : Fin 1600) :
    Cert.Spec.varK x0 Wt bb mk ki ko f = Cert.Spec.varR x0 Wt bb mk ki ko f := by
  have hy : ∀ m : Fin 16384, IsR (Cert.Spec.y2 x0 Wt bb mk ki ko m f) :=
    fun m => y2_real x0 Wt bb mk ki ko hx hW hb hm m f
  choose y hy using hy
  have hN : (16384 : ℝ) ≠ 0 := by norm_num
  unfold Cert.Spec.varK Cert.Spec.varR Cert.Spec.mean Cert.Spec.s1 Cert.Spec.s2
  simp only [hy, cN_eq, Ideal.div_coe hN, ← EReal.coe_mul, ← coe_sum, ← EReal.coe_sub]
  exact congrArg _ (real_var y).symm

end Rows

/-- The result formula does not see which of the two variance formulas it is given. -/
theorem outv_congr (x0 : Cert.Spec.SX.Idx → EReal) (Wt : Cert.Spec.SW.Idx → EReal) (bb : Cert.Spec.SB.Idx → EReal)
    (mk : Cert.Spec.SK.Idx → EReal) (gam bet : Cert.Spec.SF.Idx → EReal) (ki ko : Fin 1600 → Fin 1600)
    (hx : ∀ i, ∃ r : ℝ, x0 i = (r : EReal)) (hW : ∀ i, ∃ r : ℝ, Wt i = (r : EReal))
    (hb : ∀ i, ∃ r : ℝ, bb i = (r : EReal)) (hm : ∀ i, ∃ r : ℝ, mk i = (r : EReal))
    (n : Fin 64) (d : Fin 64) (t : Fin 256) (v : Fin 25) :
    Cert.Spec.outv x0 Wt bb mk gam bet ki ko (Cert.Spec.varK x0 Wt bb mk ki ko) n d t v
      = Cert.Spec.outv x0 Wt bb mk gam bet ki ko (Cert.Spec.varR x0 Wt bb mk ki ko) n d t v := by
  rw [show Cert.Spec.varK x0 Wt bb mk ki ko = Cert.Spec.varR x0 Wt bb mk ki ko from
    funext (varK_eq_varR x0 Wt bb mk ki ko hx hW hb hm)]

end Cert.Algebra

end
-- ==== Proof.Ranges.lean ====
/-
  Word-level facts about the two integer index vectors.

  An index vector holds 1600 signed 32-bit words. Both programs first shift a negative entry up by 1600 and lay the
  result out as a [1600, 1] array of start indices. Two facts are proved here. If every entry of the original vector lies
  in [-1600, 1600), every start index lies in [0, 1599]: a negative entry that is at least -1600, plus 1600, does not
  wrap. And if every start index lies in [0, 1599], the vector of "in range" bits — two signed comparisons, their
  conjunction, and the conjunction along the unit axis — is 1 at every position.
-/
import proofs.«422135_j2637109920123_1_alg».proof.Proof.Spec
import Idealize.ShloMosaic.Lib.StableHlo.Predicate
import Idealize.ShloMosaic.Lib.ReduceAll
import Idealize.ShloMosaic.Lib.ValueIdx

noncomputable section

namespace Cert.Ranges

open Idealize.ShloMosaic Idealize.ShloMosaic.ValueIdx

/-! ## A conjunction of ones is one -/

/-- A left fold by `and` over one-bit words that starts at 1 and meets only 1s ends at 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l (fun n hn => h n (List.mem_cons_of_mem _ hn))

/-- A reduction by `and`, from an initial value 1, of an array of one-bit words that are all 1 is 1 at every result
    index, whatever the reduced axes. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ (fun i _ => hx i)

/-! ## Signed comparisons against the two bounds -/

theorem toInt_zero32 : (0#32 : BitVec 32).toInt = 0 := by decide
theorem toInt_1599 : (1599#32 : BitVec 32).toInt = 1599 := by decide
theorem toInt_1600 : (1600#32 : BitVec 32).toInt = 1600 := by decide

/-- `x ≥ 0` as a signed comparison of words. -/
theorem sge_zero_iff (x : BitVec 32) : IntOp.cmpi .sge x 0#32 = 1#1 ↔ 0 ≤ x.toInt := by
  simp only [IntOp.cmpi, StableHlo.Predicate.ofBool_eq_one_iff, BitVec.sle, decide_eq_true_eq, toInt_zero32]

/-- `x ≤ 1599` as a signed comparison of words. -/
theorem sle_1599_iff (x : BitVec 32) : IntOp.cmpi .sle x 1599#32 = 1#1 ↔ x.toInt ≤ 1599 := by
  simp only [IntOp.cmpi, StableHlo.Predicate.ofBool_eq_one_iff, BitVec.sle, decide_eq_true_eq, toInt_1599]

/-- `x < 0` as a signed comparison of words. -/
theorem slt_zero_iff (x : BitVec 32) : IntOp.cmpi .slt x 0#32 = 1#1 ↔ x.toInt < 0 := by
  simp only [IntOp.cmpi, StableHlo.Predicate.ofBool_eq_one_iff, BitVec.slt, decide_eq_true_eq, toInt_zero32]

/-! ## The in-range bits -/

/-- Every index of a [1600, 1] array is a row and the one column. -/
theorem eq_ix2_col (i : Cert.Spec.SI.Idx) : ∃ a : Fin 1600, i = ix2 a (⟨0, Nat.one_pos⟩ : Fin 1) := by
  refine ⟨i 0, ?_⟩
  have e := eq_ix2 i
  have e1 : i 1 = (⟨0, Nat.one_pos⟩ : Fin 1) := Fin.ext (by
    have := idx2_lt1 i
    show (i 1).val = 0
    omega)
  rw [e1] at e
  exact e

/-- When every start index lies in [0, 1599], every in-range bit is 1. -/
theorem inb_of_inRange (ni : IVec Cert.Spec.SI 32) (h : Cert.Spec.InRange ni) (f : Fin 1600) :
    Cert.Spec.inb ni (ix1 f) = 1#1 := by
  unfold Cert.Spec.inb
  refine reduce_andi_of_all _ _ _ _ rfl (fun i => ?_) _
  obtain ⟨a, rfl⟩ := eq_ix2_col i
  obtain ⟨h0, h1⟩ := h a
  show IntOp.andi (IntOp.cmpi .sge (ni (ix2 a ⟨0, Nat.one_pos⟩)) 0#32)
    (IntOp.cmpi .sle (ni (ix2 a ⟨0, Nat.one_pos⟩)) 1599#32) = 1#1
  rw [IntOp.andi_eq_one]
  exact ⟨(sge_zero_iff _).2 h0, (sle_1599_iff _).2 h1⟩

/-! ## The start indices -/

/-- A vector laid out as a [1600, 1] array reads, at row `f`, its entry `f`. -/
theorem bcast_col_apply {α : Type} (h : Cert.Spec.SF.BroadcastsInDim Cert.Spec.SI ![0]) (v : Cert.Spec.SF.Idx → α)
    (f : Fin 1600) (b : Fin 1) : broadcastInDim Cert.Spec.SI ![0] h v (ix2 f b) = v (ix1 f) := by
  simp only [broadcastInDim]
  congr 1
  funext a
  obtain rfl : a = 0 := Subsingleton.elim _ _
  apply Fin.ext
  split
  · next h1 => exact absurd h1 (by decide)
  · rfl

/-- A start index: the entry, shifted up by 1600 when it is negative. -/
theorem nidx_apply (idx : IVec Cert.Spec.SF 32) (f : Fin 1600) (b : Fin 1) :
    Cert.Spec.nidx idx (ix2 f b)
      = Scalar.select (IntOp.cmpi .slt (idx (ix1 f)) 0#32) (IntOp.addi (idx (ix1 f)) 1600#32) (idx (ix1 f)) := by
  unfold Cert.Spec.nidx
  rw [bcast_col_apply]
  rfl

/-- A word in [-1600, 0) plus 1600 does not wrap. -/
theorem toInt_add_1600 (x : BitVec 32) (h0 : (-1600 : Int) ≤ x.toInt) (h1 : x.toInt < 0) :
    (IntOp.addi x 1600#32).toInt = x.toInt + 1600 := by
  unfold IntOp.addi
  rw [BitVec.toInt_add, show (1600#32 : BitVec 32).toInt = 1600 from by decide]
  unfold Int.bmod
  simp only []
  omega

/-- When every entry lies in [-1600, 1600), every start index lies in [0, 1599]. -/
theorem nidx_inRange (idx : IVec Cert.Spec.SF 32)
    (h : ∀ f : Fin 1600, (-1600 : Int) ≤ (idx (ix1 f)).toInt ∧ (idx (ix1 f)).toInt < 1600) :
    Cert.Spec.InRange (Cert.Spec.nidx idx) := by
  intro f
  obtain ⟨h0, h1⟩ := h f
  rw [nidx_apply]
  by_cases hneg : (idx (ix1 f)).toInt < 0
  · have hc : IntOp.cmpi .slt (idx (ix1 f)) 0#32 = 1#1 :=
      IntOp.cmpi_slt.2 (by rw [show (0#32 : BitVec 32).toInt = 0 from by decide]; exact hneg)
    rw [hc, select_one, toInt_add_1600 _ h0 hneg]
    omega
  · have hc : IntOp.cmpi .slt (idx (ix1 f)) 0#32 = 0#1 :=
      eq_zero_of_ne_one (fun e => hneg (by
        have := IntOp.cmpi_slt.1 e
        rwa [show (0#32 : BitVec 32).toInt = 0 from by decide] at this))
    rw [hc, select_zero]
    omega

end Cert.Ranges

end
-- ==== Proof.PreDecode.lean ====
/-
  The precondition read back.

  The precondition is a conjunction of ten one-bit scalars: for each of the six float arguments, "every entry's
  absolute value is below +∞"; for each of the two index vectors, "every entry is at least -1600" and "every entry is
  below 1600". When the conjunction is 1 every conjunct is 1, and a conjunction over a whole array that is 1 had a 1 at
  every entry. Over the extended reals an entry whose absolute value is below +∞ is a real; and an index vector whose
  entries lie in [-1600, 1600) has all its start indices in [0, 1599].
-/
import proofs.«422135_j2637109920123_1_alg».proof.Pre_finite_inputs
import proofs.«422135_j2637109920123_1_alg».proof.Proof.Gen.Pre_finite_inputs
import proofs.«422135_j2637109920123_1_alg».proof.Proof.Spec
import proofs.«422135_j2637109920123_1_alg».proof.Proof.Ranges
import Idealize.ShloMosaic.Lib.StableHlo.Predicate
import Idealize.ShloMosaic.Lib.ReduceAll
import Idealize.ShloMosaic.Lib.ValueIdx
import Mathlib.Data.EReal.Basic

noncomputable section

namespace Cert.PreDecode

open Idealize.ShloMosaic Idealize.ShloMosaic.ValueIdx

/-- The scalar shape has one index. -/
instance : Subsingleton Cert.Pre_finite_inputs.S_.Idx := ⟨fun a b => funext fun d => d.elim0⟩

/-! ## An extended real whose absolute value is below +∞ is a real -/

/-- The word of +∞ is the top element, `max x (-x)` is the absolute value: below the top, `x` is neither infinity. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  simp only [Ideal.cmp, StableHlo.Predicate.ofBool_eq_one_iff, decide_eq_true_eq] at h
  induction x using EReal.rec with
  | bot => simp at h
  | coe r => exact ⟨r, rfl⟩
  | top => simp at h

/-- `all(|a| < +∞)` over an array of any shape, when it is 1, says every entry is a real. -/
theorem real_of_all {s : Shape} {axes : List (Fin s.rank)} (a : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf (F := Ideal) (φ := .f32) .olt (Host.absf (F := Ideal) (φ := .f32) a)
          (broadcastInDim s ![] hb (constant (F := Ideal) Cert.Pre_finite_inputs.S_ .f32 0x7F800000#32)))
        (constantI Cert.Pre_finite_inputs.S_ 1 1#1) hr hu ix0 = 1#1) (i : s.Idx) : ∃ r : ℝ, a i = (r : EReal) :=
  real_of_abs_lt_top (a i) (Host.reduce_andi_all _ _ hr hu ix0 h i)

/-- `all(a ≥ -1600)` over an index vector, when it is 1, bounds every entry below. -/
theorem ge_of_all (a : IVec Cert.Spec.SF 32)
    (hb : Cert.Pre_finite_inputs.S_.BroadcastsInDim Cert.Spec.SF (![] : Fin 0 → Fin Cert.Spec.SF.rank))
    (hr : Cert.Spec.SF.ReducesTo [0] Cert.Pre_finite_inputs.S_) (hu : 0 < Cert.Pre_finite_inputs.S_.numel)
    (h : Host.reduce IntOp.andi
        (cmpi .sge a (broadcastInDim Cert.Spec.SF ![] hb (constantI Cert.Pre_finite_inputs.S_ 32 4294965696#32)))
        (constantI Cert.Pre_finite_inputs.S_ 1 1#1) hr hu ix0 = 1#1) (f : Fin 1600) :
    (-1600 : Int) ≤ (a (ix1 f)).toInt := by
  have e : IntOp.cmpi .sge (a (ix1 f)) 4294965696#32 = 1#1 := Host.reduce_andi_all _ _ hr hu ix0 h (ix1 f)
  have := IntOp.cmpi_sge.1 e
  rwa [show (4294965696#32 : BitVec 32).toInt = -1600 from by decide] at this

/-- `all(a < 1600)` over an index vector, when it is 1, bounds every entry above. -/
theorem lt_of_all (a : IVec Cert.Spec.SF 32)
    (hb : Cert.Pre_finite_inputs.S_.BroadcastsInDim Cert.Spec.SF (![] : Fin 0 → Fin Cert.Spec.SF.rank))
    (hr : Cert.Spec.SF.ReducesTo [0] Cert.Pre_finite_inputs.S_) (hu : 0 < Cert.Pre_finite_inputs.S_.numel)
    (h : Host.reduce IntOp.andi
        (cmpi .slt a (broadcastInDim Cert.Spec.SF ![] hb (constantI Cert.Pre_finite_inputs.S_ 32 1600#32)))
        (constantI Cert.Pre_finite_inputs.S_ 1 1#1) hr hu ix0 = 1#1) (f : Fin 1600) :
    (a (ix1 f)).toInt < 1600 := by
  have e : IntOp.cmpi .slt (a (ix1 f)) 1600#32 = 1#1 := Host.reduce_andi_all _ _ hr hu ix0 h (ix1 f)
  have := IntOp.cmpi_slt.1 e
  rwa [show (1600#32 : BitVec 32).toInt = 1600 from by decide] at this

/-! ## The conjunction, read back -/

/-- The conjunction split into its conjuncts, each read at every entry: the four arrays the claim needs are real
    entry by entry, and both index vectors have their entries in [-1600, 1600). -/
theorem decode_raw {a0 : Cert.Spec.SX.Idx → EReal} {a1 : Cert.Spec.SW.Idx → EReal} {a2 : Cert.Spec.SB.Idx → EReal}
    {a3 : Cert.Spec.SK.Idx → EReal} {a4 a5 : Cert.Spec.SF.Idx → EReal} {a6 a7 : IVec Cert.Spec.SF 32}
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal))
      ∧ (∀ f : Fin 1600, (-1600 : Int) ≤ (a6 (ix1 f)).toInt ∧ (a6 (ix1 f)).toInt < 1600)
      ∧ (∀ f : Fin 1600, (-1600 : Int) ≤ (a7 (ix1 f)).toInt ∧ (a7 (ix1 f)).toInt < 1600) := by
  have h0 := congrFun h ix0
  simp only [Cert.Pre_finite_inputs.fn, Cert.Pre_finite_inputs.fn_part1, Cert.Pre_finite_inputs.fn_part2, andi,
    IntOp.andi_eq_one] at h0
  obtain ⟨⟨⟨⟨⟨⟨⟨⟨⟨h3, h7⟩, h12⟩, h17⟩, _h22⟩, _h27⟩, h31⟩, h35⟩, h39⟩, h43⟩ := h0
  exact ⟨real_of_all a0 _ _ _ h3, real_of_all a1 _ _ _ h7, real_of_all a2 _ _ _ h12, real_of_all a3 _ _ _ h17,
    fun f => ⟨ge_of_all a6 _ _ _ h31 f, lt_of_all a6 _ _ _ h35 f⟩,
    fun f => ⟨ge_of_all a7 _ _ _ h39 f, lt_of_all a7 _ _ _ h43 f⟩⟩

/-- The same with the index vectors' bounds carried to their start indices. -/
theorem decode {a0 : Cert.Spec.SX.Idx → EReal} {a1 : Cert.Spec.SW.Idx → EReal} {a2 : Cert.Spec.SB.Idx → EReal}
    {a3 : Cert.Spec.SK.Idx → EReal} {a4 a5 : Cert.Spec.SF.Idx → EReal} {a6 a7 : IVec Cert.Spec.SF 32}
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal))
      ∧ Cert.Spec.InRange (Cert.Spec.nidx a6) ∧ Cert.Spec.InRange (Cert.Spec.nidx a7) := by
  obtain ⟨r0, r1, r2, r3, b6, b7⟩ := decode_raw h
  exact ⟨r0, r1, r2, r3, Cert.Ranges.nidx_inRange a6 b6, Cert.Ranges.nidx_inRange a7 b7⟩

end Cert.PreDecode

end
-- ==== Proof.LibGatherCols.lean ====
/-
  COLUMNS OF A RANK-2 ARRAY AT AN INTEGER VECTOR, read at an index.

  `x[:, idx]` of an array `x : [R, N]` at an integer vector `idx : [C]` is a `stablehlo.gather` with offset_dims
  `[0]`, collapsed_slice_dims `[1]`, no batching axes, start_index_map `[1]`, index_vector_dim 1 and slice_sizes
  `[R, 1]`, over the start indices as a `[C, 1]` array; its result is `[R, C]`. Each start index is one scalar, the
  column; a slice is one whole column of `x`. Result element `(r, j)` is therefore `x` at row `r` and at the column
  `idx[j, 0]`, that word read as a SIGNED integer and clamped into `[0, N − 1]` (a negative index reads column 0, an
  index past the end reads the last column).

  Per operand axis the operand index is start + batching coordinate + offset coordinate. On axis 0 (an offset axis,
  not named by the start index map) the start is 0, there is no batching, and the offset coordinate is the result's
  row; on axis 1 (the collapsed axis, the one the start index map names) the start is the clamped index and both
  other summands are 0.
-/
import Idealize.ShloMosaic.Lib.ValueIdx

noncomputable section

namespace Cert.LibGatherCols

open Idealize.ShloMosaic Idealize.ShloMosaic.ValueIdx

variable {α : Type}

/-- The dimension numbers of `x[:, idx]` for an operand `[R, N]`, start indices `[C, 1]` and result `[R, C]`: the
    result's axis 0 is the offset axis, the operand's axis 1 is collapsed and is the one the (scalar) start index
    addresses, the index vector lies on the start indices' axis 1, and a slice is `R × 1`. The conditions `wf` are
    decided on a program's literal shapes. -/
abbrev colsDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- THE GATHER READ AT `(r, j)`: the operand at row `r` and at the column `idx[j, 0]`, read signed and clamped into
    `[0, N − 1]`. -/
theorem gather_cols_apply {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (j : Fin C) :
    Host.gather (colsDims R N C wf) x idx (ix2 r j)
      = x (ix2 r ⟨min (idx (ix2 j ⟨0, Nat.one_pos⟩)).toInt.toNat (N - 1), by omega⟩) := by
  unfold Host.gather
  congr 1
  funext a
  refine Fin.ext ?_
  match a with
  | ⟨0, _⟩ =>
    -- the row axis: start 0 (not in the start index map), no batching, offset coordinate the result's row
    show (colsDims R N C wf).start (ix2 r j) idx 0 + (colsDims R N C wf).batchCoord (ix2 r j) 0
      + (colsDims R N C wf).offCoord (ix2 r j) 0 = r.val
    rw [GatherDims.batchCoord_eq_zero _ _ _ List.not_mem_nil]
    unfold GatherDims.start
    rw [dif_neg (show (0 : Fin 2) ∉ ([1] : List (Fin 2)) by decide)]
    unfold GatherDims.offCoord
    have hk : (0 : Fin 2) ∈ (colsDims R N C wf).sKept :=
      (GatherDims.mem_sKept _ _).mpr ⟨(show (0 : Fin 2) ∉ ([1] : List (Fin 2)) by decide), List.not_mem_nil⟩
    rw [dif_pos hk]
    simp only [Nat.zero_add]
    rfl
  | ⟨1, _⟩ =>
    -- the column axis: collapsed (offset coordinate 0), no batching, start the clamped index
    show (colsDims R N C wf).start (ix2 r j) idx 1 + (colsDims R N C wf).batchCoord (ix2 r j) 1
      + (colsDims R N C wf).offCoord (ix2 r j) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims R N C wf).startIndexMap from List.mem_singleton.mpr rfl)]
    -- the start index of result column `j` is read at `[j, 0]`
    have hsi : (colsDims R N C wf).siIdx (ix2 r j) ⟨List.idxOf (1 : Fin 2) (colsDims R N C wf).startIndexMap,
        List.idxOf_lt_length_iff.2 (List.mem_singleton.mpr rfl)⟩ = ix2 j ⟨0, Nat.one_pos⟩ := by
      funext b; refine Fin.ext ?_
      match b with
      | ⟨0, _⟩ => rfl
      | ⟨1, _⟩ => rfl
    rw [hsi]
    rfl

end Cert.LibGatherCols

end
-- ==== Proof.KHost0.lean ====
/-
  What the operations before the first launch leave in the four arrays that launch reads, index by index, on the
  extended reals.

  The input `x0 : [64, 64, 256, 25]` (sample, channel, frame, joint) is moved to sample, frame, joint, channel and
  read as 16384 rows of 1600 features: row `n·256 + t`, feature `v·64 + c`. A second array holds the same rows with
  the feature axis permuted by the first index vector: a negative entry is shifted up by 1600, the entry is read
  signed and clamped into `[0, 1599]`, and the column it names is kept when the entry lies in range (otherwise the
  column is replaced by a fixed word); under the hypothesis that every entry is in range the column is always kept.
  The feature scale is `tanh(mask) + 1` with the `[1, 25, 64]` mask read as one row of 1600, and the bias is the
  `[1, 1, 64]` array repeated over the 25 joints and read as one row of 1600. The matrix is untouched.

  Each array is first written as a closed term of the argument arrays, then that term is read at an index: a
  reshape keeps the row-major position, a transpose permutes the coordinates, a broadcast forgets the coordinates of
  the new axes.
-/
import proofs.«422135_j2637109920123_1_alg».proof.Proof.Gen.KernelIdeal.Frame
import proofs.«422135_j2637109920123_1_alg».proof.Proof.Spec
import proofs.«422135_j2637109920123_1_alg».proof.Proof.LibGatherCols
import proofs.«422135_j2637109920123_1_alg».proof.Proof.Ranges
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal

set_option maxRecDepth 16384

noncomputable section

namespace Cert.KernelIdeal.KHost0

open Idealize.ShloMosaic Idealize.ShloMosaic.TcCoe Idealize.SL.Sem
open Cert.KernelIdeal Cert.KernelIdeal.Gen Idealize.ShloMosaic.ValueIdx
open Idealize.ShloMosaic.StableHlo

variable (m : (ℓ : Loc nD τ sig) → Buf (Elt Ideal) ℓ) (ρ : Dev nD → PrngReg) (c : Dev nD)

local notation "TR" => transposes_S64x64x256x25_S64x256x25x64_0_2_3_1
local notation "SC" => shapeCasts_S64x256x25x64_S16384x1600

/-! ## The three layouts read at an index, over any arrays of the literal shapes -/

section Layouts

/-- The input moved to sample, frame, joint, channel and read as rows of features: row `mm`, feature `f`. -/
theorem flat_apply (a0 : S64x64x256x25.Idx → EReal) (mm : Fin 16384) (f : Fin 1600) :
    shapeCast S16384x1600 (transpose S64x256x25x64 [0, 2, 3, 1] a0 TR) SC (ix2 mm f) = Cert.Spec.xflat a0 mm f := by
  refine (shapeCast_apply _ _ (ix2 mm f)
    (ix4 (Cert.Spec.rowN mm) (Cert.Spec.rowT mm) (Cert.Spec.colV f) (Cert.Spec.colC f)) ?_).trans ?_
  · rw [Shape.rowMajor_val_four, Shape.rowMajor_val_two]
    show (((mm.val / 256) * 256 + mm.val % 256) * 25 + f.val / 64) * 64 + f.val % 64 = mm.val * 1600 + f.val
    omega
  · exact transpose_apply _ _ _ _
      (ix4 (Cert.Spec.rowN mm) (Cert.Spec.colC f) (Cert.Spec.rowT mm) (Cert.Spec.colV f))
      (fun b => match b with | ⟨0, _⟩ => rfl | ⟨1, _⟩ => rfl | ⟨2, _⟩ => rfl | ⟨3, _⟩ => rfl)

/-- The feature scale: the hyperbolic tangent of the mask plus one, the `[1, 25, 64]` array read as one row. -/
theorem scale_apply (a3 : S1x25x64.Idx → EReal) (f : Fin 1600) :
    shapeCast S1x1600 (addf (F := Ideal) (φ := .f32) (Host.tanh (F := Ideal) (φ := .f32) a3)
        (broadcastInDim S1x25x64 ![] bcast_S_S1x25x64 (constant (F := Ideal) S_ .f32 0x3F800000#32)))
      shapeCasts_S1x25x64_S1x1600 (ix2 0 f) = Cert.Spec.mk1 a3 f := by
  refine (shapeCast_apply _ _ (ix2 0 f) (ix3 0 (Cert.Spec.colV f) (Cert.Spec.colC f)) ?_).trans ?_
  · rw [Shape.rowMajor_val_three, Shape.rowMajor_val_two]
    show ((0 * 25 + f.val / 64) * 64 + f.val % 64) = 0 * 1600 + f.val
    omega
  · rw [addf_apply, broadcastInDim_scalar_apply, constant_apply]
    rfl

/-- The bias: the `[1, 1, 64]` array repeated over the joints and read as one row. -/
theorem bias_apply (a2 : S1x1x64.Idx → EReal) (g : Fin 1600) :
    shapeCast S1x1600 (broadcastInDim S1x1x25x64 ![0, 1, 2, 3] bcast_S1x1x1x64_S1x1x25x64_0_1_2_3
        (shapeCast S1x1x1x64 (shapeCast S1x64 a2 shapeCasts_S1x1x64_S1x64) shapeCasts_S1x64_S1x1x1x64))
      shapeCasts_S1x1x25x64_S1x1600 (ix2 0 g) = Cert.Spec.bfl a2 g := by
  refine (shapeCast_apply _ _ (ix2 0 g) (ix4 0 0 (Cert.Spec.colV g) (Cert.Spec.colC g)) ?_).trans ?_
  · rw [Shape.rowMajor_val_four, Shape.rowMajor_val_two]
    show (((0 * 1 + 0) * 25 + g.val / 64) * 64 + g.val % 64) = 0 * 1600 + g.val
    omega
  refine (broadcastInDim_apply _ _ _ _ (ix4 0 0 0 (Cert.Spec.colC g))
    (fun a => match a with | ⟨0, _⟩ => rfl | ⟨1, _⟩ => rfl | ⟨2, _⟩ => rfl | ⟨3, _⟩ => rfl)).trans ?_
  refine (shapeCast_apply _ _ _ (ix2 0 (Cert.Spec.colC g)) ?_).trans ?_
  · rw [Shape.rowMajor_val_four, Shape.rowMajor_val_two]
    show 0 * 64 + g.val % 64 = (((0 * 1 + 0) * 1 + 0) * 64 + g.val % 64)
    omega
  refine (shapeCast_apply _ _ _ (ix3 0 0 (Cert.Spec.colC g)) ?_).trans rfl
  rw [Shape.rowMajor_val_three, Shape.rowMajor_val_two]
  show ((0 * 1 + 0) * 64 + g.val % 64) = 0 * 64 + g.val % 64
  omega

end Layouts

/-! ## The arrays as closed terms of the arguments -/

/-- The flattened input: the argument transposed to sample, frame, joint, channel, then reshaped to rows. -/
theorem e_v1 : (Gen.V3 m ρ c main_v1 : S16384x1600.Idx → EReal)
    = shapeCast S16384x1600 (transpose S64x256x25x64 [0, 2, 3, 1] (m ((c : Thread nD τ).loc main_arg0) : S64x64x256x25.Idx → EReal) TR) SC := by
  dsimp only [Gen.V3, Gen.W3, Gen.W2, Gen.W1, Gen.W0, Gen.hostOps0, Gen.hostOps0_1, Gen.hostOps0_2]
  after_results
  rfl

/-- The feature scale: `tanh` of the mask plus the word of one, reshaped to one row. -/
theorem e_v6 : (Gen.V3 m ρ c main_v6 : S1x1600.Idx → EReal)
    = shapeCast S1x1600 (addf (F := Ideal) (φ := .f32) (Host.tanh (F := Ideal) (φ := .f32) (m ((c : Thread nD τ).loc main_arg3) : S1x25x64.Idx → EReal))
        (broadcastInDim S1x25x64 ![] bcast_S_S1x25x64 (constant (F := Ideal) S_ .f32 0x3F800000#32)))
      shapeCasts_S1x25x64_S1x1600 := by
  dsimp only [Gen.V3, Gen.W3, Gen.W2, Gen.W1, Gen.W0, Gen.hostOps0, Gen.hostOps0_1, Gen.hostOps0_2]
  after_results
  rfl

/-- The bias: the argument reshaped twice, repeated over the joints, reshaped to one row. -/
theorem e_v10 : (Gen.V3 m ρ c main_v10 : S1x1600.Idx → EReal)
    = shapeCast S1x1600 (broadcastInDim S1x1x25x64 ![0, 1, 2, 3] bcast_S1x1x1x64_S1x1x25x64_0_1_2_3
        (shapeCast S1x1x1x64 (shapeCast S1x64 (m ((c : Thread nD τ).loc main_arg2) : S1x1x64.Idx → EReal) shapeCasts_S1x1x64_S1x64) shapeCasts_S1x64_S1x1x1x64))
      shapeCasts_S1x1x25x64_S1x1600 := by
  dsimp only [Gen.V3, Gen.W3, Gen.W2, Gen.W1, Gen.W0, Gen.hostOps0, Gen.hostOps0_1, Gen.hostOps0_2]
  after_results
  rfl

/-- The matrix is as launched: nothing before the launch writes it. -/
theorem V3_arg1 : (Gen.V3 m ρ c main_arg1 : S64x64.Idx → EReal) = m ((c : Thread nD τ).loc main_arg1) := by
  dsimp only [Gen.V3, Gen.W3, Gen.W2, Gen.W1, Gen.W0, Gen.hostOps0, Gen.hostOps0_1, Gen.hostOps0_2]
  after_results

set_option maxHeartbeats 1600000 in
/-- The permuted rows: where the in-range bit of a column is set, the column of the flattened input its start index
    names; elsewhere a fixed word. -/
theorem e_v2 : (Gen.V3 m ρ c main_v2 : S16384x1600.Idx → EReal)
    = select (broadcastInDim S16384x1600 ![1] bcast_S1600_S16384x1600_1
          (Cert.Spec.inb (Cert.Spec.nidx (m ((c : Thread nD τ).loc main_arg6)))))
        (Host.gather gather_S16384x1600_S1600x1_S16384x1600_0_1_n_n_1_1_163841
          (shapeCast S16384x1600 (transpose S64x256x25x64 [0, 2, 3, 1] (m ((c : Thread nD τ).loc main_arg0) : S64x64x256x25.Idx → EReal) TR) SC)
          (Cert.Spec.nidx (m ((c : Thread nD τ).loc main_arg6))))
        (broadcastInDim S16384x1600 ![] bcast_S_S16384x1600 (constant (F := Ideal) S_ .f32 0x7FC00000#32)) := by
  dsimp only [Gen.V3, Gen.W3, Gen.W2, Gen.W1, Gen.W0, Gen.hostOps0, Gen.hostOps0_1, Gen.hostOps0_2]
  after_results_simp
  rfl

/-! ## The four arrays index by index -/

/-- Row `mm`, feature `f` of the flattened input. -/
theorem V3_v1 (mm : Fin 16384) (f : Fin 1600) :
    (Gen.V3 m ρ c main_v1 : S16384x1600.Idx → EReal) (ix2 mm f)
      = Cert.Spec.xflat (m ((c : Thread nD τ).loc main_arg0)) mm f := by
  rw [e_v1]
  exact flat_apply _ mm f

/-- With every start index in range, row `mm`, feature `f` of the permuted rows is the flattened input at the column
    the `f`-th start index selects. -/
theorem V3_v2 (h : Cert.Spec.InRange (Cert.Spec.nidx (m ((c : Thread nD τ).loc main_arg6)))) (mm : Fin 16384) (f : Fin 1600) :
    (Gen.V3 m ρ c main_v2 : S16384x1600.Idx → EReal) (ix2 mm f)
      = Cert.Spec.xflat (m ((c : Thread nD τ).loc main_arg0)) mm
          (Cert.Spec.kap (Cert.Spec.nidx (m ((c : Thread nD τ).loc main_arg6))) f) := by
  rw [e_v2, select_apply]
  have hb : broadcastInDim S16384x1600 ![1] bcast_S1600_S16384x1600_1
      (Cert.Spec.inb (Cert.Spec.nidx (m ((c : Thread nD τ).loc main_arg6)))) (ix2 mm f) = 1#1 :=
    (broadcastInDim_apply _ _ _ (ix2 mm f) (ix1 f) (fun a => match a with | ⟨0, _⟩ => rfl)).trans
      (Cert.Ranges.inb_of_inRange _ h f)
  rw [hb, select_one]
  refine (Cert.LibGatherCols.gather_cols_apply (by decide)
    gather_S16384x1600_S1600x1_S16384x1600_0_1_n_n_1_1_163841.wf _ _ mm f).trans ?_
  exact flat_apply _ mm _

/-- Feature `f` of the scale. -/
theorem V3_v6 (f : Fin 1600) :
    (Gen.V3 m ρ c main_v6 : S1x1600.Idx → EReal) (ix2 0 f) = Cert.Spec.mk1 (m ((c : Thread nD τ).loc main_arg3)) f := by
  rw [e_v6]
  exact scale_apply _ f

/-- Feature `g` of the bias. -/
theorem V3_v10 (g : Fin 1600) :
    (Gen.V3 m ρ c main_v10 : S1x1600.Idx → EReal) (ix2 0 g) = Cert.Spec.bfl (m ((c : Thread nD τ).loc main_arg2)) g := by
  rw [e_v10]
  exact bias_apply _ g

end Cert.KernelIdeal.KHost0

end
-- ==== Proof.KBody0.lean ====
/-
  The arithmetic of the first kernel body, read index by index over extended reals.

  On one block of 512 rows the body scales every feature of the rows by a per-feature factor, sends each joint's
  64 features through the 64×64 matrix, lays the 25 products side by side, adds the per-feature bias, and
  accumulates for every feature the sum and the sum of squares over the block's rows.
-/
import proofs.«422135_j2637109920123_1_alg».proof.Proof.Gen.KernelIdeal.Skeleton
import proofs.«422135_j2637109920123_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KBody0

open Idealize.ShloMosaic Idealize.SL.Sem Idealize.ShloMosaic.ValueIdx Cert.Spec Cert.KernelIdeal.Gen

/-- The block's linear layer: the 25 joint products of the scaled rows with the matrix, side by side, plus the
    bias row. -/
def ybody (x : Vec Ideal S512x1600 .f32) (mkv : Vec Ideal S1x1600 .f32) (w : Vec Ideal S64x64 .f32)
    (bv : Vec Ideal S1x1600 .f32) : FVec Ideal S512x1600 .f32 :=
  Gen.k0_pay1
    (concatenate S512x1600 1
      [⟨S512x64, Gen.k0_pay8 x mkv w⟩,
       ⟨S512x64, Gen.k0_pay9 x mkv w⟩,
       ⟨S512x64, Gen.k0_pay10 x mkv w⟩,
       ⟨S512x64, Gen.k0_pay11 x mkv w⟩,
       ⟨S512x64, Gen.k0_pay12 x mkv w⟩,
       ⟨S512x64, Gen.k0_pay13 x mkv w⟩,
       ⟨S512x64, Gen.k0_pay14 x mkv w⟩,
       ⟨S512x64, Gen.k0_pay15 x mkv w⟩,
       ⟨S512x64, Gen.k0_pay16 x mkv w⟩,
       ⟨S512x64, Gen.k0_pay18 (Gen.k0_pay7 w) (Gen.k0_pay17 x mkv) (constant (F := Ideal) S512x64 .f32 0x00000000#32)⟩,
       ⟨S512x64, Gen.k0_pay19 (Gen.k0_pay6 x mkv) (Gen.k0_pay7 w)⟩,
       ⟨S512x64, Gen.k0_pay20 (Gen.k0_pay6 x mkv) (Gen.k0_pay7 w)⟩,
       ⟨S512x64, Gen.k0_pay21 (Gen.k0_pay6 x mkv) (Gen.k0_pay7 w)⟩,
       ⟨S512x64, Gen.k0_pay22 (Gen.k0_pay6 x mkv) (Gen.k0_pay7 w)⟩,
       ⟨S512x64, Gen.k0_pay23 (Gen.k0_pay6 x mkv) (Gen.k0_pay7 w)⟩,
       ⟨S512x64, Gen.k0_pay24 (Gen.k0_pay6 x mkv) (Gen.k0_pay7 w)⟩,
       ⟨S512x64, Gen.k0_pay25 (Gen.k0_pay6 x mkv) (Gen.k0_pay7 w)⟩,
       ⟨S512x64, Gen.k0_pay26 (Gen.k0_pay6 x mkv) (Gen.k0_pay7 w)⟩,
       ⟨S512x64, Gen.k0_pay27 (Gen.k0_pay6 x mkv) (Gen.k0_pay7 w)⟩,
       ⟨S512x64, Gen.k0_pay28 (Gen.k0_pay6 x mkv) (Gen.k0_pay7 w)⟩,
       ⟨S512x64, Gen.k0_pay29 (Gen.k0_pay6 x mkv) (Gen.k0_pay7 w)⟩,
       ⟨S512x64, Gen.k0_pay30 (Gen.k0_pay6 x mkv) (Gen.k0_pay7 w)⟩,
       ⟨S512x64, Gen.k0_pay31 (Gen.k0_pay6 x mkv) (Gen.k0_pay7 w)⟩,
       ⟨S512x64, Gen.k0_pay32 (Gen.k0_pay6 x mkv) (Gen.k0_pay7 w)⟩,
       ⟨S512x64, matmul dot_S512x64_S64x64_S512x64_1_0_0_1_n_n none (Gen.k0_pay33 (Gen.k0_pay6 x mkv)) (Gen.k0_pay7 w) (constant (F := Ideal) S512x64 .f32 0x00000000#32)⟩]
      concatenates_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x1600_d1)
    bv

variable (x : Vec Ideal S512x1600 .f32) (mkv : Vec Ideal S1x1600 .f32) (w : Vec Ideal S64x64 .f32)
  (bv : Vec Ideal S1x1600 .f32)

/-! ## The block product's operand indices, axis by axis -/

theorem lhs_axis0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide),
    dif_pos (show (0 : Fin S512x64.rank) ∈ dot_S512x64_S64x64_S512x64_1_0_0_1_n_n.lhsNonContracting by decide)]
  rfl

theorem lhs_axis1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q

theorem rhs_axis0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q

theorem rhs_axis1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide),
    dif_pos (show (1 : Fin S64x64.rank) ∈ dot_S512x64_S64x64_S512x64_1_0_0_1_n_n.rhsNonContracting by decide)]
  rfl

/-! ## One joint's product -/

/-- A band of 64 columns of a 512×1600 array, taken from column `o`, times a 64×64 matrix into a zero accumulator:
    at row `r` and output channel `d`, the sum over the band's 64 columns of the products. -/
theorem band_matmul_apply (v8 : FVec Ideal S512x1600 .f32) (w10 : FVec Ideal S64x64 .bf16) (o : Nat)
    (hs : S512x1600.Slices ![0, o] S512x64) (k : Fin 64 → Fin 1600) (hk : ∀ c, (k c).val = o + c.val)
    (r : Fin 512) (d : Fin 64) :
    matmul dot_S512x64_S64x64_S512x64_1_0_0_1_n_n none
        (truncf .bf16 (extractStridedSlice S512x64 ![0, o] v8 hs) bitsLt_bf16_f32) w10
        (constant (F := Ideal) S512x64 .f32 0x00000000#32) (ix2 r d)
      = ∑ c : Fin 64, v8 (ix2 r (k c)) * w10 (ix2 c d) := by
  simp only [matmul]
  rw [Ideal.matmul_constant_zero_apply,
    ← Equiv.sum_comp (contrEquiv1 dot_S512x64_S64x64_S512x64_1_0_0_1_n_n 64 rfl rfl).symm]
  refine Finset.sum_congr rfl fun c _ => ?_
  have hc := contrEquiv1_symm_val dot_S512x64_S64x64_S512x64_1_0_0_1_n_n 64 rfl rfl c
  have el : dot_S512x64_S64x64_S512x64_1_0_0_1_n_n.lhsIdx (ix2 r d) ((contrEquiv1 dot_S512x64_S64x64_S512x64_1_0_0_1_n_n 64 rfl rfl).symm c) = ix2 r c :=
    funext fun a => Fin.ext (by
      match a with
      | ⟨0, _⟩ => exact lhs_axis0 _ _
      | ⟨1, _⟩ => exact (lhs_axis1 _ _).trans hc)
  have er : dot_S512x64_S64x64_S512x64_1_0_0_1_n_n.rhsIdx (ix2 r d) ((contrEquiv1 dot_S512x64_S64x64_S512x64_1_0_0_1_n_n 64 rfl rfl).symm c) = ix2 c d :=
    funext fun a => Fin.ext (by
      match a with
      | ⟨0, _⟩ => exact (rhs_axis0 _ _).trans hc
      | ⟨1, _⟩ => exact rhs_axis1 _ _)
  rw [el, er, truncf_apply, slice2_axis1_apply o v8 hs r c (k c) (hk c)]

/-! ## The pointwise stages -/

theorem pay6_apply (r : Fin 512) (g : Fin 1600) :
    Gen.k0_pay6 x mkv (ix2 r g) = x (ix2 r g) * mkv (ix2 0 g) := by
  unfold Gen.k0_pay6
  rw [mulf_apply, shapeCast_self, shapeCast_self, broadcastTo_1b_ab_apply]

theorem pay7_apply (c d : Fin 64) : Gen.k0_pay7 w (ix2 c d) = w (ix2 c d) := rfl

theorem pay1_apply (v86 : FVec Ideal S512x1600 .f32) (r : Fin 512) (g : Fin 1600) :
    Gen.k0_pay1 v86 bv (ix2 r g) = v86 (ix2 r g) + bv (ix2 0 g) := by
  unfold Gen.k0_pay1
  rw [addf_apply, shapeCast_self, broadcastTo_1b_ab_apply]

/-! ## The running sums and their resets -/

theorem colsum_apply (y : FVec Ideal S512x1600 .f32) (g : Fin 1600) :
    multiReduction .add [0] S1600 y 0x00000000#32 reduces_S512x1600_S1600 (.inl rfl) rfl (ix1 g)
      = ∑ r : Fin 512, y (ix2 r g) := by
  refine (Ideal.multiReduction_add_single y 0x00000000#32 reduces_S512x1600_S1600 (.inl rfl) rfl (ix1 g)).trans ?_
  show (∑ r : Fin 512, y (reduces_S512x1600_S1600.lift (ix1 g) r)) = _
  refine Finset.sum_congr rfl fun r _ => congrArg y (funext fun a => Fin.ext ?_)
  match a with
  | ⟨0, _⟩ => rfl
  | ⟨1, _⟩ => rfl

theorem pay2_apply (y : FVec Ideal S512x1600 .f32) (acc : Vec Ideal S1x1600 .f32) (g : Fin 1600) :
    Gen.k0_pay2 y acc (ix2 0 g) = acc (ix2 0 g) + ∑ r : Fin 512, y (ix2 r g) := by
  unfold Gen.k0_pay2
  rw [addf_apply, shapeCast_self, shapeCast_a_1a_apply, colsum_apply]

theorem pay3_apply (y : FVec Ideal S512x1600 .f32) (acc : Vec Ideal S1x1600 .f32) (g : Fin 1600) :
    Gen.k0_pay3 y acc (ix2 0 g) = acc (ix2 0 g) + ∑ r : Fin 512, y (ix2 r g) * y (ix2 r g) := by
  unfold Gen.k0_pay3
  rw [addf_apply, shapeCast_self, shapeCast_a_1a_apply, colsum_apply]
  rfl

theorem pay4_apply (g : Fin 1600) : Gen.k0_pay4 (F := Ideal) (ix2 0 g) = 0 :=
  Ideal.ofBits_zero_f32

theorem pay5_apply (g : Fin 1600) : Gen.k0_pay5 (F := Ideal) (ix2 0 g) = 0 :=
  Ideal.ofBits_zero_f32

/-! ## The 25 joint products as one family -/

theorem slices_joint (n : Fin 25) : S512x1600.Slices ![0, n.val * 64] S512x64 :=
  ⟨rfl, fun a => by
    have := n.isLt
    match a with
    | ⟨0, _⟩ => show 0 + 512 ≤ 512; omega
    | ⟨1, _⟩ => show n.val * 64 + 64 ≤ 1600; omega⟩

/-- Joint `n`'s product: the joint's band of the scaled rows times the matrix. -/
def piece (v8 : FVec Ideal S512x1600 .f32) (w10 : FVec Ideal S64x64 .bf16) (n : Fin 25) : FVec Ideal S512x64 .f32 :=
  matmul dot_S512x64_S64x64_S512x64_1_0_0_1_n_n none
    (truncf .bf16 (extractStridedSlice S512x64 ![0, n.val * 64] v8 (slices_joint n)) bitsLt_bf16_f32) w10
    (constant (F := Ideal) S512x64 .f32 0x00000000#32)

theorem piece_apply (v8 : FVec Ideal S512x1600 .f32) (w10 : FVec Ideal S64x64 .bf16) (n : Fin 25)
    (r : Fin 512) (d : Fin 64) :
    piece v8 w10 n (ix2 r d) = ∑ c : Fin 64, v8 (ix2 r (col n c)) * w10 (ix2 c d) :=
  band_matmul_apply v8 w10 (n.val * 64) (slices_joint n) (col n) (fun _ => rfl) r d

/-- The body's list of products is the family, joint by joint. -/
theorem ybody_eq :
    ybody x mkv w bv
      = Gen.k0_pay1
          (concatenate S512x1600 1
            (List.ofFn fun n : Fin 25 =>
              (⟨S512x64, piece (Gen.k0_pay6 x mkv) (Gen.k0_pay7 w) n⟩ : (s : Shape) × (s.Idx → Ideal .f32)))
            concatenates_S512x64_S512x64_S512x64_S512x64_S512x64_S512x64_S512x64_S512x64_S512x64_S512x64_S512x64_S512x64_S512x64_S512x64_S512x64_S512x64_S512x64_S512x64_S512x64_S512x64_S512x64_S512x64_S512x64_S512x64_S512x64_S512x1600_d1)
          bv :=
  rfl

/-! ## The linear layer of the block, index by index -/

theorem ybody_apply (r : Fin 512) (g : Fin 1600) :
    ybody x mkv w bv (ix2 r g)
      = (∑ c : Fin 64, (x (ix2 r (col (colV g) c)) * mkv (ix2 0 (col (colV g) c))) * w (ix2 c (colC g)))
        + bv (ix2 0 g) := by
  rw [ybody_eq, pay1_apply]
  refine congrArg (· + bv (ix2 0 g)) ?_
  refine (concatenate_ofFn_apply (1 : Fin S512x1600.rank)
    (fun n : Fin 25 => piece (Gen.k0_pay6 x mkv) (Gen.k0_pay7 w) n) _ rfl 64 rfl (ix2 r g) (colV g) rfl
    (ix2 r (colC g)) rfl ?_).trans ?_
  · intro b hb
    match b, hb with
    | ⟨0, _⟩, _ => rfl
    | ⟨1, _⟩, hb => exact absurd rfl hb
  · show piece (Gen.k0_pay6 x mkv) (Gen.k0_pay7 w) (colV g) (ix2 r (colC g)) = _
    rw [piece_apply]
    refine Finset.sum_congr rfl fun c _ => ?_
    rw [pay6_apply, pay7_apply]

end Cert.KernelIdeal.KBody0

end
-- ==== Proof.KPieces0.lean ====
/-
  What one run of the first kernel body leaves in its three output blocks, as values of the four input blocks.

  The body writes the block's linear-layer output whole; and it writes each of the two accumulator rows whole, as
  the row it finds plus the block's column sums (of the output, and of its squares). At the first grid point the
  accumulators are first overwritten with zeros, so what the body finds there is the zero row; at every later point
  it finds what the point before left.
-/
import proofs.«422135_j2637109920123_1_alg».proof.Proof.Gen.KernelIdeal.Frame
import proofs.«422135_j2637109920123_1_alg».proof.Proof.KBody0
import Idealize.ShloMosaic.Lib.Pipeline.Value
import Idealize.ShloMosaic.Lib.Tactic

noncomputable section

namespace Cert.KernelIdeal.KRegion0

open Idealize.ShloMosaic Idealize.ShloMosaic.TcCoe Idealize.SL.Sem
open Cert.KernelIdeal Cert.KernelIdeal.Gen

/-- The zero offsets of a rank-two block, however they are spelt. -/
theorem hz : (![0, 0] : Fin 2 → Nat) = fun _ => 0 := funext fun a => by fin_cases a <;> rfl

/-- Reading the whole of a buffer that holds `X`, from offset zero, gives `X`. -/
theorem ld_read_unread {sg : RefSig} {κ : Kind} {sp : Space} {S : Shape} {e : EltTy} {Val : EltTy → Type}
    (m : Memref sg κ sp S e) (h : m.IsWhole) {off : Fin S.rank → Nat} (hoff : off = fun _ => 0)
    (inb : ∀ a, off a + S.size a ≤ S.size a) (X : S.Idx → Val e) :
    View.ld (m.view.read Val (h.unread X)) (Rect.unit off S.size inb) = X := by
  rw [h.read_unread]; exact View.ld_unit_zero hoff inb X

/-! ## The first grid point: the accumulators start from zero -/

/-- The output block is the linear layer of the four input blocks. -/
theorem out_A_4 (c : Dev nD) (i : grid0.Coords) (a1 : Memref sig .tc .vmem S512x1600 .f32) (h1 : a1.IsWhole) (a2 : Memref sig .tc .vmem S1x1600 .f32) (h2 : a2.IsWhole) (a3 : Memref sig .tc .vmem S64x64 .f32) (h3 : a3.IsWhole) (a4 : Memref sig .tc .vmem S1x1600 .f32) (h4 : a4.IsWhole) (a5 : Memref sig .tc .vmem S512x1600 .f32) (h5 : a5.IsWhole) (a6 : Memref sig .tc .vmem S1x1600 .f32) (h6 : a6.IsWhole) (a7 : Memref sig .tc .vmem S1x1600 .f32) (h7 : a7.IsWhole) (hc : cond0_0 i) (x0 : Vec Ideal S512x1600 .f32) (x1 : Vec Ideal S1x1600 .f32) (x2 : Vec Ideal S64x64 .f32) (x3 : Vec Ideal S1x1600 .f32) :
    out0_A_4 (F := Ideal) c i a1 h1 a2 h2 a3 h3 a4 h4 a5 h5 a6 h6 a7 h7 hc x0 x1 x2 x3 = KBody0.ybody x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld]
  rw [ld_read_unread a1 h1 hz, ld_read_unread a2 h2 hz, ld_read_unread a3 h3 hz, ld_read_unread a4 h4 hz]
  rfl

/-- The row of sums is the zero row plus the block's column sums. -/
theorem out_A_5 (c : Dev nD) (i : grid0.Coords) (a1 : Memref sig .tc .vmem S512x1600 .f32) (h1 : a1.IsWhole) (a2 : Memref sig .tc .vmem S1x1600 .f32) (h2 : a2.IsWhole) (a3 : Memref sig .tc .vmem S64x64 .f32) (h3 : a3.IsWhole) (a4 : Memref sig .tc .vmem S1x1600 .f32) (h4 : a4.IsWhole) (a5 : Memref sig .tc .vmem S512x1600 .f32) (h5 : a5.IsWhole) (a6 : Memref sig .tc .vmem S1x1600 .f32) (h6 : a6.IsWhole) (a7 : Memref sig .tc .vmem S1x1600 .f32) (h7 : a7.IsWhole) (hc : cond0_0 i) (x0 : Vec Ideal S512x1600 .f32) (x1 : Vec Ideal S1x1600 .f32) (x2 : Vec Ideal S64x64 .f32) (x3 : Vec Ideal S1x1600 .f32) :
    out0_A_5 (F := Ideal) c i a1 h1 a2 h2 a3 h3 a4 h4 a5 h5 a6 h6 a7 h7 hc x0 x1 x2 x3 = k0_pay2 (KBody0.ybody x0 x1 x2 x3) (k0_pay4 (F := Ideal)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x1600) hz, View.readCov_unit_zero (S := S1x1600) _ hz]
  simp only [View.readAt_eq_ld]
  rw [ld_read_unread a1 h1 hz, ld_read_unread a2 h2 hz, ld_read_unread a3 h3 hz, ld_read_unread a4 h4 hz]
  rfl

/-- The row of sums of squares is the zero row plus the block's column sums of squares. -/
theorem out_A_6 (c : Dev nD) (i : grid0.Coords) (a1 : Memref sig .tc .vmem S512x1600 .f32) (h1 : a1.IsWhole) (a2 : Memref sig .tc .vmem S1x1600 .f32) (h2 : a2.IsWhole) (a3 : Memref sig .tc .vmem S64x64 .f32) (h3 : a3.IsWhole) (a4 : Memref sig .tc .vmem S1x1600 .f32) (h4 : a4.IsWhole) (a5 : Memref sig .tc .vmem S512x1600 .f32) (h5 : a5.IsWhole) (a6 : Memref sig .tc .vmem S1x1600 .f32) (h6 : a6.IsWhole) (a7 : Memref sig .tc .vmem S1x1600 .f32) (h7 : a7.IsWhole) (hc : cond0_0 i) (x0 : Vec Ideal S512x1600 .f32) (x1 : Vec Ideal S1x1600 .f32) (x2 : Vec Ideal S64x64 .f32) (x3 : Vec Ideal S1x1600 .f32) :
    out0_A_6 (F := Ideal) c i a1 h1 a2 h2 a3 h3 a4 h4 a5 h5 a6 h6 a7 h7 hc x0 x1 x2 x3 = k0_pay3 (KBody0.ybody x0 x1 x2 x3) (k0_pay5 (F := Ideal)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x1600) hz, View.readCov_unit_zero (S := S1x1600) _ hz]
  simp only [View.readAt_eq_ld]
  rw [ld_read_unread a1 h1 hz, ld_read_unread a2 h2 hz, ld_read_unread a3 h3 hz, ld_read_unread a4 h4 hz]
  rfl

/-! ## Every later grid point: the accumulators carry on from the rows `xo5`, `xo6` they hold -/

/-- The output block is the linear layer of the four input blocks. -/
theorem out_B_4 (c : Dev nD) (i : grid0.Coords) (a1 : Memref sig .tc .vmem S512x1600 .f32) (h1 : a1.IsWhole) (a2 : Memref sig .tc .vmem S1x1600 .f32) (h2 : a2.IsWhole) (a3 : Memref sig .tc .vmem S64x64 .f32) (h3 : a3.IsWhole) (a4 : Memref sig .tc .vmem S1x1600 .f32) (h4 : a4.IsWhole) (a5 : Memref sig .tc .vmem S512x1600 .f32) (h5 : a5.IsWhole) (a6 : Memref sig .tc .vmem S1x1600 .f32) (h6 : a6.IsWhole) (a7 : Memref sig .tc .vmem S1x1600 .f32) (h7 : a7.IsWhole) (hc : ¬cond0_0 i) (x0 : Vec Ideal S512x1600 .f32) (x1 : Vec Ideal S1x1600 .f32) (x2 : Vec Ideal S64x64 .f32) (x3 : Vec Ideal S1x1600 .f32)
    (xo5 : Vec Ideal S1x1600 .f32) (xo6 : Vec Ideal S1x1600 .f32) :
    out0_B_4 (F := Ideal) c i a1 h1 a2 h2 a3 h3 a4 h4 a5 h5 a6 h6 a7 h7 hc x0 x1 x2 x3 xo5 xo6 = KBody0.ybody x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld]
  rw [ld_read_unread a1 h1 hz, ld_read_unread a2 h2 hz, ld_read_unread a3 h3 hz, ld_read_unread a4 h4 hz]
  rfl

/-- The row of sums is the row found plus the block's column sums. -/
theorem out_B_5 (c : Dev nD) (i : grid0.Coords) (a1 : Memref sig .tc .vmem S512x1600 .f32) (h1 : a1.IsWhole) (a2 : Memref sig .tc .vmem S1x1600 .f32) (h2 : a2.IsWhole) (a3 : Memref sig .tc .vmem S64x64 .f32) (h3 : a3.IsWhole) (a4 : Memref sig .tc .vmem S1x1600 .f32) (h4 : a4.IsWhole) (a5 : Memref sig .tc .vmem S512x1600 .f32) (h5 : a5.IsWhole) (a6 : Memref sig .tc .vmem S1x1600 .f32) (h6 : a6.IsWhole) (a7 : Memref sig .tc .vmem S1x1600 .f32) (h7 : a7.IsWhole) (hc : ¬cond0_0 i) (x0 : Vec Ideal S512x1600 .f32) (x1 : Vec Ideal S1x1600 .f32) (x2 : Vec Ideal S64x64 .f32) (x3 : Vec Ideal S1x1600 .f32)
    (xo5 : Vec Ideal S1x1600 .f32) (xo6 : Vec Ideal S1x1600 .f32) :
    out0_B_5 (F := Ideal) c i a1 h1 a2 h2 a3 h3 a4 h4 a5 h5 a6 h6 a7 h7 hc x0 x1 x2 x3 xo5 xo6 = k0_pay2 (KBody0.ybody x0 x1 x2 x3) xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld]
  rw [ld_read_unread a1 h1 hz, ld_read_unread a2 h2 hz, ld_read_unread a3 h3 hz, ld_read_unread a4 h4 hz,
    ld_read_unread a6 h6 hz]
  rfl

/-- The row of sums of squares is the row found plus the block's column sums of squares. -/
theorem out_B_6 (c : Dev nD) (i : grid0.Coords) (a1 : Memref sig .tc .vmem S512x1600 .f32) (h1 : a1.IsWhole) (a2 : Memref sig .tc .vmem S1x1600 .f32) (h2 : a2.IsWhole) (a3 : Memref sig .tc .vmem S64x64 .f32) (h3 : a3.IsWhole) (a4 : Memref sig .tc .vmem S1x1600 .f32) (h4 : a4.IsWhole) (a5 : Memref sig .tc .vmem S512x1600 .f32) (h5 : a5.IsWhole) (a6 : Memref sig .tc .vmem S1x1600 .f32) (h6 : a6.IsWhole) (a7 : Memref sig .tc .vmem S1x1600 .f32) (h7 : a7.IsWhole) (hc : ¬cond0_0 i) (x0 : Vec Ideal S512x1600 .f32) (x1 : Vec Ideal S1x1600 .f32) (x2 : Vec Ideal S64x64 .f32) (x3 : Vec Ideal S1x1600 .f32)
    (xo5 : Vec Ideal S1x1600 .f32) (xo6 : Vec Ideal S1x1600 .f32) :
    out0_B_6 (F := Ideal) c i a1 h1 a2 h2 a3 h3 a4 h4 a5 h5 a6 h6 a7 h7 hc x0 x1 x2 x3 xo5 xo6 = k0_pay3 (KBody0.ybody x0 x1 x2 x3) xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld]
  rw [ld_read_unread a1 h1 hz, ld_read_unread a2 h2 hz, ld_read_unread a3 h3 hz, ld_read_unread a4 h4 hz,
    ld_read_unread a7 h7 hz]
  rfl

end Cert.KernelIdeal.KRegion0

end
-- ==== Proof.KRegion0.lean ====
/-
  What the first region leaves in its three output arrays, for any contents of the arrays it reads.

  The region walks the 16384 rows in 32 blocks of 512. At each block it forms the linear layer of the block's rows —
  every joint's 64 scaled features through the 64×64 matrix, plus the bias — and stores it as that block of the rows'
  output; and it adds, feature by feature, the block's column sums and column sums of squares into two rows that
  start from zero at the first block and are carried from block to block. A row `512 t + r` of the arrays is row `r`
  of block `t`, so the rows' output ends as the linear layer of the arrays, and the two carried rows, after the last
  block, as its sums and sums of squares over all 16384 rows: a sum over the rows is the sum over the blocks of the
  sums over each block's rows.
-/
import proofs.«422135_j2637109920123_1_alg».proof.Proof.KPieces0
import Mathlib.Algebra.BigOperators.Fin
import Mathlib.Algebra.BigOperators.Group.Finset.Sigma
import Mathlib.Logic.Equiv.Fin.Basic

noncomputable section

open scoped BigOperators

namespace Cert.KernelIdeal.KRegion0

open Idealize.ShloMosaic Idealize.ShloMosaic.TcCoe Idealize.SL.Sem Idealize.ShloMosaic.ValueIdx
open Idealize.ShloMosaic.Pipeline (Dat)
open Cert.KernelIdeal Cert.KernelIdeal.Gen Cert.Spec
/-! ## Rows of the whole array, counted block by block -/

/-- A sum over the 16384 rows is the sum over the 32 blocks of the sums over each block's 512 rows. -/
theorem sum_rows_by_block (Z : Fin 16384 → EReal) :
    (∑ t : Fin 32, ∑ r : Fin 512, Z ⟨512 * t.val + r.val, by omega⟩) = ∑ mm : Fin 16384, Z mm := by
  rw [← Finset.sum_product']
  refine Fintype.sum_equiv (finProdFinEquiv (m := 32) (n := 512)) _ _ fun p => ?_
  refine congrArg Z (Fin.ext ?_)
  show 512 * p.1.val + p.2.val = p.2.val + 512 * p.1.val
  omega

/-! ## One grid point -/

section Region
variable (V : (c : Dev nD) → (b : Ref sig .tc) → Buf (Elt Ideal) ((c : Thread nD τ).loc b))

/-- The four input blocks at a grid point. -/
abbrev xblk (c : Dev nD) (t : Fin cfg0.N) : Vec Ideal S512x1600 .f32 := iblk0 V c 0 t
abbrev mblk (c : Dev nD) (t : Fin cfg0.N) : Vec Ideal S1x1600 .f32 := iblk0 V c 1 t
abbrev wblk (c : Dev nD) (t : Fin cfg0.N) : Vec Ideal S64x64 .f32 := iblk0 V c 2 t
abbrev bblk (c : Dev nD) (t : Fin cfg0.N) : Vec Ideal S1x1600 .f32 := iblk0 V c 3 t

/-- The linear layer of the blocks at a grid point. -/
abbrev yblk (c : Dev nD) (t : Fin cfg0.N) : FVec Ideal S512x1600 .f32 :=
  KBody0.ybody (xblk V c t) (mblk V c t) (wblk V c t) (bblk V c t)

/-- After any point the output block holds the linear layer of that point's blocks. -/
theorem outs_y (c : Dev nD) (t : Fin cfg0.N) : (outsAt0 V c t.val t.isLt).1 = yblk V c t := by
  by_cases h0 : t.val % 32 = 0
  · rw [outsAt0_A V c t h0]; dsimp only
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (mblk V c t) (wblk V c t) (bblk V c t)
  · rw [outsAt0_B V c t h0]; dsimp only
    exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (mblk V c t) (wblk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2

/-- At the first point the row of sums starts from zero, -/
theorem outs_s1_first (c : Dev nD) (t : Fin cfg0.N) (h0 : t.val % 32 = 0) :
    (outsAt0 V c t.val t.isLt).2.1 = k0_pay2 (yblk V c t) (k0_pay4 (F := Ideal)) := by
  rw [outsAt0_A V c t h0]; dsimp only
  exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (mblk V c t) (wblk V c t) (bblk V c t)

/-- and at every later point it carries on from what the point before left. -/
theorem outs_s1_next (c : Dev nD) (t : Fin cfg0.N) (h0 : ¬t.val % 32 = 0) :
    (outsAt0 V c t.val t.isLt).2.1 = k0_pay2 (yblk V c t) (outsAt0 V c (t.val - 1) (Nat.lt_of_le_of_lt (Nat.sub_le _ _) t.isLt)).2.1 := by
  rw [outsAt0_B V c t h0]; dsimp only
  exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (mblk V c t) (wblk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2

/-- The same for the row of sums of squares: from zero at the first point, -/
theorem outs_s2_first (c : Dev nD) (t : Fin cfg0.N) (h0 : t.val % 32 = 0) :
    (outsAt0 V c t.val t.isLt).2.2 = k0_pay3 (yblk V c t) (k0_pay5 (F := Ideal)) := by
  rw [outsAt0_A V c t h0]; dsimp only
  exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (mblk V c t) (wblk V c t) (bblk V c t)

/-- carried on at every later point. -/
theorem outs_s2_next (c : Dev nD) (t : Fin cfg0.N) (h0 : ¬t.val % 32 = 0) :
    (outsAt0 V c t.val t.isLt).2.2 = k0_pay3 (yblk V c t) (outsAt0 V c (t.val - 1) (Nat.lt_of_le_of_lt (Nat.sub_le _ _) t.isLt)).2.2 := by
  rw [outsAt0_B V c t h0]; dsimp only
  exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (mblk V c t) (wblk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2

/-! ## The accumulated rows after each grid point -/

/-- The column sums of the linear layer of the blocks at point `t` (nothing past the grid). -/
def colSum (c : Dev nD) (g : Fin 1600) (t : ℕ) : EReal :=
  if h : t < cfg0.N then ∑ r : Fin 512, yblk V c ⟨t, h⟩ (ix2 r g) else 0

/-- The column sums of its squares. -/
def colSq (c : Dev nD) (g : Fin 1600) (t : ℕ) : EReal :=
  if h : t < cfg0.N then ∑ r : Fin 512, yblk V c ⟨t, h⟩ (ix2 r g) * yblk V c ⟨t, h⟩ (ix2 r g) else 0

/-- After point `n` the row of sums holds the column sums of the blocks up to `n`. -/
theorem outs_s1 (c : Dev nD) (g : Fin 1600) : ∀ (n : ℕ) (hn : n < cfg0.N),
    (outsAt0 V c n hn).2.1 (ix2 0 g) = ∑ t ∈ Finset.range (n + 1), colSum V c g t
  | 0, hn => by
    refine (congrFun (outs_s1_first V c ⟨0, hn⟩ rfl) (ix2 0 g)).trans ?_
    refine (KBody0.pay2_apply (yblk V c ⟨0, hn⟩) (k0_pay4 (F := Ideal)) g).trans ?_
    rw [KBody0.pay4_apply, zero_add, Finset.sum_range_one]
    unfold colSum; rw [dif_pos hn]
  | n + 1, hn => by
    have hN : cfg0.N = 32 := N_0
    have hB : ¬(⟨n + 1, hn⟩ : Fin cfg0.N).val % 32 = 0 := by dsimp only; omega
    refine (congrFun (outs_s1_next V c ⟨n + 1, hn⟩ hB) (ix2 0 g)).trans ?_
    refine (KBody0.pay2_apply (yblk V c ⟨n + 1, hn⟩) _ g).trans ?_
    rw [Finset.sum_range_succ, ← outs_s1 c g n (Nat.lt_of_succ_lt hn)]
    refine congrArg₂ (· + ·) rfl ?_
    unfold colSum; rw [dif_pos hn]

/-- After point `n` the row of sums of squares holds the column sums of squares of the blocks up to `n`. -/
theorem outs_s2 (c : Dev nD) (g : Fin 1600) : ∀ (n : ℕ) (hn : n < cfg0.N),
    (outsAt0 V c n hn).2.2 (ix2 0 g) = ∑ t ∈ Finset.range (n + 1), colSq V c g t
  | 0, hn => by
    refine (congrFun (outs_s2_first V c ⟨0, hn⟩ rfl) (ix2 0 g)).trans ?_
    refine (KBody0.pay3_apply (yblk V c ⟨0, hn⟩) (k0_pay5 (F := Ideal)) g).trans ?_
    rw [KBody0.pay5_apply, zero_add, Finset.sum_range_one]
    unfold colSq; rw [dif_pos hn]
  | n + 1, hn => by
    have hN : cfg0.N = 32 := N_0
    have hB : ¬(⟨n + 1, hn⟩ : Fin cfg0.N).val % 32 = 0 := by dsimp only; omega
    refine (congrFun (outs_s2_next V c ⟨n + 1, hn⟩ hB) (ix2 0 g)).trans ?_
    refine (KBody0.pay3_apply (yblk V c ⟨n + 1, hn⟩) _ g).trans ?_
    rw [Finset.sum_range_succ, ← outs_s2 c g n (Nat.lt_of_succ_lt hn)]
    refine congrArg₂ (· + ·) rfl ?_
    unfold colSq; rw [dif_pos hn]

/-! ## The arrays the region reads, and where each block sits in them -/

/-- The four input arrays as the region finds them. -/
abbrev xarr (c : Dev nD) : Vec Ideal S16384x1600 .f32 := V c (Pipeline.arrRef spec0 0)
abbrev marr (c : Dev nD) : Vec Ideal S1x1600 .f32 := V c (Pipeline.arrRef spec0 1)
abbrev warr (c : Dev nD) : Vec Ideal S64x64 .f32 := V c (Pipeline.arrRef spec0 2)
abbrev barr (c : Dev nD) : Vec Ideal S1x1600 .f32 := V c (Pipeline.arrRef spec0 3)

/-- The block indices over the grid: the rows' windows move down one block per point, every other window stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `r` of the rows' block at point `t` is row `512 t + r` of the array. -/
theorem xblk_apply (c : Dev nD) (t : Fin cfg0.N) (r : Fin 512) (k : Fin 1600) (mm : Fin 16384)
    (hm : mm.val = 512 * t.val + r.val) : xblk V c t (ix2 r k) = xarr V c (ix2 mm k) := by
  obtain ⟨e0, e1, -⟩ := idx_facts t
  show iblk0 V c 0 t (ix2 r k) = _
  unfold iblk0
  rw [View.read_apply]
  show V c (Pipeline.arrRef spec0 0) (((cfg0.win 0).blk t).view.emb (ix2 r k)) = V c (Pipeline.arrRef spec0 0) (ix2 mm k)
  refine congrArg (V c (Pipeline.arrRef spec0 0)) (funext fun a => Fin.ext ?_)
  match a with
  | ⟨0, _⟩ => show win0_0.index t (0 : Fin 2) * 512 + 1 * r.val = mm.val; rw [e0, hm]; omega
  | ⟨1, _⟩ => show win0_0.index t (1 : Fin 2) * 1600 + 1 * k.val = k.val; rw [e1]; omega

/-- The feature scale's one block is its array. -/
theorem mblk_apply (c : Dev nD) (t : Fin cfg0.N) (k : Fin 1600) : mblk V c t (ix2 0 k) = marr V c (ix2 0 k) := by
  obtain ⟨-, -, e0, e1, -⟩ := idx_facts t
  show iblk0 V c 1 t (ix2 0 k) = _
  unfold iblk0
  rw [View.read_apply]
  show V c (Pipeline.arrRef spec0 1) (((cfg0.win 1).blk t).view.emb (ix2 0 k)) = V c (Pipeline.arrRef spec0 1) (ix2 0 k)
  refine congrArg (V c (Pipeline.arrRef spec0 1)) (funext fun a => Fin.ext ?_)
  match a with
  | ⟨0, _⟩ => show win0_1.index t (0 : Fin 2) * 1 + 1 * 0 = 0; rw [e0]
  | ⟨1, _⟩ => show win0_1.index t (1 : Fin 2) * 1600 + 1 * k.val = k.val; rw [e1]; omega

/-- The matrix's one block is its array. -/
theorem wblk_apply (c : Dev nD) (t : Fin cfg0.N) (a b : Fin 64) : wblk V c t (ix2 a b) = warr V c (ix2 a b) := by
  obtain ⟨-, -, -, -, e0, e1, -⟩ := idx_facts t
  show iblk0 V c 2 t (ix2 a b) = _
  unfold iblk0
  rw [View.read_apply]
  show V c (Pipeline.arrRef spec0 2) (((cfg0.win 2).blk t).view.emb (ix2 a b)) = V c (Pipeline.arrRef spec0 2) (ix2 a b)
  refine congrArg (V c (Pipeline.arrRef spec0 2)) (funext fun d => Fin.ext ?_)
  match d with
  | ⟨0, _⟩ => show win0_2.index t (0 : Fin 2) * 64 + 1 * a.val = a.val; rw [e0]; omega
  | ⟨1, _⟩ => show win0_2.index t (1 : Fin 2) * 64 + 1 * b.val = b.val; rw [e1]; omega

/-- The feature bias's one block is its array. -/
theorem bblk_apply (c : Dev nD) (t : Fin cfg0.N) (k : Fin 1600) : bblk V c t (ix2 0 k) = barr V c (ix2 0 k) := by
  obtain ⟨-, -, -, -, -, -, e0, e1, -⟩ := idx_facts t
  show iblk0 V c 3 t (ix2 0 k) = _
  unfold iblk0
  rw [View.read_apply]
  show V c (Pipeline.arrRef spec0 3) (((cfg0.win 3).blk t).view.emb (ix2 0 k)) = V c (Pipeline.arrRef spec0 3) (ix2 0 k)
  refine congrArg (V c (Pipeline.arrRef spec0 3)) (funext fun a => Fin.ext ?_)
  match a with
  | ⟨0, _⟩ => show win0_3.index t (0 : Fin 2) * 1 + 1 * 0 = 0; rw [e0]
  | ⟨1, _⟩ => show win0_3.index t (1 : Fin 2) * 1600 + 1 * k.val = k.val; rw [e1]; omega

/-- The linear layer of the blocks at point `t`, row `r`, is the linear layer of the arrays at row `512 t + r`. -/
theorem yblk_apply (c : Dev nD) (t : Fin cfg0.N) (r : Fin 512) (g : Fin 1600) (mm : Fin 16384)
    (hm : mm.val = 512 * t.val + r.val) :
    yblk V c t (ix2 r g) = lin (xarr V c) (marr V c) (warr V c) (barr V c) mm g := by
  refine (KBody0.ybody_apply (xblk V c t) (mblk V c t) (wblk V c t) (bblk V c t) r g).trans ?_
  unfold lin
  rw [bblk_apply V c t g]
  refine congrArg (· + barr V c (ix2 0 g)) (Finset.sum_congr rfl fun k _ => ?_)
  rw [xblk_apply V c t r (col (colV g) k) mm hm, mblk_apply V c t (col (colV g) k), wblk_apply V c t k (colC g)]

/-! ## What the three output arrays end holding -/

/-- The linear layer of the arrays, as contents of the rows' output array. -/
abbrev linArr (c : Dev nD) : Vec Ideal S16384x1600 .f32 := fun i => lin (xarr V c) (marr V c) (warr V c) (barr V c) (i 0) (i 1)

/-- Each feature's sum of the linear layer over all rows, as contents of a one-row array. -/
abbrev sumArr (c : Dev nD) : Vec Ideal S1x1600 .f32 := fun i => ∑ mm : Fin 16384, lin (xarr V c) (marr V c) (warr V c) (barr V c) mm (i 1)

/-- Each feature's sum of squares of the linear layer over all rows. -/
abbrev sqArr (c : Dev nD) : Vec Ideal S1x1600 .f32 :=
  fun i => ∑ mm : Fin 16384, lin (xarr V c) (marr V c) (warr V c) (barr V c) mm (i 1) * lin (xarr V c) (marr V c) (warr V c) (barr V c) mm (i 1)

/-- The per-block column sums, added over the 32 blocks, are the sums over all rows. -/
theorem sum_colSum (c : Dev nD) (g : Fin 1600) :
    ∑ t ∈ Finset.range 32, colSum V c g t = ∑ mm : Fin 16384, lin (xarr V c) (marr V c) (warr V c) (barr V c) mm g := by
  rw [Finset.sum_range]
  refine Eq.trans ?_ (sum_rows_by_block fun mm => lin (xarr V c) (marr V c) (warr V c) (barr V c) mm g)
  refine Finset.sum_congr rfl fun t _ => ?_
  have ht : t.val < cfg0.N := by rw [show cfg0.N = 32 from N_0]; exact t.isLt
  unfold colSum; rw [dif_pos ht]
  exact Finset.sum_congr rfl fun r _ => yblk_apply V c ⟨t.val, ht⟩ r g _ rfl

/-- The same for the squares. -/
theorem sum_colSq (c : Dev nD) (g : Fin 1600) :
    ∑ t ∈ Finset.range 32, colSq V c g t
      = ∑ mm : Fin 16384, lin (xarr V c) (marr V c) (warr V c) (barr V c) mm g * lin (xarr V c) (marr V c) (warr V c) (barr V c) mm g := by
  rw [Finset.sum_range]
  refine Eq.trans ?_ (sum_rows_by_block fun mm => lin (xarr V c) (marr V c) (warr V c) (barr V c) mm g * lin (xarr V c) (marr V c) (warr V c) (barr V c) mm g)
  refine Finset.sum_congr rfl fun t _ => ?_
  have ht : t.val < cfg0.N := by rw [show cfg0.N = 32 from N_0]; exact t.isLt
  unfold colSq; rw [dif_pos ht]
  refine Finset.sum_congr rfl fun r _ => ?_
  have e := yblk_apply V c ⟨t.val, ht⟩ r g ⟨512 * t.val + r.val, by have := t.isLt; have := r.isLt; omega⟩ rfl
  rw [e]

/-- What point `t` writes back to the rows' output array is its block of the linear layer of the arrays. -/
theorem flushed4_eq (c : Dev nD) (t : Fin cfg0.N) :
    (dat0 V c).flushed 4 t = ((cfg0.win 4).blk t).view.read (Elt Ideal) (linArr V c) := by
  obtain ⟨-, -, -, -, -, -, -, -, e0, e1, -⟩ := idx_facts t
  have ht : t.val < 32 := lt_of_lt_of_eq t.isLt (show cfg0.N = 32 from N_0)
  show (cfg0.win 4).cut (grid0.coords t) ((dat0 V c).after 4 t) = _
  rw [after0_4, outs_y]
  funext j
  obtain ⟨r, g, rfl⟩ : ∃ (r : Fin 512) (g : Fin 1600), j = ix2 r g := ⟨j 0, j 1, eq_ix2 (n0 := 512) (n1 := 1600) j⟩
  rw [View.read_apply]
  have hmm : 512 * t.val + r.val < 16384 := by have := r.isLt; omega
  have he : ((cfg0.win 4).blk t).view.emb (ix2 r g) = (ix2 ⟨512 * t.val + r.val, hmm⟩ g : S16384x1600.Idx) := by
    funext a; apply Fin.ext
    match a with
    | ⟨0, _⟩ => show win0_4.index t (0 : Fin 2) * 512 + 1 * r.val = 512 * t.val + r.val; rw [e0]; omega
    | ⟨1, _⟩ => show win0_4.index t (1 : Fin 2) * 1600 + 1 * g.val = g.val; rw [e1]; omega
  show yblk V c t (ix2 r g) = linArr V c (((cfg0.win 4).blk t).view.emb (ix2 r g))
  rw [he]
  exact yblk_apply V c t r g ⟨512 * t.val + r.val, hmm⟩ rfl

/-- Row `i 0` of the rows' output array lies in the block of point `(i 0) / 512`. -/
theorem mem_blk4 (t : Fin cfg0.N) (i : S16384x1600.Idx) (h : t.val = (i 0).val / 512) :
    i ∈ ((cfg0.win 4).blk t).view.set := by
  obtain ⟨-, -, -, -, -, -, -, -, e0, e1, -⟩ := idx_facts t
  show i ∈ ((View.whole main_v11_0).slice (win0_4.rect t)).set
  rw [View.set_slice_whole, Rect.mem_set_unit]
  intro a
  have h0 : (i 0).val < 16384 := (i 0).isLt
  have h1 : (i 1).val < 1600 := (i 1).isLt
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 1600 ≤ (i 1).val ∧ (i 1).val < win0_4.index t (1 : Fin 2) * 1600 + 1600
    rw [e1]; omega

/-- The rows' output array ends holding the linear layer of the arrays. -/
theorem final4 (c : Dev nD) : (dat0 V c).arrAt 4 cfg0.N = linArr V c :=
  (dat0 V c).arrAt_eq_of_cover 4 (linArr V c) (fun t _ => flushed4_eq V c t) fun i =>
    ⟨⟨(i 0).val / 512, by have h0 : (i 0).val < 16384 := (i 0).isLt; rw [show cfg0.N = 32 from N_0]; omega⟩,
      flush0_4 _, mem_blk4 _ i rfl⟩

/-- The three array contents at an index. -/
theorem linArr_apply (c : Dev nD) (mm : Fin 16384) (g : Fin 1600) :
    linArr V c (ix2 mm g) = lin (xarr V c) (marr V c) (warr V c) (barr V c) mm g := rfl

theorem sumArr_apply (c : Dev nD) (g : Fin 1600) :
    sumArr V c (ix2 (0 : Fin 1) g) = ∑ mm : Fin 16384, lin (xarr V c) (marr V c) (warr V c) (barr V c) mm g := rfl

theorem sqArr_apply (c : Dev nD) (g : Fin 1600) :
    sqArr V c (ix2 (0 : Fin 1) g) = ∑ mm : Fin 16384, lin (xarr V c) (marr V c) (warr V c) (barr V c) mm g * lin (xarr V c) (marr V c) (warr V c) (barr V c) mm g := rfl

/-- Output 5's one block, read out of a one-row array `G`, is `G`. -/
theorem read_blk5 (t : Fin cfg0.N) (G : Vec Ideal S1x1600 .f32) (g : Fin 1600) :
    ((cfg0.win 5).blk t).view.read (Elt Ideal) G (ix2 (0 : Fin 1) g) = G (ix2 (0 : Fin 1) g) := by
  obtain ⟨-, -, -, -, -, -, -, -, -, -, e0, e1, -⟩ := idx_facts t
  rw [View.read_apply]
  show G (((cfg0.win 5).blk t).view.emb (ix2 (0 : Fin 1) g)) = G (ix2 (0 : Fin 1) g)
  refine congrArg G (funext fun a => Fin.ext ?_)
  match a with
  | ⟨0, _⟩ => show win0_5.index t (0 : Fin 2) * 1 + 1 * 0 = 0; rw [e0]
  | ⟨1, _⟩ => show win0_5.index t (1 : Fin 2) * 1600 + 1 * g.val = g.val; rw [e1]; omega

/-- The write-back of output 5 moves the whole row its staging buffer holds. -/
theorem cut5_apply (t : Fin cfg0.N) (X : Vec Ideal S1x1600 .f32) (g : Fin 1600) :
    (cfg0.win 5).cut (grid0.coords t) X (ix2 (0 : Fin 1) g) = X (ix2 (0 : Fin 1) g) := rfl

/-- What the last point writes back to output 5's one-row array. -/
theorem flushed5_eq (c : Dev nD) (t : Fin cfg0.N) (hf : (cfg0.win 5).flush t = true) :
    (dat0 V c).flushed 5 t = ((cfg0.win 5).blk t).view.read (Elt Ideal) (sumArr V c) := by
  have ht : t.val < 32 := lt_of_lt_of_eq t.isLt (show cfg0.N = 32 from N_0)
  have h31 : t.val = 31 := by have := (flush0_5 t).mp hf; omega
  show (cfg0.win 5).cut (grid0.coords t) ((dat0 V c).after 5 t) = _
  rw [after0_5]
  funext j
  obtain ⟨z, g, rfl⟩ : ∃ (z : Fin 1) (g : Fin 1600), j = ix2 z g := ⟨j 0, j 1, eq_ix2 (n0 := 1) (n1 := 1600) j⟩
  obtain rfl : z = 0 := Subsingleton.elim _ _
  refine Eq.trans ?_ (read_blk5 t (sumArr V c) g).symm
  refine Eq.trans (cut5_apply t (outsAt0 V c t.val t.isLt).2.1 g) ?_
  refine Eq.trans (outs_s1 V c g t.val t.isLt) ?_
  rw [h31]
  exact (sum_colSum V c g).trans (sumArr_apply V c g).symm

/-- Output 5's one block is its whole array. -/
theorem mem_blk5 (t : Fin cfg0.N) (i : S1x1600.Idx) : i ∈ ((cfg0.win 5).blk t).view.set := by
  obtain ⟨-, -, -, -, -, -, -, -, -, -, e0, e1, -⟩ := idx_facts t
  show i ∈ ((View.whole main_v11_1).slice (win0_5.rect t)).set
  rw [View.set_slice_whole, Rect.mem_set_unit]
  intro a
  have h0 : (i 0).val < 1 := (i 0).isLt
  have h1 : (i 1).val < 1600 := (i 1).isLt
  match a with
  | ⟨0, _⟩ =>
    show win0_5.index t (0 : Fin 2) * 1 ≤ (i 0).val ∧ (i 0).val < win0_5.index t (0 : Fin 2) * 1 + 1
    rw [e0]; omega
  | ⟨1, _⟩ =>
    show win0_5.index t (1 : Fin 2) * 1600 ≤ (i 1).val ∧ (i 1).val < win0_5.index t (1 : Fin 2) * 1600 + 1600
    rw [e1]; omega

/-- Output 5's array ends holding the sums over all rows. -/
theorem final5 (c : Dev nD) : (dat0 V c).arrAt 5 cfg0.N = sumArr V c :=
  (dat0 V c).arrAt_eq_of_cover 5 (sumArr V c) (flushed5_eq V c) fun i =>
    ⟨⟨31, by rw [show cfg0.N = 32 from N_0]; decide⟩, (flush0_5 _).mpr rfl, mem_blk5 _ i⟩

/-- Output 6's one block, read out of a one-row array `G`, is `G`. -/
theorem read_blk6 (t : Fin cfg0.N) (G : Vec Ideal S1x1600 .f32) (g : Fin 1600) :
    ((cfg0.win 6).blk t).view.read (Elt Ideal) G (ix2 (0 : Fin 1) g) = G (ix2 (0 : Fin 1) g) := by
  obtain ⟨-, -, -, -, -, -, -, -, -, -, -, -, e0, e1⟩ := idx_facts t
  rw [View.read_apply]
  show G (((cfg0.win 6).blk t).view.emb (ix2 (0 : Fin 1) g)) = G (ix2 (0 : Fin 1) g)
  refine congrArg G (funext fun a => Fin.ext ?_)
  match a with
  | ⟨0, _⟩ => show win0_6.index t (0 : Fin 2) * 1 + 1 * 0 = 0; rw [e0]
  | ⟨1, _⟩ => show win0_6.index t (1 : Fin 2) * 1600 + 1 * g.val = g.val; rw [e1]; omega

/-- The write-back of output 6 moves the whole row its staging buffer holds. -/
theorem cut6_apply (t : Fin cfg0.N) (X : Vec Ideal S1x1600 .f32) (g : Fin 1600) :
    (cfg0.win 6).cut (grid0.coords t) X (ix2 (0 : Fin 1) g) = X (ix2 (0 : Fin 1) g) := rfl

/-- What the last point writes back to output 6's one-row array. -/
theorem flushed6_eq (c : Dev nD) (t : Fin cfg0.N) (hf : (cfg0.win 6).flush t = true) :
    (dat0 V c).flushed 6 t = ((cfg0.win 6).blk t).view.read (Elt Ideal) (sqArr V c) := by
  have ht : t.val < 32 := lt_of_lt_of_eq t.isLt (show cfg0.N = 32 from N_0)
  have h31 : t.val = 31 := by have := (flush0_6 t).mp hf; omega
  show (cfg0.win 6).cut (grid0.coords t) ((dat0 V c).after 6 t) = _
  rw [after0_6]
  funext j
  obtain ⟨z, g, rfl⟩ : ∃ (z : Fin 1) (g : Fin 1600), j = ix2 z g := ⟨j 0, j 1, eq_ix2 (n0 := 1) (n1 := 1600) j⟩
  obtain rfl : z = 0 := Subsingleton.elim _ _
  refine Eq.trans ?_ (read_blk6 t (sqArr V c) g).symm
  refine Eq.trans (cut6_apply t (outsAt0 V c t.val t.isLt).2.2 g) ?_
  refine Eq.trans (outs_s2 V c g t.val t.isLt) ?_
  rw [h31]
  exact (sum_colSq V c g).trans (sqArr_apply V c g).symm

/-- Output 6's one block is its whole array. -/
theorem mem_blk6 (t : Fin cfg0.N) (i : S1x1600.Idx) : i ∈ ((cfg0.win 6).blk t).view.set := by
  obtain ⟨-, -, -, -, -, -, -, -, -, -, -, -, e0, e1⟩ := idx_facts t
  show i ∈ ((View.whole main_v11_2).slice (win0_6.rect t)).set
  rw [View.set_slice_whole, Rect.mem_set_unit]
  intro a
  have h0 : (i 0).val < 1 := (i 0).isLt
  have h1 : (i 1).val < 1600 := (i 1).isLt
  match a with
  | ⟨0, _⟩ =>
    show win0_6.index t (0 : Fin 2) * 1 ≤ (i 0).val ∧ (i 0).val < win0_6.index t (0 : Fin 2) * 1 + 1
    rw [e0]; omega
  | ⟨1, _⟩ =>
    show win0_6.index t (1 : Fin 2) * 1600 ≤ (i 1).val ∧ (i 1).val < win0_6.index t (1 : Fin 2) * 1600 + 1600
    rw [e1]; omega

/-- Output 6's array ends holding the sums of squares over all rows. -/
theorem final6 (c : Dev nD) : (dat0 V c).arrAt 6 cfg0.N = sqArr V c :=
  (dat0 V c).arrAt_eq_of_cover 6 (sqArr V c) (flushed6_eq V c) fun i =>
    ⟨⟨31, by rw [show cfg0.N = 32 from N_0]; decide⟩, (flush0_6 _).mpr rfl, mem_blk6 _ i⟩

/-! ## The region's three results -/

/-- The rows' output array holds the linear layer of the four input arrays. -/
theorem reg0_y (c : Dev nD) (mm : Fin 16384) (g : Fin 1600) :
    ((Gen.dat0 (F := Ideal) V c).arrAt 4 cfg0.N : S16384x1600.Idx → EReal) (ix2 mm g)
      = Cert.Spec.lin (V c (Pipeline.arrRef spec0 0)) (V c (Pipeline.arrRef spec0 1)) (V c (Pipeline.arrRef spec0 2)) (V c (Pipeline.arrRef spec0 3)) mm g :=
  (congrFun (final4 V c) (ix2 mm g)).trans (linArr_apply V c mm g)

/-- The first one-row output holds each feature's sum of the linear layer over all rows. -/
theorem reg0_s1 (c : Dev nD) (g : Fin 1600) :
    ((Gen.dat0 (F := Ideal) V c).arrAt 5 cfg0.N : S1x1600.Idx → EReal) (ix2 0 g)
      = (∑ mm : Fin 16384, Cert.Spec.lin (V c (Pipeline.arrRef spec0 0)) (V c (Pipeline.arrRef spec0 1)) (V c (Pipeline.arrRef spec0 2)) (V c (Pipeline.arrRef spec0 3)) mm g : EReal) :=
  (congrFun (final5 V c) (ix2 (0 : Fin 1) g)).trans (sumArr_apply V c g)

/-- The second one-row output holds each feature's sum of squares of the linear layer over all rows. -/
theorem reg0_s2 (c : Dev nD) (g : Fin 1600) :
    ((Gen.dat0 (F := Ideal) V c).arrAt 6 cfg0.N : S1x1600.Idx → EReal) (ix2 0 g)
      = (∑ mm : Fin 16384, Cert.Spec.lin (V c (Pipeline.arrRef spec0 0)) (V c (Pipeline.arrRef spec0 1)) (V c (Pipeline.arrRef spec0 2)) (V c (Pipeline.arrRef spec0 3)) mm g
          * Cert.Spec.lin (V c (Pipeline.arrRef spec0 0)) (V c (Pipeline.arrRef spec0 1)) (V c (Pipeline.arrRef spec0 2)) (V c (Pipeline.arrRef spec0 3)) mm g : EReal) :=
  (congrFun (final6 V c) (ix2 (0 : Fin 1) g)).trans (sqArr_apply V c g)

end Region

end Cert.KernelIdeal.KRegion0

end
-- ==== Proof.KHost1.lean ====
/-
  Between the two kernel calls.

  The first call leaves three arrays: the rows of the linear layer, `[16384, 1600]`, and for every feature the sum and
  the sum of squares over the rows, each `[1, 1600]`. Before the second call the features of all three are permuted
  with the second index vector: a negative entry is shifted up by 1600, column `f` of a result is the operand's column
  at start index `f` (read signed, clamped into `[0, 1599]`), and a column whose start index is out of range is
  replaced by not-a-number. The two permuted statistics are then divided by the number of rows, mean of squares minus
  squared mean is formed, the offset is added and the reciprocal square root taken, and the scale and shift vectors
  are laid out as one row each.

  Here each of the six arrays the second call reads is given index by index in terms of the first call's results and
  of the arguments, under the hypothesis that every start index is in range: then no column is replaced, and column
  `f` of a permuted array is column `kap f` of its operand. The flattened input, which the second call adds back, has
  not been written since before the first call.
-/
import proofs.«422135_j2637109920123_1_alg».proof.Proof.Gen.KernelIdeal.Frame
import proofs.«422135_j2637109920123_1_alg».proof.Proof.Spec
import proofs.«422135_j2637109920123_1_alg».proof.Proof.LibGatherCols
import proofs.«422135_j2637109920123_1_alg».proof.Proof.Ranges
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal

noncomputable section

namespace Cert.KernelIdeal.KHost1

open Idealize.ShloMosaic Idealize.ShloMosaic.TcCoe Idealize.ShloMosaic.ValueIdx
open Cert.LibGatherCols Cert.KernelIdeal Cert.KernelIdeal.Gen

/-! ## Columns picked by start indices that are all in range -/

/-- The columns of an array of 1600 columns at the start indices `ni`, a column kept where its start index is in range
    and replaced by `z`'s elsewhere. When every start index is in range the result's column `f` is the operand's
    column `kap ni f`, whatever `z` is. -/
theorem masked_cols_apply {α : Type} {R : Nat}
    (wf : GatherDims.WF ⟨2, ![R, 1600]⟩ ⟨2, ![1600, 1]⟩ ⟨2, ![R, 1600]⟩ [0] [1] [] [1] [] 1 ![R, 1])
    (hb : (⟨1, ![1600]⟩ : Shape).BroadcastsInDim ⟨2, ![R, 1600]⟩ ![1])
    (x : (⟨2, ![R, 1600]⟩ : Shape).Idx → α) (ni : IVec Cert.Spec.SI 32) (hni : Cert.Spec.InRange ni)
    (z : (⟨2, ![R, 1600]⟩ : Shape).Idx → α) (r : Fin R) (f : Fin 1600) :
    select (broadcastInDim ⟨2, ![R, 1600]⟩ ![1] hb (Cert.Spec.inb ni)) (Host.gather (colsDims R 1600 1600 wf) x ni) z (ix2 r f)
      = x (ix2 r (Cert.Spec.kap ni f)) := by
  rw [select_apply]
  have hm : broadcastInDim ⟨2, ![R, 1600]⟩ ![1] hb (Cert.Spec.inb ni) (ix2 r f) = Cert.Spec.inb ni (ix1 f) :=
    broadcastInDim_apply _ _ _ _ (ix1 f) (fun a => match a with | ⟨0, _⟩ => rfl)
  rw [hm, Cert.Ranges.inb_of_inRange ni hni f, select_one]
  exact gather_cols_apply (by decide) wf x ni r f

variable (m : (ℓ : Loc nD τ sig) → Buf (Elt Ideal) ℓ) (ρ : Dev nD → PrngReg) (c : Dev nD)

/-! ## Buffers that nothing has written yet -/

/-- A stretch of operations none of which writes a buffer leaves it as it was. -/
local macro "unwritten " l:ident : tactic =>
  `(tactic| exact StableHlo.after_of_forall_not_mem _ _ (List.forall_iff_forall_mem.mp (by
      simp only [$l:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The second index vector is, at the first call's exit, what it was at launch. -/
theorem W4_arg7 : Gen.W4 m ρ c (Proc.devRef .tc main_arg7) = m ((c : Thread nD τ).loc main_arg7) :=
  calc Gen.W4 m ρ c (Proc.devRef .tc main_arg7)
    _ = Gen.W3 m ρ c (Proc.devRef .tc main_arg7) := Gen.W4_of_ne m ρ c main_arg7 (by decide)
    _ = Gen.W2 m ρ c (Proc.devRef .tc main_arg7) := by unwritten hostOps0_2
    _ = Gen.W1 m ρ c (Proc.devRef .tc main_arg7) := by unwritten hostOps0_1
    _ = Gen.W0 m ρ c (Proc.devRef .tc main_arg7) := by unwritten hostOps0
    _ = m ((c : Thread nD τ).loc main_arg7) := rfl

/-- The scale vector likewise. -/
theorem W4_arg4 : Gen.W4 m ρ c (Proc.devRef .tc main_arg4) = m ((c : Thread nD τ).loc main_arg4) :=
  calc Gen.W4 m ρ c (Proc.devRef .tc main_arg4)
    _ = Gen.W3 m ρ c (Proc.devRef .tc main_arg4) := Gen.W4_of_ne m ρ c main_arg4 (by decide)
    _ = Gen.W2 m ρ c (Proc.devRef .tc main_arg4) := by unwritten hostOps0_2
    _ = Gen.W1 m ρ c (Proc.devRef .tc main_arg4) := by unwritten hostOps0_1
    _ = Gen.W0 m ρ c (Proc.devRef .tc main_arg4) := by unwritten hostOps0
    _ = m ((c : Thread nD τ).loc main_arg4) := rfl

/-- The shift vector likewise. -/
theorem W4_arg5 : Gen.W4 m ρ c (Proc.devRef .tc main_arg5) = m ((c : Thread nD τ).loc main_arg5) :=
  calc Gen.W4 m ρ c (Proc.devRef .tc main_arg5)
    _ = Gen.W3 m ρ c (Proc.devRef .tc main_arg5) := Gen.W4_of_ne m ρ c main_arg5 (by decide)
    _ = Gen.W2 m ρ c (Proc.devRef .tc main_arg5) := by unwritten hostOps0_2
    _ = Gen.W1 m ρ c (Proc.devRef .tc main_arg5) := by unwritten hostOps0_1
    _ = Gen.W0 m ρ c (Proc.devRef .tc main_arg5) := by unwritten hostOps0
    _ = m ((c : Thread nD τ).loc main_arg5) := rfl

/-- The flattened input is, at the second call's entry, what it was at the first call's entry: neither the first call
    nor any operation between the calls writes it. -/
theorem V8_v1 : (Gen.V8 m ρ c main_v1 : S16384x1600.Idx → EReal) = Gen.V3 m ρ c main_v1 :=
  calc Gen.W8 m ρ c (Proc.devRef .tc main_v1)
    _ = Gen.W7 m ρ c (Proc.devRef .tc main_v1) := by unwritten hostOps1_3
    _ = Gen.W6 m ρ c (Proc.devRef .tc main_v1) := by unwritten hostOps1_2
    _ = Gen.W5 m ρ c (Proc.devRef .tc main_v1) := by unwritten hostOps1_1
    _ = Gen.W4 m ρ c (Proc.devRef .tc main_v1) := by unwritten hostOps1
    _ = Gen.W3 m ρ c (Proc.devRef .tc main_v1) := Gen.W4_of_ne m ρ c main_v1 (by decide)

/-! ## The three column selections and the statistics, as whole arrays -/

set_option quotPrecheck false in
local notation "A7" => (m ((c : Thread nD τ).loc main_arg7) : IVec Cert.Spec.SF 32)

/-- The 16384-row form of the selection: the operand's columns at the start indices, the not-a-number word where a
    start index is out of range. -/
abbrev colsM (ni : IVec Cert.Spec.SI 32) (x : S16384x1600.Idx → EReal) : S16384x1600.Idx → EReal :=
  select (broadcastInDim S16384x1600 ![1] bcast_S1600_S16384x1600_1 (Cert.Spec.inb ni))
    (Host.gather gather_S16384x1600_S1600x1_S16384x1600_0_1_n_n_1_1_163841 x ni)
    (broadcastInDim S16384x1600 ![] bcast_S_S16384x1600 (constant (F := Ideal) S_ .f32 0x7FC00000#32))

/-- The one-row form of the selection. -/
abbrev cols1 (ni : IVec Cert.Spec.SI 32) (x : S1x1600.Idx → EReal) : S1x1600.Idx → EReal :=
  select (broadcastInDim S1x1600 ![1] bcast_S1600_S1x1600_1 (Cert.Spec.inb ni))
    (Host.gather gather_S1x1600_S1600x1_S1x1600_0_1_n_n_1_1_11 x ni)
    (broadcastInDim S1x1600 ![] bcast_S_S1x1600 (constant (F := Ideal) S_ .f32 0x7FC00000#32))

theorem colsM_apply (ni : IVec Cert.Spec.SI 32) (hni : Cert.Spec.InRange ni) (x : S16384x1600.Idx → EReal)
    (r : Fin 16384) (f : Fin 1600) : colsM ni x (ix2 r f) = x (ix2 r (Cert.Spec.kap ni f)) :=
  masked_cols_apply gather_S16384x1600_S1600x1_S16384x1600_0_1_n_n_1_1_163841.wf bcast_S1600_S16384x1600_1 x ni hni _ r f

theorem cols1_apply (ni : IVec Cert.Spec.SI 32) (hni : Cert.Spec.InRange ni) (x : S1x1600.Idx → EReal)
    (f : Fin 1600) : cols1 ni x (ix2 0 f) = x (ix2 0 (Cert.Spec.kap ni f)) :=
  masked_cols_apply gather_S1x1600_S1600x1_S1x1600_0_1_n_n_1_1_11.wf bcast_S1600_S1x1600_1 x ni hni _ 0 f

/-- The rows handed to the second call: the first call's rows with their columns selected. -/
theorem V8_v12_term : (Gen.V8 m ρ c main_v12 : S16384x1600.Idx → EReal)
    = colsM (Cert.Spec.nidx A7) (Gen.V4 m ρ c main_v11_0) := by
  dsimp only [Gen.V8, Gen.W8, Gen.W7, Gen.W6, Gen.W5]
  after_results_simp
  simp only [StableHlo.TRef.ofBuf, StableHlo.TRef.toBuf, cast_eq]
  rw [W4_arg7]
  rfl

/-- The means: the selected column sums over the number of rows. -/
theorem V8_v16_term : (Gen.V8 m ρ c main_v16 : S1x1600.Idx → EReal)
    = Host.divf (F := Ideal) (φ := .f32) (cols1 (Cert.Spec.nidx A7) (Gen.V4 m ρ c main_v11_1))
        (broadcastInDim S1x1600 ![] bcast_S_S1x1600 (constant (F := Ideal) S_ .f32 0x46800000#32)) := by
  dsimp only [Gen.V8, Gen.W8, Gen.W7, Gen.W6, Gen.W5]
  after_results_simp
  simp only [StableHlo.TRef.ofBuf, StableHlo.TRef.toBuf, cast_eq]
  rw [W4_arg7]
  rfl

/-- The reciprocal deviations: mean of squares minus squared mean, plus the offset, under the reciprocal root. -/
theorem V8_v23_term : (Gen.V8 m ρ c main_v23 : S1x1600.Idx → EReal)
    = Host.rsqrt (F := Ideal) (φ := .f32)
        (addf (F := Ideal) (φ := .f32)
          (subf (F := Ideal) (φ := .f32)
            (Host.divf (F := Ideal) (φ := .f32) (cols1 (Cert.Spec.nidx A7) (Gen.V4 m ρ c main_v11_2))
              (broadcastInDim S1x1600 ![] bcast_S_S1x1600 (constant (F := Ideal) S_ .f32 0x46800000#32)))
            (mulf (F := Ideal) (φ := .f32)
              (Host.divf (F := Ideal) (φ := .f32) (cols1 (Cert.Spec.nidx A7) (Gen.V4 m ρ c main_v11_1))
                (broadcastInDim S1x1600 ![] bcast_S_S1x1600 (constant (F := Ideal) S_ .f32 0x46800000#32)))
              (Host.divf (F := Ideal) (φ := .f32) (cols1 (Cert.Spec.nidx A7) (Gen.V4 m ρ c main_v11_1))
                (broadcastInDim S1x1600 ![] bcast_S_S1x1600 (constant (F := Ideal) S_ .f32 0x46800000#32)))))
          (broadcastInDim S1x1600 ![] bcast_S_S1x1600 (constant (F := Ideal) S_ .f32 0x3727C5AC#32))) := by
  dsimp only [Gen.V8, Gen.W8, Gen.W7, Gen.W6, Gen.W5]
  after_results_simp
  simp only [StableHlo.TRef.ofBuf, StableHlo.TRef.toBuf, cast_eq]
  rw [W4_arg7]
  rfl

/-- The scale and the shift, laid out as one row. -/
theorem V8_v24_term : (Gen.V8 m ρ c main_v24 : S1x1600.Idx → EReal)
    = shapeCast S1x1600 (m ((c : Thread nD τ).loc main_arg4) : S1600.Idx → EReal) shapeCasts_S1600_S1x1600 := by
  dsimp only [Gen.V8, Gen.W8, Gen.W7, Gen.W6, Gen.W5]
  after_results_simp
  rw [W4_arg4]
  rfl

theorem V8_v25_term : (Gen.V8 m ρ c main_v25 : S1x1600.Idx → EReal)
    = shapeCast S1x1600 (m ((c : Thread nD τ).loc main_arg5) : S1600.Idx → EReal) shapeCasts_S1600_S1x1600 := by
  dsimp only [Gen.V8, Gen.W8, Gen.W7, Gen.W6, Gen.W5]
  after_results_simp
  rw [W4_arg5]
  rfl

/-! ## Index by index -/

set_option quotPrecheck false in
local notation "NO" => Cert.Spec.nidx (m ((c : Thread nD τ).loc main_arg7))

theorem V8_v12 (hso : Cert.Spec.InRange NO) (mm : Fin 16384) (f : Fin 1600) :
    (Gen.V8 m ρ c main_v12 : S16384x1600.Idx → EReal) (ix2 mm f)
      = (Gen.V4 m ρ c main_v11_0 : S16384x1600.Idx → EReal) (ix2 mm (Cert.Spec.kap NO f)) :=
  (congrFun (V8_v12_term m ρ c) (ix2 mm f)).trans (colsM_apply _ hso _ mm f)

theorem V8_v16 (hso : Cert.Spec.InRange NO) (f : Fin 1600) :
    (Gen.V8 m ρ c main_v16 : S1x1600.Idx → EReal) (ix2 0 f)
      = Ideal.div ((Gen.V4 m ρ c main_v11_1 : S1x1600.Idx → EReal) (ix2 0 (Cert.Spec.kap NO f))) Cert.Spec.cN := by
  refine (congrFun (V8_v16_term m ρ c) (ix2 0 f)).trans ?_
  show Ideal.div (cols1 NO (Gen.V4 m ρ c main_v11_1) (ix2 0 f)) Cert.Spec.cN = _
  rw [cols1_apply _ hso]

theorem V8_v23 (hso : Cert.Spec.InRange NO) (f : Fin 1600) :
    (Gen.V8 m ρ c main_v23 : S1x1600.Idx → EReal) (ix2 0 f)
      = Ideal.rsqrt ((Ideal.div ((Gen.V4 m ρ c main_v11_2 : S1x1600.Idx → EReal) (ix2 0 (Cert.Spec.kap NO f))) Cert.Spec.cN
          - Ideal.div ((Gen.V4 m ρ c main_v11_1 : S1x1600.Idx → EReal) (ix2 0 (Cert.Spec.kap NO f))) Cert.Spec.cN
            * Ideal.div ((Gen.V4 m ρ c main_v11_1 : S1x1600.Idx → EReal) (ix2 0 (Cert.Spec.kap NO f))) Cert.Spec.cN)
          + Cert.Spec.eps) := by
  refine (congrFun (V8_v23_term m ρ c) (ix2 0 f)).trans ?_
  show Ideal.rsqrt ((Ideal.div (cols1 NO (Gen.V4 m ρ c main_v11_2) (ix2 0 f)) Cert.Spec.cN
      - Ideal.div (cols1 NO (Gen.V4 m ρ c main_v11_1) (ix2 0 f)) Cert.Spec.cN
        * Ideal.div (cols1 NO (Gen.V4 m ρ c main_v11_1) (ix2 0 f)) Cert.Spec.cN) + Cert.Spec.eps) = _
  rw [cols1_apply _ hso, cols1_apply _ hso]

theorem V8_v24 (f : Fin 1600) :
    (Gen.V8 m ρ c main_v24 : S1x1600.Idx → EReal) (ix2 0 f) = m ((c : Thread nD τ).loc main_arg4) (ix1 f) :=
  (congrFun (V8_v24_term m ρ c) (ix2 0 f)).trans (shapeCast_a_1a_apply _ _ 0 f)

theorem V8_v25 (f : Fin 1600) :
    (Gen.V8 m ρ c main_v25 : S1x1600.Idx → EReal) (ix2 0 f) = m ((c : Thread nD τ).loc main_arg5) (ix1 f) :=
  (congrFun (V8_v25_term m ρ c) (ix2 0 f)).trans (shapeCast_a_1a_apply _ _ 0 f)

end Cert.KernelIdeal.KHost1

end
-- ==== Proof.KRegion1.lean ====
/-
  The second grid of the kernel program, read index by index.

  The grid has 32 points; point `t` holds rows `512 t … 512 t + 511` of two `[16384, 1600]` arrays (the rows and
  the residual rows) and the whole of four `[1, 1600]` arrays (per feature: a mean, a reciprocal deviation, a scale,
  a shift). At every row `r` and feature `f` of its block it stores

      max ((((row − mean) · recip) · scale + shift) + residual) 0,

  and the 32 stored blocks tile the `[16384, 1600]` output. So the output array ends holding, at row `mm` and
  feature `f`, that expression of the six arrays at row `mm` and feature `f` — whatever the six arrays hold when the
  grid starts. Nothing here needs an entry to be finite: each output entry is one expression of six entries.
-/
import proofs.«422135_j2637109920123_1_alg».proof.Proof.Gen.KernelIdeal.Frame
import proofs.«422135_j2637109920123_1_alg».proof.Proof.Spec
import Idealize.ShloMosaic.Lib.ValueIdx
import Idealize.ShloMosaic.Lib.Pipeline.Value
import Idealize.ShloMosaic.PureOps.Ideal
import Idealize.ShloMosaic.PureOps.Ideal.Laws

set_option maxRecDepth 16384

noncomputable section

namespace Cert.KernelIdeal.KRegion1

open Idealize.ShloMosaic Idealize.ShloMosaic.TcCoe Idealize.SL.Sem
open Idealize.ShloMosaic.Pipeline (Dat)
open Cert.KernelIdeal Cert.KernelIdeal.Gen Idealize.ShloMosaic.ValueIdx

/-! ## The body's arithmetic at an index -/

/-- A per-feature row `[1, 1600]` repeated down the 512 rows of a block reads, at row `r` and feature `f`, the
    row's entry at `f`. -/
theorem rowBroadcast_apply (x : Vec Ideal S1x1600 .f32) (r : Fin 512) (f : Fin 1600) :
    (broadcastTo S512x1600 x broadcasts_S1x1600_S512x1600 : S512x1600.Idx → EReal) (ix2 r f) = x (ix2 0 f) :=
  broadcastTo_apply x broadcasts_S1x1600_S512x1600 (ix2 r f) (ix2 0 f) (fun a => by
    match a with
    | ⟨0, _⟩ => rfl
    | ⟨1, _⟩ => rfl)

/-- The body's one stored value at row `r`, feature `f` of a block: the row entry less the feature's mean, times the
    reciprocal deviation, times the scale, plus the shift, plus the residual row's entry, the negative part dropped. -/
theorem pay_apply (x0 x1 : Vec Ideal S512x1600 .f32) (x2 x3 x4 x5 : Vec Ideal S1x1600 .f32) (r : Fin 512) (f : Fin 1600) :
    (k1_pay1 (F := Ideal) x0 x2 x3 x4 x5 x1 : S512x1600.Idx → EReal) (ix2 r f)
      = max ((((x0 (ix2 r f) - x2 (ix2 0 f)) * x3 (ix2 0 f)) * x4 (ix2 0 f) + x5 (ix2 0 f)) + x1 (ix2 r f)) 0 := by
  unfold k1_pay1
  simp only [shapeCast_self]
  simp only [maximumf_apply, addf_apply, mulf_apply, subf_apply, broadcast_apply, rowBroadcast_apply,
    Ideal.ofBits_def, Ideal.ofBits_zero_f32]

/-- So, when the six loaded blocks are restrictions of six arrays — the row blocks to row `mm`, the per-feature
    blocks to themselves —, the stored value at row `r`, feature `f` is the normalisation of the arrays at row `mm`,
    feature `f`. -/
theorem pay_eq_norm (x0 x1 : Vec Ideal S512x1600 .f32) (x2 x3 x4 x5 : Vec Ideal S1x1600 .f32)
    (B0 B1 : Cert.Spec.SMF.Idx → EReal) (B2 B3 B4 B5 : Cert.Spec.S1F.Idx → EReal)
    (r : Fin 512) (f : Fin 1600) (mm : Fin 16384)
    (h0 : x0 (ix2 r f) = B0 (ix2 mm f)) (h1 : x1 (ix2 r f) = B1 (ix2 mm f))
    (h2 : x2 (ix2 0 f) = B2 (ix2 0 f)) (h3 : x3 (ix2 0 f) = B3 (ix2 0 f))
    (h4 : x4 (ix2 0 f) = B4 (ix2 0 f)) (h5 : x5 (ix2 0 f) = B5 (ix2 0 f)) :
    (k1_pay1 (F := Ideal) x0 x2 x3 x4 x5 x1 : S512x1600.Idx → EReal) (ix2 r f)
      = Cert.Spec.norm B0 B1 B2 B3 B4 B5 mm f := by
  rw [pay_apply, h0, h1, h2, h3, h4, h5]
  rfl

/-! ## From blocks to the array -/

section Region

variable (V : (c : Dev nD) → (b : Ref sig .tc) → Buf (Elt Ideal) ((c : Thread nD τ).loc b))

/-- The zero offsets of a whole-block access. -/
theorem zeroOffsets : (![0, 0] : Fin 2 → Nat) = fun _ => 0 :=
  funext fun a => by match a with | ⟨0, _⟩ => rfl | ⟨1, _⟩ => rfl

/-- The whole output array: the normalisation of the six arrays as the region finds them, at each index's row and
    feature. -/
abbrev normArr (c : Dev nD) : S16384x1600.Idx → EReal := fun i =>
  Cert.Spec.norm (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (i 0) (i 1)

/-- The index maps over the 32 row blocks: the two row windows and the output sit at block (t, 0); the four feature
    windows at block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block `t` of the rows holds rows `512 t … 512 t + 511` of the array, every feature. -/
theorem rows0_apply (c : Dev nD) (t : Fin cfg1.N) (r : Fin 512) (f : Fin 1600) (mm : Fin 16384)
    (hm : mm.val = t.val * 512 + r.val) :
    (iblk1 V c 0 t : Vec Ideal S512x1600 .f32) (ix2 r f)
      = (V c (Pipeline.arrRef spec1 0) : S16384x1600.Idx → EReal) (ix2 mm f) := by
  obtain ⟨e0, e1, -⟩ := blockIndex t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 512 + 1 * r.val = mm.val; omega
  | ⟨1, _⟩ => show win1_0.index t (1 : Fin 2) * 1600 + 1 * f.val = f.val; omega

/-- The same for the residual rows. -/
theorem rows1_apply (c : Dev nD) (t : Fin cfg1.N) (r : Fin 512) (f : Fin 1600) (mm : Fin 16384)
    (hm : mm.val = t.val * 512 + r.val) :
    (iblk1 V c 1 t : Vec Ideal S512x1600 .f32) (ix2 r f)
      = (V c (Pipeline.arrRef spec1 1) : S16384x1600.Idx → EReal) (ix2 mm f) := by
  obtain ⟨-, -, e0, e1, -⟩ := blockIndex t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 512 + 1 * r.val = mm.val; omega
  | ⟨1, _⟩ => show win1_1.index t (1 : Fin 2) * 1600 + 1 * f.val = f.val; omega

/-- A per-feature array `[1, 1600]` is one block, the same at every point: here the means. -/
theorem feat2_apply (c : Dev nD) (t : Fin cfg1.N) (f : Fin 1600) :
    (iblk1 V c 2 t : Vec Ideal S1x1600 .f32) (ix2 0 f)
      = (V c (Pipeline.arrRef spec1 2) : S1x1600.Idx → EReal) (ix2 0 f) := by
  obtain ⟨-, -, -, -, e0, e1, -⟩ := blockIndex t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * 0 = 0; omega
  | ⟨1, _⟩ => show win1_2.index t (1 : Fin 2) * 1600 + 1 * f.val = f.val; omega

/-- The reciprocal deviations: one block. -/
theorem feat3_apply (c : Dev nD) (t : Fin cfg1.N) (f : Fin 1600) :
    (iblk1 V c 3 t : Vec Ideal S1x1600 .f32) (ix2 0 f)
      = (V c (Pipeline.arrRef spec1 3) : S1x1600.Idx → EReal) (ix2 0 f) := by
  obtain ⟨-, -, -, -, -, -, e0, e1, -⟩ := blockIndex t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * 0 = 0; omega
  | ⟨1, _⟩ => show win1_3.index t (1 : Fin 2) * 1600 + 1 * f.val = f.val; omega

/-- The scales: one block. -/
theorem feat4_apply (c : Dev nD) (t : Fin cfg1.N) (f : Fin 1600) :
    (iblk1 V c 4 t : Vec Ideal S1x1600 .f32) (ix2 0 f)
      = (V c (Pipeline.arrRef spec1 4) : S1x1600.Idx → EReal) (ix2 0 f) := by
  obtain ⟨-, -, -, -, -, -, -, -, e0, e1, -⟩ := blockIndex t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * 0 = 0; omega
  | ⟨1, _⟩ => show win1_4.index t (1 : Fin 2) * 1600 + 1 * f.val = f.val; omega

/-- The shifts: one block. -/
theorem feat5_apply (c : Dev nD) (t : Fin cfg1.N) (f : Fin 1600) :
    (iblk1 V c 5 t : Vec Ideal S1x1600 .f32) (ix2 0 f)
      = (V c (Pipeline.arrRef spec1 5) : S1x1600.Idx → EReal) (ix2 0 f) := by
  obtain ⟨-, -, -, -, -, -, -, -, -, -, e0, e1, -⟩ := blockIndex t
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 1 + 1 * 0 = 0; omega
  | ⟨1, _⟩ => show win1_5.index t (1 : Fin 2) * 1600 + 1 * f.val = f.val; omega

/-- What point `t` writes back is block `t` of `normArr`: the stored value at the block's row `r` is the normalisation at
    row `512 t + r`. -/
theorem writeback_eq (c : Dev nD) (t : Fin cfg1.N) :
    (dat1 (F := Ideal) V c).flushed 6 t = ((cfg1.win 6).blk t).view.read (Elt Ideal) (normArr V c) := by
  show (cfg1.win 6).cut (grid1.coords t) ((dat1 (F := Ideal) V c).after 6 t) = _
  rw [after1_6]
  unfold out1_6
  rw [View.canon_unit_zero zeroOffsets]
  simp only [View.ld_unit_zero (S := S512x1600) zeroOffsets, View.ld_unit_zero (S := S1x1600) zeroOffsets]
  obtain ⟨-, -, -, -, -, -, -, -, -, -, -, -, e0, e1⟩ := blockIndex t
  have hN : t.val < 32 := lt_of_lt_of_eq t.isLt N_1
  funext j
  have hj0 : (j 0).val < 512 := (j 0).isLt
  have hj1 : (j 1).val < 1600 := (j 1).isLt
  have hemb : ((cfg1.win 6).blk t).view.emb j
      = ix2 (⟨t.val * 512 + (j 0).val, by omega⟩ : Fin 16384) (⟨(j 1).val, hj1⟩ : Fin 1600) := by
    funext a
    apply Fin.ext
    match a with
    | ⟨0, _⟩ => show win1_6.index t (0 : Fin 2) * 512 + 1 * (j 0).val = t.val * 512 + (j 0).val; omega
    | ⟨1, _⟩ => show win1_6.index t (1 : Fin 2) * 1600 + 1 * (j 1).val = (j 1).val; omega
  rw [View.read_apply]
  show _ = normArr V c (((cfg1.win 6).blk t).view.emb j)
  rw [hemb]
  exact pay_eq_norm (iblk1 V c 0 t) (iblk1 V c 1 t) (iblk1 V c 2 t) (iblk1 V c 3 t) (iblk1 V c 4 t) (iblk1 V c 5 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    ⟨(j 0).val, hj0⟩ ⟨(j 1).val, hj1⟩ ⟨t.val * 512 + (j 0).val, by omega⟩
    (rows0_apply V c t _ _ _ rfl) (rows1_apply V c t _ _ _ rfl)
    (feat2_apply V c t _) (feat3_apply V c t _) (feat4_apply V c t _) (feat5_apply V c t _)

/-- An index of the output array lies in point `t`'s block iff each coordinate lies in the block's range. -/
theorem mem_outBlock (t : Fin cfg1.N) (i : S16384x1600.Idx) :
    i ∈ ((cfg1.win 6).blk t).view.set ↔ ∀ a : Fin 2, win1_6.index t a * S512x1600.size a ≤ (i a).val
      ∧ (i a).val < win1_6.index t a * S512x1600.size a + S512x1600.size a := by
  show i ∈ ((View.whole main_v26).slice (win1_6.rect t)).set ↔ _
  rw [View.set_slice_whole, Rect.mem_set_unit]
  exact Iff.rfl

/-- Row `mm` lies in the block of point `mm / 512`: the 32 blocks cover the array. -/
theorem rows_covered (i : S16384x1600.Idx) :
    ∃ t : Fin cfg1.N, (cfg1.win 6).flush t = true ∧ i ∈ ((cfg1.win 6).blk t).view.set := by
  have hi0 : (i 0).val < 16384 := (i 0).isLt
  have hi1 : (i 1).val < 1600 := (i 1).isLt
  have hN : cfg1.N = 32 := N_1
  obtain ⟨t, ht⟩ : ∃ t : Fin cfg1.N, t.val = (i 0).val / 512 := ⟨⟨(i 0).val / 512, by rw [hN]; omega⟩, rfl⟩
  obtain ⟨-, -, -, -, -, -, -, -, -, -, -, -, e0, e1⟩ := blockIndex t
  refine ⟨t, flush1_6 t, ?_⟩
  rw [mem_outBlock]
  intro a
  match a with
  | ⟨0, _⟩ =>
    show win1_6.index t (0 : Fin 2) * 512 ≤ (i 0).val ∧ (i 0).val < win1_6.index t (0 : Fin 2) * 512 + 512
    omega
  | ⟨1, _⟩ =>
    show win1_6.index t (1 : Fin 2) * 1600 ≤ (i 1).val ∧ (i 1).val < win1_6.index t (1 : Fin 2) * 1600 + 1600
    omega

/-- The output array after the region: `normArr`. -/
theorem out_eq (c : Dev nD) : (dat1 (F := Ideal) V c).arrAt 6 cfg1.N = normArr V c :=
  (dat1 (F := Ideal) V c).arrAt_eq_of_cover 6 (normArr V c) (fun t _ => writeback_eq V c t) rows_covered

/-- What the region leaves in its output array at row `mm`, feature `f`, for any entry contents. -/
theorem reg1_out (c : Dev nD) (mm : Fin 16384) (f : Fin 1600) :
    ((Gen.dat1 (F := Ideal) V c).arrAt 6 cfg1.N : S16384x1600.Idx → EReal) (ix2 mm f)
      = Cert.Spec.norm (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) mm f :=
  congrFun (out_eq V c) (ix2 mm f)

end Region

end Cert.KernelIdeal.KRegion1

end
-- ==== Proof.KValue.lean ====
/-
  The kernel program's result, index by index, from the chain of its stages: host operations that flatten and
  permute the input and lay out the feature scale and bias; a first pipelined region that applies the linear layer to
  each block of 512 rows and accumulates every feature's sum and sum of squares over the 32 blocks; host operations
  that permute rows, sums and sums of squares with the second index vector and form the mean and the reciprocal
  deviation; a second pipelined region that normalises, scales, shifts, adds the input back and rectifies; and two
  host operations that lay the result out as the input is laid out.
-/
import proofs.«422135_j2637109920123_1_alg».proof.Proof.Gen.KernelIdeal.Frame
import proofs.«422135_j2637109920123_1_alg».proof.Proof.Spec
import proofs.«422135_j2637109920123_1_alg».proof.Proof.KernelRun
import proofs.«422135_j2637109920123_1_alg».proof.Proof.KHost0
import proofs.«422135_j2637109920123_1_alg».proof.Proof.KRegion0
import proofs.«422135_j2637109920123_1_alg».proof.Proof.KHost1
import proofs.«422135_j2637109920123_1_alg».proof.Proof.KRegion1
import Idealize.ShloMosaic.Lib.ValueIdx

open scoped BigOperators

noncomputable section

namespace Cert.KernelIdeal.KValue

open Cert.KernelIdeal Cert.KernelIdeal.Gen Idealize.ShloMosaic Idealize.ShloMosaic.TcCoe Idealize.ShloMosaic.ValueIdx Cert.Spec

variable (m : (ℓ : Loc nD τ sig) → Buf (Elt Ideal) ℓ) (ρ : Dev nD → PrngReg) (c : Dev nD)

/-- The row of sample `n`, frame `t` gives back its sample. -/
theorem rowN_row (n : Fin 64) (t : Fin 256) : rowN (row n t) = n := Fin.ext (by simp only [rowN_val, row_val]; omega)
/-- The row of sample `n`, frame `t` gives back its frame. -/
theorem rowT_row (n : Fin 64) (t : Fin 256) : rowT (row n t) = t := Fin.ext (by simp only [rowT_val, row_val]; omega)
/-- The feature of joint `v`, channel `d` gives back its joint. -/
theorem colV_col (v : Fin 25) (d : Fin 64) : colV (col v d) = v := Fin.ext (by simp only [colV_val, col_val]; omega)
/-- The feature of joint `v`, channel `d` gives back its channel. -/
theorem colC_col (v : Fin 25) (d : Fin 64) : colC (col v d) = d := Fin.ext (by simp only [colC_val, col_val]; omega)

/-- The flattened input at the row of `(n, t)` and the feature of `(v, d)` is the input at `(n, d, t, v)`. -/
theorem xflat_row_col (x0 : SX.Idx → EReal) (n d : Fin 64) (t : Fin 256) (v : Fin 25) :
    xflat x0 (row n t) (col v d) = x0 (ix4 n d t v) := by
  unfold xflat; rw [rowN_row, rowT_row, colV_col, colC_col]

/-- The first region's row output in terms of the arguments: the linear layer over the arrays the host operations
    prepared is the linear layer of the arguments under the first permutation. -/
theorem y_eq (hsi : InRange (nidx (m ((c : Thread nD τ).loc main_arg6)))) (mm : Fin 16384) (g : Fin 1600) :
    ((Gen.dat0 (F := Ideal) (Gen.V3 m ρ) c).arrAt 4 cfg0.N : S16384x1600.Idx → EReal) (ix2 mm g)
      = ylin (m ((c : Thread nD τ).loc main_arg0)) (m ((c : Thread nD τ).loc main_arg1)) (m ((c : Thread nD τ).loc main_arg2))
          (m ((c : Thread nD τ).loc main_arg3)) (kap (nidx (m ((c : Thread nD τ).loc main_arg6)))) mm g := by
  refine (KRegion0.reg0_y (Gen.V3 m ρ) c mm g).trans ?_
  unfold lin ylin
  refine congrArg₂ (fun a b : EReal => a + b) (Finset.sum_congr rfl fun cc _ => ?_) (KHost0.V3_v10 m ρ c g)
  exact congrArg₂ (fun a b : EReal => a * b)
    (congrArg₂ (fun a b : EReal => a * b) (KHost0.V3_v2 m ρ c hsi mm _) (KHost0.V3_v6 m ρ c _))
    (congrFun (KHost0.V3_arg1 m ρ c) _)

/-- The first region's per-feature sum in terms of the arguments. -/
theorem s1_eq (hsi : InRange (nidx (m ((c : Thread nD τ).loc main_arg6)))) (g : Fin 1600) :
    ((Gen.dat0 (F := Ideal) (Gen.V3 m ρ) c).arrAt 5 cfg0.N : S1x1600.Idx → EReal) (ix2 0 g)
      = (∑ mm : Fin 16384, ylin (m ((c : Thread nD τ).loc main_arg0)) (m ((c : Thread nD τ).loc main_arg1)) (m ((c : Thread nD τ).loc main_arg2))
          (m ((c : Thread nD τ).loc main_arg3)) (kap (nidx (m ((c : Thread nD τ).loc main_arg6)))) mm g : EReal) :=
  by
    exact @Eq.trans EReal _ _ _ (KRegion0.reg0_s1 (Gen.V3 m ρ) c g) (Finset.sum_congr rfl fun mm _ =>
      (KRegion0.reg0_y (Gen.V3 m ρ) c mm g).symm.trans (y_eq m ρ c hsi mm g))

/-- The first region's per-feature sum of squares in terms of the arguments. -/
theorem s2_eq (hsi : InRange (nidx (m ((c : Thread nD τ).loc main_arg6)))) (g : Fin 1600) :
    ((Gen.dat0 (F := Ideal) (Gen.V3 m ρ) c).arrAt 6 cfg0.N : S1x1600.Idx → EReal) (ix2 0 g)
      = (∑ mm : Fin 16384, ylin (m ((c : Thread nD τ).loc main_arg0)) (m ((c : Thread nD τ).loc main_arg1)) (m ((c : Thread nD τ).loc main_arg2))
            (m ((c : Thread nD τ).loc main_arg3)) (kap (nidx (m ((c : Thread nD τ).loc main_arg6)))) mm g
          * ylin (m ((c : Thread nD τ).loc main_arg0)) (m ((c : Thread nD τ).loc main_arg1)) (m ((c : Thread nD τ).loc main_arg2))
            (m ((c : Thread nD τ).loc main_arg3)) (kap (nidx (m ((c : Thread nD τ).loc main_arg6)))) mm g : EReal) :=
  by
    exact @Eq.trans EReal _ _ _ (KRegion0.reg0_s2 (Gen.V3 m ρ) c g) (Finset.sum_congr rfl fun mm _ =>
      have e := (KRegion0.reg0_y (Gen.V3 m ρ) c mm g).symm.trans (y_eq m ρ c hsi mm g)
      congrArg₂ (fun a b : EReal => a * b) e e)

/-- THE KERNEL'S VALUE: with both index vectors in range, the result buffer after the run holds, at sample `n`,
    channel `d`, frame `t`, joint `v`, the specification's result with the variance taken as mean of squares minus
    squared mean. The chain: the last two host operations re-lay the second region's output; that region normalises
    the permuted rows pointwise; the host operations between the regions permute the first region's rows, sums and
    sums of squares and form the mean and the reciprocal deviation; the first region is the linear layer. -/
theorem value (hsi : InRange (nidx (m ((c : Thread nD τ).loc main_arg6))))
    (hso : InRange (nidx (m ((c : Thread nD τ).loc main_arg7)))) (n d : Fin 64) (t : Fin 256) (v : Fin 25) :
    (Gen.W10 (F := Ideal) m ρ c (Proc.devRef .tc main_v28) : S64x64x256x25.Idx → EReal) (ix4 n d t v)
      = outv (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (kap (nidx (m ((c : Thread nD τ).loc main_arg6)))) (kap (nidx (m ((c : Thread nD τ).loc main_arg7))))
          (varK (m ((c : Thread nD τ).loc main_arg0)) (m ((c : Thread nD τ).loc main_arg1)) (m ((c : Thread nD τ).loc main_arg2))
            (m ((c : Thread nD τ).loc main_arg3)) (kap (nidx (m ((c : Thread nD τ).loc main_arg6))))
            (kap (nidx (m ((c : Thread nD τ).loc main_arg7))))) n d t v := by
  refine (KRun.W10_v28_apply m ρ c n d t v).trans ?_
  refine (KRegion1.reg1_out (Gen.V8 m ρ) c (row n t) (col v d)).trans ?_
  -- the rows: the second permutation of the first region's rows
  have hy := (KHost1.V8_v12 m ρ c hso (row n t) (col v d)).trans
    ((congrFun (Gen.hF0 m ρ c 4) _).symm.trans (y_eq m ρ c hsi (row n t) _))
  -- the sums at the permuted feature
  have h1 := (congrFun (Gen.hF0 m ρ c 5) (ix2 0 (kap (nidx (m ((c : Thread nD τ).loc main_arg7))) (col v d)))).symm.trans
    (s1_eq m ρ c hsi _)
  have h2 := (congrFun (Gen.hF0 m ρ c 6) (ix2 0 (kap (nidx (m ((c : Thread nD τ).loc main_arg7))) (col v d)))).symm.trans
    (s2_eq m ρ c hsi _)
  have hmean := (KHost1.V8_v16 m ρ c hso (col v d)).trans (congrArg (fun z : EReal => Ideal.div z cN) h1)
  have hinv := (KHost1.V8_v23 m ρ c hso (col v d)).trans
    (congrArg (fun z : EReal => Ideal.rsqrt (z + eps))
      (congrArg₂ (fun a b : EReal => a - b) (congrArg (fun z : EReal => Ideal.div z cN) h2)
        (congrArg₂ (fun a b : EReal => a * b) (congrArg (fun z : EReal => Ideal.div z cN) h1)
          (congrArg (fun z : EReal => Ideal.div z cN) h1))))
  have hx := (congrFun (KHost1.V8_v1 m ρ c) (ix2 (row n t) (col v d))).trans
    ((KHost0.V3_v1 m ρ c (row n t) (col v d)).trans (xflat_row_col _ n d t v))
  unfold Cert.Spec.norm Cert.Spec.outv
  exact congrArg (fun z : EReal => max z 0)
    (congrArg₂ (fun a b : EReal => a + b)
      (congrArg₂ (fun a b : EReal => a + b)
        (congrArg₂ (fun a b : EReal => a * b)
          (congrArg₂ (fun a b : EReal => a * b) (congrArg₂ (fun a b : EReal => a - b) hy hmean) hinv)
          (KHost1.V8_v24 m ρ c (col v d)))
        (KHost1.V8_v25 m ρ c (col v d)))
      hx)

end Cert.KernelIdeal.KValue

end
-- ==== Proof.RefTerm.lean ====
/-
  The reference computation as closed terms of its eight argument arrays, one definition per stage:
  the channel-last flattening of x, the two index normalisations, the two column gathers, the masked
  product, the linear layer, the column mean and variance, the affine normalisation, and the result
  after the transpose back, the residual sum and the positive part. Each definition is stated by its
  own equation over the earlier ones, so a stage can be rewritten at an index on its own.
-/
import proofs.«422135_j2637109920123_1_alg».proof.ReferenceIdeal
import proofs.«422135_j2637109920123_1_alg».proof.Proof.Gen.ReferenceIdeal

noncomputable section

namespace Cert.ReferenceIdeal.RefTerm

open Idealize.ShloMosaic Idealize.SL.Sem
open Cert.ReferenceIdeal Cert.ReferenceIdeal.Facts₀ Cert.ReferenceIdeal.Facts

variable {F : FTy → Type} [FloatOps F]

/-! ## x, channel-last and flattened -/

/-- x[b, c, h, w] moved to [b, h, w, c] and read as 16384 rows of 1600 columns. -/
def t_v1 (a0 : FVec F S64x64x256x25 .f32) : FVec F S16384x1600 .f32 :=
  shapeCast S16384x1600
    (transpose S64x256x25x64 [0, 2, 3, 1] a0 transposes_S64x64x256x25_S64x256x25x64_0_2_3_1)
    shapeCasts_S64x256x25x64_S16384x1600

/-! ## The first column permutation -/

/-- The first index table normalised: a negative entry has 1600 added; as a column [1600, 1]. -/
def t_v7 (a6 : IVec S1600 32) : IVec S1600x1 32 :=
  broadcastInDim S1600x1 ![0] bcast_S1600_S1600x1_0
    (select (cmpi .slt a6 (broadcastInDim S1600 ![] bcast_S_S1600 (constantI S_ 32 0#32)))
      (addi a6 (broadcastInDim S1600 ![] bcast_S_S1600 (constantI S_ 32 1600#32)))
      a6)

/-- The columns of the flattened x taken at the first table. -/
def t_v8 (a0 : FVec F S64x64x256x25 .f32) (a6 : IVec S1600 32) : FVec F S16384x1600 .f32 :=
  Host.gather gather_S16384x1600_S1600x1_S16384x1600_0_1_n_n_1_1_163841 (t_v1 a0) (t_v7 a6)

/-! ## The masked product and the linear layer -/

/-- The gathered rows as [16384, 25, 64], times (tanh of the mask parameter, plus one) along the rows. -/
def t_v14 (a0 : FVec F S64x64x256x25 .f32) (a3 : FVec F S1x25x64 .f32) (a6 : IVec S1600 32) :
    FVec F S16384x25x64 .f32 :=
  mulf (shapeCast S16384x25x64 (t_v8 a0 a6) shapeCasts_S16384x1600_S16384x25x64)
    (broadcastInDim S16384x25x64 ![0, 1, 2] bcast_S1x25x64_S16384x25x64_0_1_2
      (addf (Host.tanh a3)
        (broadcastInDim S1x25x64 ![] bcast_S_S1x25x64 (constant S_ .f32 0x3F800000#32))))

/-- The product contracted with the weight over the last axis, plus the bias, flattened back to rows of 1600. -/
def t_v18 (a0 : FVec F S64x64x256x25 .f32) (a1 : FVec F S64x64 .f32) (a2 : FVec F S1x1x64 .f32)
    (a3 : FVec F S1x25x64 .f32) (a6 : IVec S1600 32) : FVec F S16384x1600 .f32 :=
  shapeCast S16384x1600
    (addf (Host.dotGeneral dot_S16384x25x64_S64x64_S16384x25x64_2_0_01_1_n_n none (t_v14 a0 a3 a6) a1)
      (broadcastInDim S16384x25x64 ![0, 1, 2] bcast_S1x1x64_S16384x25x64_0_1_2 a2))
    shapeCasts_S16384x25x64_S16384x1600

/-! ## The second column permutation -/

/-- The second index table normalised the same way, as a column [1600, 1]. -/
def t_v24 (a7 : IVec S1600 32) : IVec S1600x1 32 :=
  broadcastInDim S1600x1 ![0] bcast_S1600_S1600x1_0
    (select (cmpi .slt a7 (broadcastInDim S1600 ![] bcast_S_S1600 (constantI S_ 32 0#32)))
      (addi a7 (broadcastInDim S1600 ![] bcast_S_S1600 (constantI S_ 32 1600#32)))
      a7)

/-- The columns of the linear layer's output taken at the second table. -/
def t_v25 (a0 : FVec F S64x64x256x25 .f32) (a1 : FVec F S64x64 .f32) (a2 : FVec F S1x1x64 .f32)
    (a3 : FVec F S1x25x64 .f32) (a6 a7 : IVec S1600 32) : FVec F S16384x1600 .f32 :=
  Host.gather gather_S16384x1600_S1600x1_S16384x1600_0_1_n_n_1_1_163841 (t_v18 a0 a1 a2 a3 a6) (t_v24 a7)

/-! ## The column statistics -/

/-- The column mean: the sum over the 16384 rows from zero, divided by 16384. -/
def t_v28 (a0 : FVec F S64x64x256x25 .f32) (a1 : FVec F S64x64 .f32) (a2 : FVec F S1x1x64 .f32)
    (a3 : FVec F S1x25x64 .f32) (a6 a7 : IVec S1600 32) : FVec F S1600 .f32 :=
  Host.divf
    (Host.reduceAdd (t_v25 a0 a1 a2 a3 a6 a7) (constant S_ .f32 0x00000000#32) reducesTo_S16384x1600_S1600_d0 h_S_)
    (broadcastInDim S1600 ![] bcast_S_S1600 (constant S_ .f32 0x46800000#32))

/-- The column variance with zero degrees of freedom removed: the mean is recomputed (sum over the rows, as a
    row [1, 1600], divided by 16384), the squared deviations are summed over the rows and divided by
    16384 minus the converted zero; where that divisor is not positive the not-a-number constant is taken. -/
def t_v29 (a0 : FVec F S64x64x256x25 .f32) (a1 : FVec F S64x64 .f32) (a2 : FVec F S1x1x64 .f32)
    (a3 : FVec F S1x25x64 .f32) (a6 a7 : IVec S1600 32) : FVec F S1600 .f32 :=
  let x : FVec F S16384x1600 .f32 := t_v25 a0 a1 a2 a3 a6 a7
  let dev : FVec F S16384x1600 .f32 :=
    subf x
      (broadcastInDim S16384x1600 ![0, 1] bcast_S1x1600_S16384x1600_0_1
        (Host.divf
          (broadcastInDim S1x1600 ![1] bcast_S1600_S1x1600_1
            (Host.reduceAdd x (constant S_ .f32 0x00000000#32) reducesTo_S16384x1600_S1600_d0 h_S_))
          (broadcastInDim S1x1600 ![] bcast_S_S1x1600 (constant S_ .f32 0x46800000#32))))
  let n : FVec F S_ .f32 :=
    subf (constant S_ .f32 0x46800000#32) (sitofp .f32 (constantI S_ 32 0#32))
  select
    (broadcastInDim S1600 ![] bcast_S_S1600 (cmpf .ogt n (constant S_ .f32 0x00000000#32)))
    (Host.divf
      (Host.reduceAdd (mulf dev dev) (constant S_ .f32 0x00000000#32) reducesTo_S16384x1600_S1600_d0 h_S_)
      (broadcastInDim S1600 ![] bcast_S_S1600 n))
    (broadcastInDim S1600 ![] bcast_S_S1600 (id (constant S_ .f32 0x7FC00000#32)))

/-! ## The affine normalisation -/

/-- (y − mean) · rsqrt(variance + ε) · scale + shift, the four row vectors spread over the 16384 rows. -/
def t_v44 (a0 : FVec F S64x64x256x25 .f32) (a1 : FVec F S64x64 .f32) (a2 : FVec F S1x1x64 .f32)
    (a3 : FVec F S1x25x64 .f32) (a4 a5 : FVec F S1600 .f32) (a6 a7 : IVec S1600 32) :
    FVec F S16384x1600 .f32 :=
  addf
    (mulf
      (mulf
        (subf (t_v25 a0 a1 a2 a3 a6 a7)
          (broadcastInDim S16384x1600 ![0, 1] bcast_S1x1600_S16384x1600_0_1
            (broadcastInDim S1x1600 ![1] bcast_S1600_S1x1600_1 (t_v28 a0 a1 a2 a3 a6 a7))))
        (broadcastInDim S16384x1600 ![0, 1] bcast_S1x1600_S16384x1600_0_1
          (broadcastInDim S1x1600 ![1] bcast_S1600_S1x1600_1
            (Host.rsqrt
              (addf (t_v29 a0 a1 a2 a3 a6 a7)
                (broadcastInDim S1600 ![] bcast_S_S1600 (constant S_ .f32 0x3727C5AC#32)))))))
      (broadcastInDim S16384x1600 ![0, 1] bcast_S1x1600_S16384x1600_0_1
        (broadcastInDim S1x1600 ![1] bcast_S1600_S1x1600_1 a4)))
    (broadcastInDim S16384x1600 ![0, 1] bcast_S1x1600_S16384x1600_0_1
      (broadcastInDim S1x1600 ![1] bcast_S1600_S1x1600_1 a5))

/-! ## The result -/

/-- The normalised array read as [64, 256, 25, 64], moved back to [b, c, h, w], plus x, and the maximum with zero. -/
def t_v48 (a0 : FVec F S64x64x256x25 .f32) (a1 : FVec F S64x64 .f32) (a2 : FVec F S1x1x64 .f32)
    (a3 : FVec F S1x25x64 .f32) (a4 a5 : FVec F S1600 .f32) (a6 a7 : IVec S1600 32) :
    FVec F S64x64x256x25 .f32 :=
  maximumf
    (addf
      (transpose S64x64x256x25 [0, 3, 1, 2]
        (shapeCast S64x256x25x64 (t_v44 a0 a1 a2 a3 a4 a5 a6 a7) shapeCasts_S16384x1600_S64x256x25x64)
        transposes_S64x256x25x64_S64x64x256x25_0_3_1_2)
      a0)
    (broadcastInDim S64x64x256x25 ![] bcast_S_S64x64x256x25 (constant S_ .f32 0x00000000#32))

end Cert.ReferenceIdeal.RefTerm

end
-- ==== Proof.RefRun.lean ====
/-
  The reference program's run: @main, with its three calls replaced by their callees' operations, is one
  straight line of eighty-one tensor operations; run from any memory it ends with every buffer at the fold
  of the operations' results over the launch contents, which at the result buffer is the reference term
  of the eight arguments and at each argument buffer is what the buffer held.
-/
import proofs.«422135_j2637109920123_1_alg».proof.ReferenceIdeal
import proofs.«422135_j2637109920123_1_alg».proof.Proof.Gen.ReferenceIdeal
import proofs.«422135_j2637109920123_1_alg».proof.Proof.RefTerm
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-! ## The straight line -/

/-- @main's operations in order, each call replaced by its callee's operations over that call's buffers:
    thirty-seven of @main's own up to the mean and the zero count of removed degrees of freedom; the variance function's nineteen and, at its end, the
    selection function's three, whose last writes the variance buffer; nineteen of @main's own for the
    normalisation, the reshape, the transpose back and the residual sum; the positive-part function's three,
    whose last writes the result buffer. -/
abbrev ops : List (HloOp τ sig (Elt F)) :=
  [ unary main_arg0 main_v0 ((transpose S64x256x25x64 [0, 2, 3, 1] · transposes_S64x64x256x25_S64x256x25x64_0_2_3_1) : (⟨S64x64x256x25, .f32⟩ : BufTy).Contents (Elt F) → (⟨S64x256x25x64, .f32⟩ : BufTy).Contents (Elt F)),
    reshape main_v0 main_v1 rfl shapeCasts_S64x256x25x64_S16384x1600,
    nullary main_c (constantI S_ 32 0#32),
    unary main_c main_v2 (broadcastInDim S1600 ![] bcast_S_S1600 : (⟨S_, .i32⟩ : BufTy).Contents (Elt F) → (⟨S1600, .i32⟩ : BufTy).Contents (Elt F)),
    binary main_arg6 main_v2 main_v3 (cmpi .slt : (⟨S1600, .i32⟩ : BufTy).Contents (Elt F) → (⟨S1600, .i32⟩ : BufTy).Contents (Elt F) → (⟨S1600, .i1⟩ : BufTy).Contents (Elt F)),
    nullary main_c_0 (constantI S_ 32 1600#32),
    unary main_c_0 main_v4 (broadcastInDim S1600 ![] bcast_S_S1600 : (⟨S_, .i32⟩ : BufTy).Contents (Elt F) → (⟨S1600, .i32⟩ : BufTy).Contents (Elt F)),
    binary main_arg6 main_v4 main_v5 (addi : (⟨S1600, .i32⟩ : BufTy).Contents (Elt F) → (⟨S1600, .i32⟩ : BufTy).Contents (Elt F) → (⟨S1600, .i32⟩ : BufTy).Contents (Elt F)),
    ternary main_v3 main_v5 main_arg6 main_v6 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v6 main_v7 (broadcastInDim S1600x1 ![0] bcast_S1600_S1600x1_0 : (⟨S1600, .i32⟩ : BufTy).Contents (Elt F) → (⟨S1600x1, .i32⟩ : BufTy).Contents (Elt F)),
    binary main_v1 main_v7 main_v8 ((fun x i => Host.gather gather_S16384x1600_S1600x1_S16384x1600_0_1_n_n_1_1_163841 x i) : (⟨S16384x1600, .f32⟩ : BufTy).Contents (Elt F) → (⟨S1600x1, .i32⟩ : BufTy).Contents (Elt F) → (⟨S16384x1600, .f32⟩ : BufTy).Contents (Elt F)),
    reshape main_v8 main_v9 rfl shapeCasts_S16384x1600_S16384x25x64,
    unary main_arg3 main_v10 (Host.tanh : (⟨S1x25x64, .f32⟩ : BufTy).Contents (Elt F) → (⟨S1x25x64, .f32⟩ : BufTy).Contents (Elt F)),
    nullary main_cst (constant S_ .f32 0x3F800000#32),
    unary main_cst main_v11 (broadcastInDim S1x25x64 ![] bcast_S_S1x25x64 : (⟨S_, .f32⟩ : BufTy).Contents (Elt F) → (⟨S1x25x64, .f32⟩ : BufTy).Contents (Elt F)),
    binary main_v10 main_v11 main_v12 (addf : (⟨S1x25x64, .f32⟩ : BufTy).Contents (Elt F) → (⟨S1x25x64, .f32⟩ : BufTy).Contents (Elt F) → (⟨S1x25x64, .f32⟩ : BufTy).Contents (Elt F)),
    unary main_v12 main_v13 (broadcastInDim S16384x25x64 ![0, 1, 2] bcast_S1x25x64_S16384x25x64_0_1_2 : (⟨S1x25x64, .f32⟩ : BufTy).Contents (Elt F) → (⟨S16384x25x64, .f32⟩ : BufTy).Contents (Elt F)),
    binary main_v9 main_v13 main_v14 (mulf : (⟨S16384x25x64, .f32⟩ : BufTy).Contents (Elt F) → (⟨S16384x25x64, .f32⟩ : BufTy).Contents (Elt F) → (⟨S16384x25x64, .f32⟩ : BufTy).Contents (Elt F)),
    binary main_v14 main_arg1 main_v15 ((fun l r => Host.dotGeneral dot_S16384x25x64_S64x64_S16384x25x64_2_0_01_1_n_n none l r) : (⟨S16384x25x64, .f32⟩ : BufTy).Contents (Elt F) → (⟨S64x64, .f32⟩ : BufTy).Contents (Elt F) → (⟨S16384x25x64, .f32⟩ : BufTy).Contents (Elt F)),
    unary main_arg2 main_v16 (broadcastInDim S16384x25x64 ![0, 1, 2] bcast_S1x1x64_S16384x25x64_0_1_2 : (⟨S1x1x64, .f32⟩ : BufTy).Contents (Elt F) → (⟨S16384x25x64, .f32⟩ : BufTy).Contents (Elt F)),
    binary main_v15 main_v16 main_v17 (addf : (⟨S16384x25x64, .f32⟩ : BufTy).Contents (Elt F) → (⟨S16384x25x64, .f32⟩ : BufTy).Contents (Elt F) → (⟨S16384x25x64, .f32⟩ : BufTy).Contents (Elt F)),
    reshape main_v17 main_v18 rfl shapeCasts_S16384x25x64_S16384x1600,
    nullary main_c_1 (constantI S_ 32 0#32),
    unary main_c_1 main_v19 (broadcastInDim S1600 ![] bcast_S_S1600 : (⟨S_, .i32⟩ : BufTy).Contents (Elt F) → (⟨S1600, .i32⟩ : BufTy).Contents (Elt F)),
    binary main_arg7 main_v19 main_v20 (cmpi .slt : (⟨S1600, .i32⟩ : BufTy).Contents (Elt F) → (⟨S1600, .i32⟩ : BufTy).Contents (Elt F) → (⟨S1600, .i1⟩ : BufTy).Contents (Elt F)),
    nullary main_c_2 (constantI S_ 32 1600#32),
    unary main_c_2 main_v21 (broadcastInDim S1600 ![] bcast_S_S1600 : (⟨S_, .i32⟩ : BufTy).Contents (Elt F) → (⟨S1600, .i32⟩ : BufTy).Contents (Elt F)),
    binary main_arg7 main_v21 main_v22 (addi : (⟨S1600, .i32⟩ : BufTy).Contents (Elt F) → (⟨S1600, .i32⟩ : BufTy).Contents (Elt F) → (⟨S1600, .i32⟩ : BufTy).Contents (Elt F)),
    ternary main_v20 main_v22 main_arg7 main_v23 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v23 main_v24 (broadcastInDim S1600x1 ![0] bcast_S1600_S1600x1_0 : (⟨S1600, .i32⟩ : BufTy).Contents (Elt F) → (⟨S1600x1, .i32⟩ : BufTy).Contents (Elt F)),
    binary main_v18 main_v24 main_v25 ((fun x i => Host.gather gather_S16384x1600_S1600x1_S16384x1600_0_1_n_n_1_1_163841 x i) : (⟨S16384x1600, .f32⟩ : BufTy).Contents (Elt F) → (⟨S1600x1, .i32⟩ : BufTy).Contents (Elt F) → (⟨S16384x1600, .f32⟩ : BufTy).Contents (Elt F)),
    nullary main_cst_3 (constant S_ .f32 0x00000000#32),
    binary main_v25 main_cst_3 main_v26 ((fun x v => Host.reduceAdd x v reducesTo_S16384x1600_S1600_d0 h_S_) : (⟨S16384x1600, .f32⟩ : BufTy).Contents (Elt F) → (⟨S_, .f32⟩ : BufTy).Contents (Elt F) → (⟨S1600, .f32⟩ : BufTy).Contents (Elt F)),
    nullary main_cst_4 (constant S_ .f32 0x46800000#32),
    unary main_cst_4 main_v27 (broadcastInDim S1600 ![] bcast_S_S1600 : (⟨S_, .f32⟩ : BufTy).Contents (Elt F) → (⟨S1600, .f32⟩ : BufTy).Contents (Elt F)),
    binary main_v26 main_v27 main_v28 (Host.divf : (⟨S1600, .f32⟩ : BufTy).Contents (Elt F) → (⟨S1600, .f32⟩ : BufTy).Contents (Elt F) → (⟨S1600, .f32⟩ : BufTy).Contents (Elt F)),
    nullary main_c_5 (constantI S_ 32 0#32),
    TRef.nullary main_call0.cst (constant S_ .f32 0x00000000#32),
    TRef.binary (.of main_v25 : TRef sig ⟨S16384x1600, .f32⟩) main_call0.cst main_call0.v0 (fun x v => Host.reduceAdd x v reducesTo_S16384x1600_S1600_d0 h_S_),
    TRef.unary main_call0.v0 main_call0.v1 (broadcastInDim S1x1600 ![1] bcast_S1600_S1x1600_1),
    TRef.nullary main_call0.cst_0 (constant S_ .f32 0x46800000#32),
    TRef.unary main_call0.cst_0 main_call0.v2 (broadcastInDim S1x1600 ![] bcast_S_S1x1600),
    TRef.binary main_call0.v1 main_call0.v2 main_call0.v3 Host.divf,
    TRef.unary main_call0.v3 main_call0.v4 (broadcastInDim S16384x1600 ![0, 1] bcast_S1x1600_S16384x1600_0_1),
    TRef.binary (.of main_v25 : TRef sig ⟨S16384x1600, .f32⟩) main_call0.v4 main_call0.v5 subf,
    TRef.binary main_call0.v5 main_call0.v5 main_call0.v6 mulf,
    TRef.unary (.of main_c_5 : TRef sig ⟨S_, .i32⟩) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x1600_S1600_d0 h_S_),
    TRef.unary main_call0.v8 main_call0.v10 (broadcastInDim S1600 ![] bcast_S_S1600),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S1600 ![] bcast_S_S1600),
    TRef.ternary main_call0.v12 main_call0.v11 main_call0.call0.v1 main_call0.call0.v2 (fun p a b => select (broadcastInDim S1600 ![] bcast_S_S1600 p) a b),
    unary main_v28 main_v30 (broadcastInDim S1x1600 ![1] bcast_S1600_S1x1600_1 : (⟨S1600, .f32⟩ : BufTy).Contents (Elt F) → (⟨S1x1600, .f32⟩ : BufTy).Contents (Elt F)),
    unary main_v30 main_v31 (broadcastInDim S16384x1600 ![0, 1] bcast_S1x1600_S16384x1600_0_1 : (⟨S1x1600, .f32⟩ : BufTy).Contents (Elt F) → (⟨S16384x1600, .f32⟩ : BufTy).Contents (Elt F)),
    binary main_v25 main_v31 main_v32 (subf : (⟨S16384x1600, .f32⟩ : BufTy).Contents (Elt F) → (⟨S16384x1600, .f32⟩ : BufTy).Contents (Elt F) → (⟨S16384x1600, .f32⟩ : BufTy).Contents (Elt F)),
    nullary main_cst_6 (constant S_ .f32 0x3727C5AC#32),
    unary main_cst_6 main_v33 (broadcastInDim S1600 ![] bcast_S_S1600 : (⟨S_, .f32⟩ : BufTy).Contents (Elt F) → (⟨S1600, .f32⟩ : BufTy).Contents (Elt F)),
    binary main_v29 main_v33 main_v34 (addf : (⟨S1600, .f32⟩ : BufTy).Contents (Elt F) → (⟨S1600, .f32⟩ : BufTy).Contents (Elt F) → (⟨S1600, .f32⟩ : BufTy).Contents (Elt F)),
    unary main_v34 main_v35 (Host.rsqrt : (⟨S1600, .f32⟩ : BufTy).Contents (Elt F) → (⟨S1600, .f32⟩ : BufTy).Contents (Elt F)),
    unary main_v35 main_v36 (broadcastInDim S1x1600 ![1] bcast_S1600_S1x1600_1 : (⟨S1600, .f32⟩ : BufTy).Contents (Elt F) → (⟨S1x1600, .f32⟩ : BufTy).Contents (Elt F)),
    unary main_v36 main_v37 (broadcastInDim S16384x1600 ![0, 1] bcast_S1x1600_S16384x1600_0_1 : (⟨S1x1600, .f32⟩ : BufTy).Contents (Elt F) → (⟨S16384x1600, .f32⟩ : BufTy).Contents (Elt F)),
    binary main_v32 main_v37 main_v38 (mulf : (⟨S16384x1600, .f32⟩ : BufTy).Contents (Elt F) → (⟨S16384x1600, .f32⟩ : BufTy).Contents (Elt F) → (⟨S16384x1600, .f32⟩ : BufTy).Contents (Elt F)),
    unary main_arg4 main_v39 (broadcastInDim S1x1600 ![1] bcast_S1600_S1x1600_1 : (⟨S1600, .f32⟩ : BufTy).Contents (Elt F) → (⟨S1x1600, .f32⟩ : BufTy).Contents (Elt F)),
    unary main_v39 main_v40 (broadcastInDim S16384x1600 ![0, 1] bcast_S1x1600_S16384x1600_0_1 : (⟨S1x1600, .f32⟩ : BufTy).Contents (Elt F) → (⟨S16384x1600, .f32⟩ : BufTy).Contents (Elt F)),
    binary main_v38 main_v40 main_v41 (mulf : (⟨S16384x1600, .f32⟩ : BufTy).Contents (Elt F) → (⟨S16384x1600, .f32⟩ : BufTy).Contents (Elt F) → (⟨S16384x1600, .f32⟩ : BufTy).Contents (Elt F)),
    unary main_arg5 main_v42 (broadcastInDim S1x1600 ![1] bcast_S1600_S1x1600_1 : (⟨S1600, .f32⟩ : BufTy).Contents (Elt F) → (⟨S1x1600, .f32⟩ : BufTy).Contents (Elt F)),
    unary main_v42 main_v43 (broadcastInDim S16384x1600 ![0, 1] bcast_S1x1600_S16384x1600_0_1 : (⟨S1x1600, .f32⟩ : BufTy).Contents (Elt F) → (⟨S16384x1600, .f32⟩ : BufTy).Contents (Elt F)),
    binary main_v41 main_v43 main_v44 (addf : (⟨S16384x1600, .f32⟩ : BufTy).Contents (Elt F) → (⟨S16384x1600, .f32⟩ : BufTy).Contents (Elt F) → (⟨S16384x1600, .f32⟩ : BufTy).Contents (Elt F)),
    reshape main_v44 main_v45 rfl shapeCasts_S16384x1600_S64x256x25x64,
    unary main_v45 main_v46 ((transpose S64x64x256x25 [0, 3, 1, 2] · transposes_S64x256x25x64_S64x64x256x25_0_3_1_2) : (⟨S64x256x25x64, .f32⟩ : BufTy).Contents (Elt F) → (⟨S64x64x256x25, .f32⟩ : BufTy).Contents (Elt F)),
    binary main_v46 main_arg0 main_v47 (addf : (⟨S64x64x256x25, .f32⟩ : BufTy).Contents (Elt F) → (⟨S64x64x256x25, .f32⟩ : BufTy).Contents (Elt F) → (⟨S64x64x256x25, .f32⟩ : BufTy).Contents (Elt F)),
    TRef.nullary main_call1.cst (constant S_ .f32 0x00000000#32),
    TRef.unary main_call1.cst main_call1.v0 (broadcastInDim S64x64x256x25 ![] bcast_S_S64x64x256x25),
    TRef.binary (.of main_v47 : TRef sig ⟨S64x64x256x25, .f32⟩) main_call1.v0 main_call1.v1 maximumf ]

-- eighty-one binds unfolded one inside the other on each side
set_option maxRecDepth 8192 in
/-- @main is that straight line: a call is its callee's body, and sequencing grafts one line onto the
    end of the other, both by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., reshape_bufs_sub ..,
    unary_bufs_sub .., nullary_bufs_sub .., unary_bufs_sub .., binary_bufs_sub .., unary_bufs_sub .., binary_bufs_sub ..,
    binary_bufs_sub .., unary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., reshape_bufs_sub .., unary_bufs_sub .., binary_bufs_sub ..,
    nullary_bufs_sub .., unary_bufs_sub .., binary_bufs_sub ..⟩

/-! ## What the buffers hold after the line -/

set_option maxHeartbeats 1000000 in
set_option maxRecDepth 8192 in
/-- The result buffer holds the composed term of the arguments: each operation's value at its own result
    buffer is its function of its operands' contents, every other buffer keeps what it held; the composed
    functions are the stages of the reference term, one inside the other. -/
theorem out_eq (V : Valuation τ sig (Elt F)) :
    after ops V (main_v48 : DevRef τ sig) = RefTerm.t_v48 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

/-! No operation of the line writes an argument buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

/-! ## The run -/

/-- On every device, for any float values, from any memory with zero counters: every weakly fair execution
    of @main terminates with the result buffer at the reference term of the arguments' launch contents and
    the eight arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v48)
        = RefTerm.t_v48 (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

/-- The same run, keeping only that the arguments are unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run m ρ)

end Cert.ReferenceIdeal.RefRun

end
-- ==== Proof.RefValue.lean ====
/-
  The reference computation read at an index. Each named stage of the reference, evaluated over the extended
  reals, is identified entry by entry with the corresponding formula of the specification: the flattening of the
  input, the two normalised index vectors, the two column selections (an out-of-range start index selects the
  clamped column), the masked product, the linear layer as a sum over the 64 channels of a joint, the column mean
  and the variance as the mean of squared deviations, the affine normalisation, and the result after the residual
  sum and the positive part.
-/
import proofs.«422135_j2637109920123_1_alg».proof.Proof.RefTerm
import proofs.«422135_j2637109920123_1_alg».proof.Proof.Spec
import proofs.«422135_j2637109920123_1_alg».proof.Proof.LibGatherCols
import proofs.«422135_j2637109920123_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx Cert.LibGatherCols
open Cert.ReferenceIdeal Cert.ReferenceIdeal.Gen
open Cert.Spec (SX SW SB SK SF SMF S1F SI S0 rowN rowT colV colC col row)

/-! ## The input, channel-last and flattened -/

/-- Row `mm`, feature `f` of the flattened input is the input at the row's sample and frame and the feature's
    channel and joint: the two arrays hold the same entry at the same row-major position. -/
theorem t_v1_apply (a0 : SX.Idx → EReal) (mm : Fin 16384) (f : Fin 1600) :
    RefTerm.t_v1 (F := Ideal) a0 (ix2 mm f) = Cert.Spec.xflat a0 mm f := by
  unfold RefTerm.t_v1 Cert.Spec.xflat
  refine (shapeCast_apply _ _ (ix2 mm f) (ix4 (rowN mm) (rowT mm) (colV f) (colC f)) ?_).trans ?_
  · rw [Shape.rowMajor_val_four, Shape.rowMajor_val_two]
    show (((mm.val / 256) * 256 + mm.val % 256) * 25 + f.val / 64) * 64 + f.val % 64 = mm.val * 1600 + f.val
    omega
  · exact transpose_apply _ a0 _ _ (ix4 (rowN mm) (colC f) (rowT mm) (colV f)) fun b =>
      match b with | ⟨0, _⟩ => rfl | ⟨1, _⟩ => rfl | ⟨2, _⟩ => rfl | ⟨3, _⟩ => rfl

/-! ## The two index vectors -/

/-- The first index vector, normalised and laid out as a column, is the specification's. -/
theorem t_v7_eq (a6 : IVec SF 32) : RefTerm.t_v7 a6 = Cert.Spec.nidx a6 := rfl

/-- The second index vector likewise. -/
theorem t_v24_eq (a7 : IVec SF 32) : RefTerm.t_v24 a7 = Cert.Spec.nidx a7 := rfl

/-! ## The first column selection -/

/-- Column `f` of the selected array is the flattened input's column at the clamped start index. -/
theorem t_v8_apply (a0 : SX.Idx → EReal) (a6 : IVec SF 32) (mm : Fin 16384) (f : Fin 1600) :
    RefTerm.t_v8 (F := Ideal) a0 a6 (ix2 mm f)
      = Cert.Spec.xflat a0 mm (Cert.Spec.kap (Cert.Spec.nidx a6) f) := by
  unfold RefTerm.t_v8
  rw [t_v7_eq]
  refine (gather_cols_apply (by decide) gather_S16384x1600_S1600x1_S16384x1600_0_1_n_n_1_1_163841.wf
    (RefTerm.t_v1 (F := Ideal) a0) (Cert.Spec.nidx a6) mm f).trans ?_
  exact t_v1_apply a0 mm _

/-! ## The masked product -/

/-- The joint of the feature of joint `v` and channel `c` is `v`. -/
theorem colV_col (v : Fin 25) (c : Fin 64) : colV (col v c) = v :=
  Fin.ext (by simp only [Cert.Spec.colV_val, Cert.Spec.col_val]; omega)

/-- The channel of the feature of joint `v` and channel `c` is `c`. -/
theorem colC_col (v : Fin 25) (c : Fin 64) : colC (col v c) = c :=
  Fin.ext (by simp only [Cert.Spec.colC_val, Cert.Spec.col_val]; omega)

/-- Row `mm`, joint `v`, channel `c` of the masked product: the selected input entry times the feature's scale. -/
theorem t_v14_apply (a0 : SX.Idx → EReal) (a3 : SK.Idx → EReal) (a6 : IVec SF 32)
    (mm : Fin 16384) (v : Fin 25) (c : Fin 64) :
    RefTerm.t_v14 (F := Ideal) a0 a3 a6 (ix3 mm v c)
      = Cert.Spec.xflat a0 mm (Cert.Spec.kap (Cert.Spec.nidx a6) (col v c)) * Cert.Spec.mk1 a3 (col v c) := by
  unfold RefTerm.t_v14 Cert.Spec.mk1
  rw [mulf_apply]
  congr 1
  · refine (shapeCast_apply _ _ (ix3 mm v c) (ix2 mm (col v c)) ?_).trans (t_v8_apply a0 a6 mm (col v c))
    rw [Shape.rowMajor_val_two, Shape.rowMajor_val_three]
    show mm.val * 1600 + (v.val * 64 + c.val) = (mm.val * 25 + v.val) * 64 + c.val
    omega
  · refine (broadcastInDim_apply _ _ _ (ix3 mm v c) (ix3 (0 : Fin 1) v c) ?_).trans ?_
    · intro a
      match a with
      | ⟨0, _⟩ => rfl
      | ⟨1, _⟩ => rfl
      | ⟨2, _⟩ => rfl
    · rw [addf_apply, colV_col, colC_col]
      rfl

/-! ## The linear layer -/

/-- The contraction of a `[16384, 25, 64]` array with a `[64, 64]` matrix over the last axis of the first and the
    first axis of the second, read at row `mm`, joint `v`, output channel `d`: the sum over the 64 input channels. -/
theorem dot_apply (A : (⟨3, ![16384, 25, 64]⟩ : Shape).Idx → EReal) (B : SW.Idx → EReal)
    (mm : Fin 16384) (v : Fin 25) (d : Fin 64) :
    Host.dotGeneral (F := Ideal) (φ₁ := .f32) (φ₂ := .f32) dot_S16384x25x64_S64x64_S16384x25x64_2_0_01_1_n_n none A B
        (ix3 mm v d)
      = ∑ c : Fin 64, A (ix3 mm v c) * B (ix2 c d) := by
  show FloatOps.dotGeneral (F := Ideal) (φ₁ := .f32) (φ₂ := .f32) _ none _ A B (ix3 mm v d) = _
  rw [Ideal.dotGeneral_apply,
    ← Equiv.sum_comp (contrEquiv1 dot_S16384x25x64_S64x64_S16384x25x64_2_0_01_1_n_n 64 rfl rfl).symm]
  refine Finset.sum_congr rfl fun c _ => ?_
  have c3 := contrEquiv1_symm_val dot_S16384x25x64_S64x64_S16384x25x64_2_0_01_1_n_n 64 rfl rfl c
  have l3 : dot_S16384x25x64_S64x64_S16384x25x64_2_0_01_1_n_n.lhsIdx (ix3 mm v d)
      ((contrEquiv1 _ 64 rfl rfl).symm c) = ix3 mm v c := by
    funext ax; apply Fin.ext
    match ax with
    | ⟨0, _⟩ => simp [DotDims.lhsIdx, dot_S16384x25x64_S64x64_S16384x25x64_2_0_01_1_n_n]; rfl
    | ⟨1, _⟩ => simp [DotDims.lhsIdx, dot_S16384x25x64_S64x64_S16384x25x64_2_0_01_1_n_n]; rfl
    | ⟨2, _⟩ => simp [DotDims.lhsIdx, dot_S16384x25x64_S64x64_S16384x25x64_2_0_01_1_n_n]; exact c3
  have r3 : dot_S16384x25x64_S64x64_S16384x25x64_2_0_01_1_n_n.rhsIdx (ix3 mm v d)
      ((contrEquiv1 _ 64 rfl rfl).symm c) = ix2 c d := by
    funext ax; apply Fin.ext
    match ax with
    | ⟨0, _⟩ => simp [DotDims.rhsIdx, dot_S16384x25x64_S64x64_S16384x25x64_2_0_01_1_n_n]; exact c3
    | ⟨1, _⟩ => simp [DotDims.rhsIdx, dot_S16384x25x64_S64x64_S16384x25x64_2_0_01_1_n_n]; rfl
  rw [l3, r3]

/-- Row `mm`, feature `g` of the linear layer: the sum over the 64 input channels of the feature's joint, plus the
    bias of the feature's channel. -/
theorem t_v18_apply (a0 : SX.Idx → EReal) (a1 : SW.Idx → EReal) (a2 : SB.Idx → EReal) (a3 : SK.Idx → EReal)
    (a6 : IVec SF 32) (mm : Fin 16384) (g : Fin 1600) :
    RefTerm.t_v18 (F := Ideal) a0 a1 a2 a3 a6 (ix2 mm g)
      = Cert.Spec.ylin a0 a1 a2 a3 (Cert.Spec.kap (Cert.Spec.nidx a6)) mm g := by
  unfold RefTerm.t_v18 Cert.Spec.ylin Cert.Spec.bfl
  refine (shapeCast_apply _ _ (ix2 mm g) (ix3 mm (colV g) (colC g)) ?_).trans ?_
  · rw [Shape.rowMajor_val_two, Shape.rowMajor_val_three]
    show (mm.val * 25 + g.val / 64) * 64 + g.val % 64 = mm.val * 1600 + g.val
    omega
  · rw [addf_apply, dot_apply]
    congr 1
    · exact Finset.sum_congr rfl fun c _ => by rw [t_v14_apply]
    · refine broadcastInDim_apply _ _ a2 (ix3 mm (colV g) (colC g)) (ix3 (0 : Fin 1) (0 : Fin 1) (colC g)) ?_
      intro a
      match a with
      | ⟨0, _⟩ => rfl
      | ⟨1, _⟩ => rfl
      | ⟨2, _⟩ => rfl

/-! ## The second column selection -/

/-- Column `f` of the selected array is the linear layer's column at the second clamped start index. -/
theorem t_v25_apply (a0 : SX.Idx → EReal) (a1 : SW.Idx → EReal) (a2 : SB.Idx → EReal) (a3 : SK.Idx → EReal)
    (a6 a7 : IVec SF 32) (mm : Fin 16384) (f : Fin 1600) :
    RefTerm.t_v25 (F := Ideal) a0 a1 a2 a3 a6 a7 (ix2 mm f)
      = Cert.Spec.y2 a0 a1 a2 a3 (Cert.Spec.kap (Cert.Spec.nidx a6)) (Cert.Spec.kap (Cert.Spec.nidx a7)) mm f := by
  unfold RefTerm.t_v25 Cert.Spec.y2
  rw [t_v24_eq]
  refine (gather_cols_apply (by decide) gather_S16384x1600_S1600x1_S16384x1600_0_1_n_n_1_1_163841.wf
    (RefTerm.t_v18 (F := Ideal) a0 a1 a2 a3 a6) (Cert.Spec.nidx a7) mm f).trans ?_
  exact t_v18_apply a0 a1 a2 a3 a6 mm _

/-! ## The column statistics -/

/-- The sum over the 16384 rows from the zero word, read at feature `f`. -/
theorem colsum_apply (X : SMF.Idx → EReal) (f : Fin 1600) :
    Host.reduceAdd (F := Ideal) (φ := .f32) X (constant (F := Ideal) S_ .f32 0x00000000#32)
        reducesTo_S16384x1600_S1600_d0 h_S_ (ix1 f)
      = ∑ m : Fin 16384, X (ix2 m f) := by
  unfold Host.reduceAdd
  rw [Ideal.hostReduceAdd_def,
    Ideal.hostReduceAdd_single _ (by decide : S16384x1600.Reduces [0] S1600), constant_apply,
    Ideal.ofBits_zero_f32, zero_add]
  refine Finset.sum_congr rfl fun m _ => congrArg X ?_
  funext a
  match a with
  | ⟨0, _⟩ => rfl
  | ⟨1, _⟩ => rfl

/-- The column mean at feature `f`. -/
theorem t_v28_apply (a0 : SX.Idx → EReal) (a1 : SW.Idx → EReal) (a2 : SB.Idx → EReal) (a3 : SK.Idx → EReal)
    (a6 a7 : IVec SF 32) (f : Fin 1600) :
    RefTerm.t_v28 (F := Ideal) a0 a1 a2 a3 a6 a7 (ix1 f)
      = Cert.Spec.mean a0 a1 a2 a3 (Cert.Spec.kap (Cert.Spec.nidx a6)) (Cert.Spec.kap (Cert.Spec.nidx a7)) f := by
  unfold RefTerm.t_v28 Cert.Spec.mean Cert.Spec.s1
  show FloatOps.hostDivf (F := Ideal) (φ := .f32) _ _ = _
  rw [Ideal.hostDivf_def, colsum_apply]
  exact congrArg₂ Ideal.div (Finset.sum_congr rfl fun m _ => t_v25_apply a0 a1 a2 a3 a6 a7 m f) rfl

/-! ## The variance -/

/-- The word of the number of rows denotes the real 16384. -/
theorem cN_eq : Cert.Spec.cN = ((16384 : ℝ) : EReal) := by
  simp [Ideal.ofBits, Ideal.ieee, -EReal.coe_mul]; norm_num

/-- The number of rows is positive. -/
theorem cN_pos : (0 : EReal) < Cert.Spec.cN := by
  rw [cN_eq]; exact EReal.coe_pos.mpr (by norm_num)

/-- The comparison "the number of rows exceeds zero" holds. -/
theorem cmp_ogt_cN : Ideal.cmp .ogt Cert.Spec.cN 0 = 1#1 := by
  simp [Ideal.cmp, cN_pos]

/-- The number of rows minus the converted integer zero is the number of rows. -/
theorem divisor_apply (i : S_.Idx) :
    subf (constant (F := Ideal) S_ .f32 0x46800000#32) (sitofp .f32 (constantI S_ 32 0#32)) i = Cert.Spec.cN := by
  rw [subf_apply, constant_apply, sitofp_apply]
  show Cert.Spec.cN - (((0#32 : BitVec 32).toInt : ℝ) : EReal) = _
  simp

/-- A scalar spread over the 1600 features reads the scalar. -/
theorem bcast0_apply {α : Type} (x : S_.Idx → α) (f : Fin 1600) :
    broadcastInDim S1600 ![] bcast_S_S1600 x (ix1 f) = x ix0 :=
  broadcastInDim_apply _ _ x (ix1 f) ix0 (fun a => a.elim0)

/-- The column mean recomputed as a row and spread over the rows, read at row `m`, feature `f`. -/
theorem meanRow_apply (X : SMF.Idx → EReal) (m : Fin 16384) (f : Fin 1600) :
    broadcastInDim S16384x1600 ![0, 1] bcast_S1x1600_S16384x1600_0_1
        (Host.divf (F := Ideal) (φ := .f32)
          (broadcastInDim S1x1600 ![1] bcast_S1600_S1x1600_1
            (Host.reduceAdd (F := Ideal) (φ := .f32) X (constant (F := Ideal) S_ .f32 0x00000000#32)
              reducesTo_S16384x1600_S1600_d0 h_S_))
          (broadcastInDim S1x1600 ![] bcast_S_S1x1600 (constant (F := Ideal) S_ .f32 0x46800000#32))) (ix2 m f)
      = Ideal.div (∑ m' : Fin 16384, X (ix2 m' f)) Cert.Spec.cN := by
  refine (broadcastInDim_apply _ _ _ (ix2 m f) (ix2 (0 : Fin 1) f) ?_).trans ?_
  · intro a
    match a with
    | ⟨0, _⟩ => rfl
    | ⟨1, _⟩ => rfl
  · show FloatOps.hostDivf (F := Ideal) (φ := .f32) _ _ = _
    rw [Ideal.hostDivf_def]
    refine congrArg₂ Ideal.div ?_ rfl
    refine (broadcastInDim_apply _ _ _ (ix2 (0 : Fin 1) f) (ix1 f) ?_).trans (colsum_apply X f)
    intro a
    match a with
    | ⟨0, _⟩ => rfl

/-- The variance at feature `f`: the divisor is the number of rows, which is positive, so the quotient of the
    summed squared deviations is kept. -/
theorem t_v29_apply (a0 : SX.Idx → EReal) (a1 : SW.Idx → EReal) (a2 : SB.Idx → EReal) (a3 : SK.Idx → EReal)
    (a6 a7 : IVec SF 32) (f : Fin 1600) :
    RefTerm.t_v29 (F := Ideal) a0 a1 a2 a3 a6 a7 (ix1 f)
      = Cert.Spec.varR a0 a1 a2 a3 (Cert.Spec.kap (Cert.Spec.nidx a6)) (Cert.Spec.kap (Cert.Spec.nidx a7)) f := by
  have hX : ∀ m : Fin 16384, RefTerm.t_v25 (F := Ideal) a0 a1 a2 a3 a6 a7 (ix2 m f)
      = Cert.Spec.y2 a0 a1 a2 a3 (Cert.Spec.kap (Cert.Spec.nidx a6)) (Cert.Spec.kap (Cert.Spec.nidx a7)) m f :=
    fun m => t_v25_apply a0 a1 a2 a3 a6 a7 m f
  unfold RefTerm.t_v29 Cert.Spec.varR Cert.Spec.mean Cert.Spec.s1
  generalize RefTerm.t_v25 (F := Ideal) a0 a1 a2 a3 a6 a7 = X at hX ⊢
  dsimp only
  rw [select_apply, bcast0_apply, cmpf_apply, divisor_apply, constant_apply, Ideal.ofBits_zero_f32, Ideal.cmpf_def,
    cmp_ogt_cN, select_one]
  show FloatOps.hostDivf (F := Ideal) (φ := .f32) _ _ = _
  rw [Ideal.hostDivf_def, colsum_apply, bcast0_apply, divisor_apply]
  refine congrArg₂ Ideal.div (Finset.sum_congr rfl fun m _ => ?_) rfl
  rw [mulf_apply, subf_apply, meanRow_apply]
  simp only [hX]

/-! ## The affine normalisation -/

/-- A vector over the features laid out as a row and spread over the rows reads, at row `m`, feature `f`, its
    entry at `f`. -/
theorem rowBcast_apply {α : Type} (y : S1600.Idx → α) (m : Fin 16384) (f : Fin 1600) :
    broadcastInDim S16384x1600 ![0, 1] bcast_S1x1600_S16384x1600_0_1
        (broadcastInDim S1x1600 ![1] bcast_S1600_S1x1600_1 y) (ix2 m f) = y (ix1 f) := by
  refine (broadcastInDim_apply _ _ _ (ix2 m f) (ix2 (0 : Fin 1) f) ?_).trans ?_
  · intro a
    match a with
    | ⟨0, _⟩ => rfl
    | ⟨1, _⟩ => rfl
  · refine broadcastInDim_apply _ _ y (ix2 (0 : Fin 1) f) (ix1 f) ?_
    intro a
    match a with
    | ⟨0, _⟩ => rfl

/-- The reciprocal square root of a vector, read at an index. -/
theorem hostRsqrt_apply {s : Shape} (Z : FVec Ideal s .f32) (i : s.Idx) :
    Host.rsqrt Z i = Ideal.rsqrt (Z i) := rfl

/-- Row `mm`, feature `f` of the normalised array. -/
theorem t_v44_apply (a0 : SX.Idx → EReal) (a1 : SW.Idx → EReal) (a2 : SB.Idx → EReal) (a3 : SK.Idx → EReal)
    (a4 a5 : SF.Idx → EReal) (a6 a7 : IVec SF 32) (mm : Fin 16384) (f : Fin 1600) :
    RefTerm.t_v44 (F := Ideal) a0 a1 a2 a3 a4 a5 a6 a7 (ix2 mm f)
      = ((Cert.Spec.y2 a0 a1 a2 a3 (Cert.Spec.kap (Cert.Spec.nidx a6)) (Cert.Spec.kap (Cert.Spec.nidx a7)) mm f
            - Cert.Spec.mean a0 a1 a2 a3 (Cert.Spec.kap (Cert.Spec.nidx a6)) (Cert.Spec.kap (Cert.Spec.nidx a7)) f)
          * Ideal.rsqrt
              (Cert.Spec.varR a0 a1 a2 a3 (Cert.Spec.kap (Cert.Spec.nidx a6)) (Cert.Spec.kap (Cert.Spec.nidx a7)) f
                + Cert.Spec.eps))
        * a4 (ix1 f) + a5 (ix1 f) := by
  unfold RefTerm.t_v44
  rw [addf_apply, mulf_apply, mulf_apply, subf_apply, rowBcast_apply, rowBcast_apply, rowBcast_apply,
    rowBcast_apply, t_v25_apply, t_v28_apply, hostRsqrt_apply, addf_apply, t_v29_apply, bcast0_apply,
    constant_apply]

/-! ## The result -/

/-- The reference's result at sample `n`, channel `d`, frame `t`, joint `v` is the specification's, with the variance
    taken as the mean of squared deviations and each index vector read through its clamped columns. -/
theorem t_v48_apply (a0 : SX.Idx → EReal) (a1 : SW.Idx → EReal) (a2 : SB.Idx → EReal) (a3 : SK.Idx → EReal)
    (a4 a5 : SF.Idx → EReal) (a6 a7 : IVec S1600 32) (n d : Fin 64) (t : Fin 256) (v : Fin 25) :
    RefTerm.t_v48 (F := Ideal) a0 a1 a2 a3 a4 a5 a6 a7 (ix4 n d t v)
      = Cert.Spec.outv a0 a1 a2 a3 a4 a5 (Cert.Spec.kap (Cert.Spec.nidx a6)) (Cert.Spec.kap (Cert.Spec.nidx a7))
          (Cert.Spec.varR a0 a1 a2 a3 (Cert.Spec.kap (Cert.Spec.nidx a6)) (Cert.Spec.kap (Cert.Spec.nidx a7)))
          n d t v := by
  have hz : broadcastInDim S64x64x256x25 ![] bcast_S_S64x64x256x25
      (constant (F := Ideal) S_ .f32 0x00000000#32) (ix4 n d t v) = 0 :=
    (broadcastInDim_apply _ _ _ (ix4 n d t v) ix0 (fun a => a.elim0)).trans
      ((constant_apply _ _).trans Ideal.ofBits_zero_f32)
  have ht : transpose S64x64x256x25 [0, 3, 1, 2]
      (shapeCast S64x256x25x64 (RefTerm.t_v44 (F := Ideal) a0 a1 a2 a3 a4 a5 a6 a7)
        shapeCasts_S16384x1600_S64x256x25x64)
      transposes_S64x256x25x64_S64x64x256x25_0_3_1_2 (ix4 n d t v)
      = RefTerm.t_v44 (F := Ideal) a0 a1 a2 a3 a4 a5 a6 a7 (ix2 (row n t) (col v d)) := by
    refine (transpose_apply _ _ _ (ix4 n d t v) (ix4 n t v d) ?_).trans ?_
    · intro b
      match b with
      | ⟨0, _⟩ => rfl
      | ⟨1, _⟩ => rfl
      | ⟨2, _⟩ => rfl
      | ⟨3, _⟩ => rfl
    · refine shapeCast_apply _ _ (ix4 n t v d) (ix2 (row n t) (col v d)) ?_
      rw [Shape.rowMajor_val_two, Shape.rowMajor_val_four]
      show (n.val * 256 + t.val) * 1600 + (v.val * 64 + d.val)
        = ((n.val * 256 + t.val) * 25 + v.val) * 64 + d.val
      omega
  unfold RefTerm.t_v48 Cert.Spec.outv
  rw [maximumf_apply, addf_apply, hz, ht, t_v44_apply]

end Cert.ReferenceIdeal.RefValue

end
-- ==== Proof.lean ====
/-
  The certificate's claims assembled.

  Both programs compute, on a batch `x0 : [64, 64, 256, 25]`, a shift-permuted, mask-scaled 64×64 linear layer over
  every (sample, frame, joint), a second shift permutation of the 1600 features, a normalisation of every feature by
  its mean and variance over the 16384 (sample, frame) rows, an affine map, the residual `+ x0` and a rectifier. The
  kernel program does the linear layer and the running sums in a first pipelined region, forms the statistics on the
  host, and normalises in a second region; the reference is host operations only.

  At the ideal instance the two results agree wherever both index vectors name columns of the feature axis
  (`-1600 ≤ idx < 1600`, the range on which an out-of-range column never has to be filled), and all float inputs are
  real numbers: the only arithmetic difference is the variance, mean of squares minus squared mean against mean of
  squared deviations, which agree on real numbers.
-/
import proofs.«422135_j2637109920123_1_alg».proof.Defs
import proofs.«422135_j2637109920123_1_alg».proof.Proof.Gen.Kernel
import proofs.«422135_j2637109920123_1_alg».proof.Proof.Gen.Kernel.Frame
import proofs.«422135_j2637109920123_1_alg».proof.Proof.Gen.KernelIdeal
import proofs.«422135_j2637109920123_1_alg».proof.Proof.Gen.KernelIdeal.Frame
import proofs.«422135_j2637109920123_1_alg».proof.Proof.Gen.ReferenceIdeal
import proofs.«422135_j2637109920123_1_alg».proof.Proof.Gen.Pre_finite_inputs
import proofs.«422135_j2637109920123_1_alg».proof.Proof.Spec
import proofs.«422135_j2637109920123_1_alg».proof.Proof.Algebra
import proofs.«422135_j2637109920123_1_alg».proof.Proof.PreDecode
import proofs.«422135_j2637109920123_1_alg».proof.Proof.KernelRun
import proofs.«422135_j2637109920123_1_alg».proof.Proof.KValue
import proofs.«422135_j2637109920123_1_alg».proof.Proof.RefRun
import proofs.«422135_j2637109920123_1_alg».proof.Proof.RefValue
import Idealize.ShloMosaic.Lib.ValueIdx

noncomputable section

namespace Cert.Proof

open Idealize.ShloMosaic Idealize.ShloMosaic.TcCoe Idealize.ShloMosaic.ValueIdx Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ => Cert.ReferenceIdeal.RefRun.frame (F := Ideal) m ρ

/-- The two idealized programs end with the same result: index by index both are the specification's `outv`, the
    kernel with the variance as mean of squares minus squared mean (under the index ranges the precondition gives),
    the reference with the mean of squared deviations; on the real inputs the precondition gives the two agree. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v28),
    Cert.KernelIdeal.KRun.run (F := Ideal) m ρ, ?_⟩
  refine (θ_run Cert.ReferenceIdeal.defs _ _).mono (fun r h c => ⟨(h c).1.trans ?_, (h c).2⟩)
    (Cert.ReferenceIdeal.RefRun.run (F := Ideal) m' ρ')
  obtain ⟨e0, e1, e2, e3, e4, e5, e6, e7⟩ := hagree c
  rw [e0, e1, e2, e3, e4, e5, e6, e7]
  obtain ⟨hx, hW, hb, hm, hsi, hso⟩ := Cert.PreDecode.decode (hpre c)
  funext i
  obtain ⟨n, d, t, v, rfl⟩ : ∃ (n d : Fin 64) (t : Fin 256) (v : Fin 25), i = ix4 n d t v := ⟨i 0, i 1, i 2, i 3, eq_ix4 i⟩
  refine (Cert.ReferenceIdeal.RefValue.t_v48_apply _ _ _ _ _ _ _ _ n d t v).trans ?_
  refine ((Cert.Algebra.outv_congr _ _ _ _ _ _ _ _ hx hW hb hm n d t v).symm).trans ?_
  exact (Cert.KernelIdeal.KValue.value m ρ c hsi hso n d t v).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
